-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S200x1280 .f32 .bf16
  ∧ IdealRules.truncf_extf.Statement Cert.KernelIdeal.S200x1280 .f32 .bf16
  ∧ IdealRules.truncf_extf.Statement Cert.KernelIdeal.S1x1280 .f32 .bf16
  ∧ IdealRules.truncf_extf.Statement Cert.KernelIdeal.S1x1280 .f32 .bf16
  ∧ IdealRules.truncf_extf.Statement Cert.KernelIdeal.S1x1280 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S100000x3 : Shape := ⟨2, ![100000, 3]⟩
abbrev S2x3200000 : Shape := ⟨2, ![2, 3200000]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn {F : FTy → Type} [FloatOps F] (main_arg0 : FVec F S100000x9 .f32) (main_arg1 : FVec F S100000x3 .f32) (main_arg2 : IVec S2x3200000 32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_c_2 : IVec S_ 32 := constantI S_ 32 0#32
  let main_v9 : IVec S2x3200000 32 := broadcastInDim S2x3200000 ![] bcast_S_S2x3200000 main_c_2
  let main_v10 : IVec S2x3200000 1 := cmpi .sge main_arg2 main_v9
  let main_c_3 : IVec S_ 32 := constantI S_ 32 100000#32
  let main_v11 : IVec S2x3200000 32 := broadcastInDim S2x3200000 ![] bcast_S_S2x3200000 main_c_3
  let main_v12 : IVec S2x3200000 1 := cmpi .slt main_arg2 main_v11
  let main_v13 : IVec S2x3200000 1 := andi main_v10 main_v12
  let main_c_4 : IVec S_ 1 := constantI S_ 1 1#1
  let main_v14 : IVec S_ 1 := (fun x v => Host.reduce IntOp.andi x v reducesTo_S2x3200000_S_d0_1 h_S_) main_v13 main_c_4
  let main_v15 : IVec S_ 1 := andi main_v8 main_v14
  main_v15
-- ==== Kernel.lean ====
abbrev S100000x9 : Shape := ⟨2, ![100000, 9]⟩
abbrev S100000x3 : Shape := ⟨2, ![100000, 3]⟩
abbrev S2x3200000 : Shape := ⟨2, ![2, 3200000]⟩
abbrev S100000x1 : Shape := ⟨2, ![100000, 1]⟩
abbrev S100000 : Shape := ⟨1, ![100000]⟩
abbrev S1x100000 : Shape := ⟨2, ![1, 100000]⟩
abbrev S4x100000 : Shape := ⟨2, ![4, 100000]⟩
abbrev S_ : Shape := ⟨0, ![]⟩
abbrev S4x102400 : Shape := ⟨2, ![4, 102400]⟩
abbrev S800x512 : Shape := ⟨2, ![800, 512]⟩
abbrev S102400 : Shape := ⟨1, ![102400]⟩
abbrev S200x512 : Shape := ⟨2, ![200, 512]⟩
abbrev S1x3200000 : Shape := ⟨2, ![1, 3200000]⟩
abbrev S3200000 : Shape := ⟨1, ![3200000]⟩
abbrev S2x4x200x512 : Shape := ⟨4, ![2, 4, 200, 512]⟩
abbrev S1x1280 : Shape := ⟨2, ![1, 1280]⟩
abbrev S1x4x200x512 : Shape := ⟨4, ![1, 4, 200, 512]⟩
abbrev S4x200x512 : Shape := ⟨3, ![4, 200, 512]⟩
abbrev S512x1 : Shape := ⟨2, ![512, 1]⟩
abbrev S200x1 : Shape := ⟨2, ![200, 1]⟩
abbrev S512x1280 : Shape := ⟨2, ![512, 1280]⟩
abbrev S200x1280 : Shape := ⟨2, ![200, 1280]⟩
abbrev S800x1280 : Shape := ⟨2, ![800, 1280]⟩
abbrev S1280 : Shape := ⟨1, ![1280]⟩
abbrev S1x200x512 : Shape := ⟨3, ![1, 200, 512]⟩
abbrev S3x200x512 : Shape := ⟨3, ![3, 200, 512]⟩
abbrev S3x102400 : Shape := ⟨2, ![3, 102400]⟩
abbrev S3x100000 : Shape := ⟨2, ![3, 100000]⟩

abbrev nBuf : Space → Nat
  | .hbm => 69
  | .vmem => 9
  | .smem => 0
  | _ => 0

abbrev bufTy : (tb : Table) → Fin (tcTables nBuf tb) → BufTy
  | .hbm, ⟨0, _⟩ => ⟨S100000x9, .f32⟩
  | .hbm, ⟨1, _⟩ => ⟨S100000x3, .f32⟩
  | .hbm, ⟨2, _⟩ => ⟨S2x3200000, .i32⟩
  | .hbm, ⟨3, _⟩ => ⟨S100000x1, .f32⟩
  | .hbm, ⟨4, _⟩ => ⟨S100000, .f32⟩
  | .hbm, ⟨5, _⟩ => ⟨S100000x1, .f32⟩
  | .hbm, ⟨6, _⟩ => ⟨S100000, .f32⟩
  | .hbm, ⟨7, _⟩ => ⟨S100000x1, .f32⟩
  | .hbm, ⟨8, _⟩ => ⟨S100000, .f32⟩
  | .hbm, ⟨9, _⟩ => ⟨S100000x1, .f32⟩
  | .hbm, ⟨10, _⟩ => ⟨S100000, .f32⟩
  | .hbm, ⟨11, _⟩ => ⟨S100000x1, .f32⟩
  | .hbm, ⟨12, _⟩ => ⟨S100000, .f32⟩
  | .hbm, ⟨13, _⟩ => ⟨S1x100000, .f32⟩
  | .hbm, ⟨14, _⟩ => ⟨S1x100000, .f32⟩
  | .hbm, ⟨15, _⟩ => ⟨S1x100000, .f32⟩
  | .hbm, ⟨16, _⟩ => ⟨S1x100000, .f32⟩
  | .hbm, ⟨17, _⟩ => ⟨S4x100000, .f32⟩
  | .hbm, ⟨18, _⟩ => ⟨S_, .i32⟩
  | .hbm, ⟨19, _⟩ => ⟨S_, .f32⟩
  | .hbm, ⟨20, _⟩ => ⟨S4x102400, .f32⟩
  | .hbm, ⟨21, _⟩ => ⟨S4x102400, .bf16⟩
  | .hbm, ⟨22, _⟩ => ⟨S4x102400, .f32⟩
  | .hbm, ⟨23, _⟩ => ⟨S4x102400, .f32⟩
  | .hbm, ⟨24, _⟩ => ⟨S4x102400, .bf16⟩
  | .hbm, ⟨25, _⟩ => ⟨S800x512, .bf16⟩
  | .hbm, ⟨26, _⟩ => ⟨S800x512, .bf16⟩
  | .hbm, ⟨27, _⟩ => ⟨S_, .i32⟩
  | .hbm, ⟨28, _⟩ => ⟨S_, .f32⟩
  | .hbm, ⟨29, _⟩ => ⟨S102400, .f32⟩
  | .hbm, ⟨30, _⟩ => ⟨S200x512, .f32⟩
  | .hbm, ⟨31, _⟩ => ⟨S1x3200000, .i32⟩
  | .hbm, ⟨32, _⟩ => ⟨S3200000, .i32⟩
  | .hbm, ⟨33, _⟩ => ⟨S1x3200000, .i32⟩
  | .hbm, ⟨34, _⟩ => ⟨S1x3200000, .i32⟩
  | .hbm, ⟨35, _⟩ => ⟨S3200000, .i32⟩
  | .hbm, ⟨36, _⟩ => ⟨S1x3200000, .i32⟩
  | .hbm, ⟨37, _⟩ => ⟨S2x4x200x512, .f32⟩
  | .hbm, ⟨38, _⟩ => ⟨S1x4x200x512, .f32⟩
  | .hbm, ⟨39, _⟩ => ⟨S4x200x512, .f32⟩
  | .hbm, ⟨40, _⟩ => ⟨S1x4x200x512, .f32⟩
  | .hbm, ⟨41, _⟩ => ⟨S4x200x512, .f32⟩
  | .hbm, ⟨42, _⟩ => ⟨S4x200x512, .f32⟩
  | .hbm, ⟨43, _⟩ => ⟨S1x200x512, .f32⟩
  | .hbm, ⟨44, _⟩ => ⟨S200x512, .f32⟩
  | .hbm, ⟨45, _⟩ => ⟨S_, .f32⟩
  | .hbm, ⟨46, _⟩ => ⟨S200x512, .f32⟩
  | .hbm, ⟨47, _⟩ => ⟨S200x512, .f32⟩
  | .hbm, ⟨48, _⟩ => ⟨S_, .f32⟩
  | .hbm, ⟨49, _⟩ => ⟨S200x512, .f32⟩
  | .hbm, ⟨50, _⟩ => ⟨S200x512, .f32⟩
  | .hbm, ⟨51, _⟩ => ⟨S200x512, .f32⟩
  | .hbm, ⟨52, _⟩ => ⟨S_, .f32⟩
  | .hbm, ⟨53, _⟩ => ⟨S200x512, .f32⟩
  | .hbm, ⟨54, _⟩ => ⟨S200x512, .i1⟩
  | .hbm, ⟨55, _⟩ => ⟨S200x512, .f32⟩
  | .hbm, ⟨56, _⟩ => ⟨S3x200x512, .f32⟩
  | .hbm, ⟨57, _⟩ => ⟨S_, .f32⟩
  | .hbm, ⟨58, _⟩ => ⟨S3x200x512, .f32⟩
  | .hbm, ⟨59, _⟩ => ⟨S3x200x512, .f32⟩
  | .hbm, ⟨60, _⟩ => ⟨S1x200x512, .f32⟩
  | .hbm, ⟨61, _⟩ => ⟨S3x200x512, .f32⟩
  | .hbm, ⟨62, _⟩ => ⟨S3x200x512, .f32⟩
  | .hbm, ⟨63, _⟩ => ⟨S1x200x512, .f32⟩
  | .hbm, ⟨64, _⟩ => ⟨S3x200x512, .f32⟩
  | .hbm, ⟨65, _⟩ => ⟨S3x200x512, .f32⟩
  | .hbm, ⟨66, _⟩ => ⟨S3x102400, .f32⟩
  | .hbm, ⟨67, _⟩ => ⟨S3x100000, .f32⟩
  | .hbm, ⟨68, _⟩ => ⟨S100000x3, .f32⟩
  | .local _ .vmem, ⟨0, _⟩ => ⟨S1x1280, .i32⟩
  | .local _ .vmem, ⟨1, _⟩ => ⟨S1x1280, .i32⟩
  | .local _ .vmem, ⟨2, _⟩ => ⟨S1x1280, .i32⟩
  | .local _ .vmem, ⟨3, _⟩ => ⟨S1x1280, .i32⟩
  | .local _ .vmem, ⟨4, _⟩ => ⟨S800x512, .bf16⟩
  | .local _ .vmem, ⟨5, _⟩ => ⟨S800x512, .bf16⟩
  | .local _ .vmem, ⟨6, _⟩ => ⟨S1x4x200x512, .f32⟩
  | .local _ .vmem, ⟨7, _⟩ => ⟨S1x4x200x512, .f32⟩
  | .local _ .vmem, ⟨8, _⟩ => ⟨S4x200x512, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst : Ref sig .tc := ⟨.hbm, 45, rfl⟩
abbrev main_v38 : Ref sig .tc := ⟨.hbm, 46, rfl⟩
abbrev main_v39 : Ref sig .tc := ⟨.hbm, 47, rfl⟩
abbrev main_cst_1 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1250], ![false, false]⟩

def k0_cond2 (i : grid0.Coords) : BitVec 1 :=
  let arg1 : BitVec 32 := BitVec.ofNat 32 (i 1).val
  let c1249_i32 : BitVec 32 := 1249#32
  let v164 : BitVec 1 := Scalar.cmpi .eq arg1 c1249_i32
  let v165 : BitVec 32 := Scalar.extui v164
  let c0_i32_51 : BitVec 32 := 0#32
  let v166 : BitVec 1 := Scalar.cmpi .ne v165 c0_i32_51
  v166

def cc0_transform_0 (i : grid0.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S800x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S800x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x200x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S100000x9_S100000x1_0_3 : S100000x9.Slices ![0, 3] S100000x1
  shapeCasts_S100000x1_S100000 : S100000x1.ShapeCasts S100000
  slices_S100000x9_S100000x1_0_8 : S100000x9.Slices ![0, 8] S100000x1
  slices_S100000x3_S100000x1_0_0 : S100000x3.Slices ![0, 0] S100000x1
  slices_S100000x3_S100000x1_0_1 : S100000x3.Slices ![0, 1] S100000x1
  slices_S100000x3_S100000x1_0_2 : S100000x3.Slices ![0, 2] S100000x1
  bcast_S100000_S1x100000_1 : S100000.BroadcastsInDim S1x100000 (![1] : Fin 1 → Fin S1x100000.rank)
  concatenates_S1x100000_S1x100000_S1x100000_S1x100000_S4x100000_d0 : Shape.Concatenates [S1x100000, S1x100000, S1x100000, S1x100000] S4x100000 0
  pads_S4x100000_S4x102400_000_024000 : S4x100000.Pads (![0, 0] : Fin 2 → Nat) ![0, 2400] ![0, 0] S4x102400
  h_S_ : 0 < S_.numel
  bitsLt_bf16_f32 : FTy.bits .bf16 < FTy.bits .f32
  shapeCasts_S4x102400_S800x512 : S4x102400.ShapeCasts S800x512
  pads_S100000_S102400_024000 : S100000.Pads (![0] : Fin 1 → Nat) ![2400] ![0] S102400
  shapeCasts_S102400_S200x512 : S102400.ShapeCasts S200x512
  slices_S2x3200000_S1x3200000_0_0 : S2x3200000.Slices ![0, 0] S1x3200000
  shapeCasts_S1x3200000_S3200000 : S1x3200000.ShapeCasts S3200000
  shapeCasts_S3200000_S1x3200000 : S3200000.ShapeCasts S1x3200000
  slices_S2x3200000_S1x3200000_1_0 : S2x3200000.Slices ![1, 0] S1x3200000
  inb_S4x200x512_S4x200x512_0_0_0 : ∀ a, (![0, 0, 0] : Fin 3 → Nat) a + S4x200x512.size a ≤ S4x200x512.size a
  h_S4x200x512 : 0 < S4x200x512.numel
  shapeCasts_S4x200x512_S4x200x512 : S4x200x512.ShapeCasts S4x200x512
  inb_S800x512_S800x512_0_0 : ∀ a, (![0, 0] : Fin 2 → Nat) a + S800x512.size a ≤ S800x512.size a
  h_S800x512 : 0 < S800x512.numel
  shapeCasts_S800x512_S800x512 : S800x512.ShapeCasts S800x512
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  iota_S512x1_d0_w32 : S512x1.Iotas .tc 32 [0]
  iota_S200x1_d0_w32 : S200x1.Iotas .tc 32 [0]
  broadcasts_S512x1_S512x1280 : S512x1.Broadcasts S512x1280
  broadcasts_S1x1280_S512x1280 : S1x1280.Broadcasts S512x1280
  natLt_1_32 : 1 < 32
  broadcasts_S200x1_S200x1280 : S200x1.Broadcasts S200x1280
  broadcasts_S1x1280_S200x1280 : S1x1280.Broadcasts S200x1280
  slices_S800x1280_o0_0_S200x1280 : S800x1280.Slices ![0, 0] S200x1280
  reduces_S200x1280_S1280 : S200x1280.Reduces [0] S1280
  shapeCasts_S1280_S1x1280 : S1280.ShapeCasts S1x1280
  slices_S800x1280_o200_0_S200x1280 : S800x1280.Slices ![200, 0] S200x1280
  slices_S800x1280_o400_0_S200x1280 : S800x1280.Slices ![400, 0] S200x1280
  slices_S800x1280_o600_0_S200x1280 : S800x1280.Slices ![600, 0] S200x1280
  inb_S4x200x512_S1x200x512_0_0_0 : ∀ a, (![0, 0, 0] : Fin 3 → Nat) a + S1x200x512.size a ≤ S4x200x512.size a
  h_S1x200x512 : 0 < S1x200x512.numel
  shapeCasts_S1x200x512_S200x512 : S1x200x512.ShapeCasts S200x512
  shapeCasts_S200x512_S1x200x512 : S200x512.ShapeCasts S1x200x512
  inb_S4x200x512_S1x200x512_1_0_0 : ∀ a, (![1, 0, 0] : Fin 3 → Nat) a + S1x200x512.size a ≤ S4x200x512.size a
  inb_S4x200x512_S1x200x512_2_0_0 : ∀ a, (![2, 0, 0] : Fin 3 → Nat) a + S1x200x512.size a ≤ S4x200x512.size a
  inb_S4x200x512_S1x200x512_3_0_0 : ∀ a, (![3, 0, 0] : Fin 3 → Nat) a + S1x200x512.size a ≤ S4x200x512.size a
  inb_S1x4x200x512_S1x4x200x512_0_0_0_0 : ∀ a, (![0, 0, 0, 0] : Fin 4 → Nat) a + S1x4x200x512.size a ≤ S1x4x200x512.size a
  h_S1x4x200x512 : 0 < S1x4x200x512.numel
  shapeCasts_S1x4x200x512_S4x200x512 : S1x4x200x512.ShapeCasts S4x200x512
  shapeCasts_S4x200x512_S1x4x200x512 : S4x200x512.ShapeCasts S1x4x200x512
  slices_S2x4x200x512_S1x4x200x512_0_0_0_0 : S2x4x200x512.Slices ![0, 0, 0, 0] S1x4x200x512
  slices_S2x4x200x512_S1x4x200x512_1_0_0_0 : S2x4x200x512.Slices ![1, 0, 0, 0] S1x4x200x512
  slices_S4x200x512_S1x200x512_3_0_0 : S4x200x512.Slices ![3, 0, 0] S1x200x512
  bcast_S_S200x512 : S_.BroadcastsInDim S200x512 (![] : Fin 0 → Fin S200x512.rank)
  slices_S4x200x512_S3x200x512_0_0_0 : S4x200x512.Slices ![0, 0, 0] S3x200x512
  bcast_S_S3x200x512 : S_.BroadcastsInDim S3x200x512 (![] : Fin 0 → Fin S3x200x512.rank)
  bcast_S200x512_S1x200x512_1_2 : S200x512.BroadcastsInDim S1x200x512 (![1, 2] : Fin 2 → Fin S1x200x512.rank)
  bcast_S1x200x512_S3x200x512_0_1_2 : S1x200x512.BroadcastsInDim S3x200x512 (![0, 1, 2] : Fin 3 → Fin S3x200x512.rank)
  shapeCasts_S3x200x512_S3x102400 : S3x200x512.ShapeCasts S3x102400
  slices_S3x102400_S3x100000_0_0 : S3x102400.Slices ![0, 0] S3x100000
  transposes_S3x100000_S100000x3_1_0 : S3x100000.Transposes [1, 0] S100000x3
  dot_S800x512_S512x1280_S800x1280_1_0_0_1_n_n_wf : DotDims.WF S800x512 S512x1280 S800x1280 [1] [0] [0] [1] [] []
  dot_S200x1280_S512x1280_S200x512_1_1_0_0_n_n_wf : DotDims.WF S200x1280 S512x1280 S200x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280.size a ≤ S1x3200000.size a
  hwx0_0 : ∀ i : grid0.Coords, EltTy.bits .i32 = 32 ∨ (Rect.block (s := S1x3200000) S1x1280.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x3200000.size a
  hwx0_1 : ∀ i : grid0.Coords, EltTy.bits .i32 = 32 ∨ (Rect.block (s := S1x3200000) S1x1280.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S800x512.size a ≤ S800x512.size a
  hwx0_2 : ∀ i : grid0.Coords, EltTy.bits .bf16 = 32 ∨ (Rect.block (s := S800x512) S800x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S800x512.size a ≤ S800x512.size a
  hwx0_3 : ∀ i : grid0.Coords, EltTy.bits .bf16 = 32 ∨ (Rect.block (s := S800x512) S800x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x200x512.size a ≤ S2x4x200x512.size a
  hwx0_4 : ∀ i : grid0.Coords, EltTy.bits .f32 = 32 ∨ (Rect.block (s := S2x4x200x512) S1x4x200x512.size (cc0_transform_4 i) (hinb0_4 i)).WholeWords (EltTy.packing .f32)

variable [Facts₀]

def dot_S800x512_S512x1280_S800x1280_1_0_0_1_n_n : DotDims S800x512 S512x1280 S800x1280 where
  lhsContracting := [1]
  rhsContracting := [0]
  lhsNonContracting := [0]
  rhsNonContracting := [1]
  lhsBatch := []
  rhsBatch := []
  wf := dot_S800x512_S512x1280_S800x1280_1_0_0_1_n_n_wf
def dot_S200x1280_S512x1280_S200x512_1_1_0_0_n_n : DotDims S200x1280 S512x1280 S200x512 where
  lhsContracting := [1]
  rhsContracting := [1]
  lhsNonContracting := [0]
  rhsNonContracting := [0]
  lhsBatch := []
  rhsBatch := []
  wf := dot_S200x1280_S512x1280_S200x512_1_1_0_0_n_n_wf

abbrev win0_0 : Pipeline.Window sig grid0 :=
  Pipeline.Window.ofSpec (Memref.whole main_v26) S1x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S800x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S800x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x4x200x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S100000x9 : Shape := ⟨2, ![100000, 9]⟩
abbrev S100000x3 : Shape := ⟨2, ![100000, 3]⟩
abbrev S2x3200000 : Shape := ⟨2, ![2, 3200000]⟩
abbrev S100000x1 : Shape := ⟨2, ![100000, 1]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩

abbrev nBuf : Space → Nat
  | .hbm => 86
  | .vmem => 0
  | .smem => 0
  | _ => 0

abbrev bufTy : (tb : Table) → Fin (tcTables nBuf tb) → BufTy
  | .hbm, ⟨0, _⟩ => ⟨S100000x9, .f32⟩
  | .hbm, ⟨1, _⟩ => ⟨S100000x3, .f32⟩
  | .hbm, ⟨2, _⟩ => ⟨S2x3200000, .i32⟩
  | .hbm, ⟨3, _⟩ => ⟨S100000x1, .f32⟩
  | .hbm, ⟨4, _⟩ => ⟨S100000, .f32⟩
  | .hbm, ⟨5, _⟩ => ⟨S100000x1, .f32⟩
  | .hbm, ⟨6, _⟩ => ⟨S100000, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000, .f32⟩
  | .hbm, ⟨29, _⟩ => ⟨S3200000, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x3, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x3, .f32⟩
  | .hbm, ⟨48, _⟩ => ⟨S3200000x3, .f32⟩
  | .hbm, ⟨49, _⟩ => ⟨S3200000x3, .f32⟩
  | .hbm, ⟨50, _⟩ => ⟨S_, .f32⟩
  | .hbm, ⟨51, _⟩ => ⟨S3200000, .f32⟩
  | .hbm, ⟨52, _⟩ => ⟨S_, .f32⟩
  | .hbm, ⟨53, _⟩ => ⟨S3200000, .f32⟩
  | .hbm, ⟨54, _⟩ => ⟨S3200000, .f32⟩
  | .hbm, ⟨55, _⟩ => ⟨S3200000, .f32⟩
  | .hbm, ⟨56, _⟩ => ⟨S3200000x1, .f32⟩
  | .hbm, ⟨57, _⟩ => ⟨S3200000x3, .f32⟩
  | .hbm, ⟨58, _⟩ => ⟨S3200000x3, .f32⟩
  | .hbm, ⟨59, _⟩ => ⟨S_, .f32⟩
  | .hbm, ⟨60, _⟩ => ⟨S100000x3, .f32⟩
  | .hbm, ⟨61, _⟩ => ⟨S3200000x1, .i32⟩
  | .hbm, ⟨62, _⟩ => ⟨S100000x3, .f32⟩
  | .hbm, ⟨63, _⟩ => ⟨S_, .f32⟩
  | .hbm, ⟨64, _⟩ => ⟨S3200000, .f32⟩
  | .hbm, ⟨65, _⟩ => ⟨S_, .f32⟩
  | .hbm, ⟨66, _⟩ => ⟨S100000, .f32⟩
  | .hbm, ⟨67, _⟩ => ⟨S3200000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x3, .f32⟩
  | .hbm, ⟨74, _⟩ => ⟨S100000x3, .f32⟩
  | .hbm, ⟨75, _⟩ => ⟨S_, .f32⟩
  | .hbm, ⟨76, _⟩ => ⟨S100000x3, .f32⟩
  | .hbm, ⟨77, _⟩ => ⟨S100000x3, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S100000x1, .f32⟩
  | .hbm, ⟨84, _⟩ => ⟨S100000x3, .f32⟩
  | .hbm, ⟨85, _⟩ => ⟨S100000x3, .f32⟩
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_5 : Ref sig .tc := ⟨.hbm, 39, rfl⟩
abbrev main_v30 : Ref sig .tc := ⟨.hbm, 40, rfl⟩
abbrev main_v31 : Ref sig .tc := ⟨.hbm, 41, rfl⟩
abbrev main_c_6 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]

class Facts₀ : Prop where
  slices_S100000x9_S100000x1_0_3 : S100000x9.Slices ![0, 3] S100000x1
  shapeCasts_S100000x1_S100000 : S100000x1.ShapeCasts S100000
  slices_S100000x9_S100000x1_0_8 : S100000x9.Slices ![0, 8] S100000x1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S3200000x1_S3200000x3_0_1 : S3200000x1.BroadcastsInDim S3200000x3 (![0, 1] : Fin 2 → Fin S3200000x3.rank)
  bcast_S_S100000x3 : S_.BroadcastsInDim S100000x3 (![] : Fin 0 → Fin S100000x3.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x3_0_1 : S100000x1.BroadcastsInDim S100000x3 (![0, 1] : Fin 2 → Fin S100000x3.rank)
  gather_S100000_S3200000x1_S3200000_n_0_n_n_0_1_1_wf : GatherDims.WF S100000 S3200000x1 S3200000 [] [0] [] [0] [] 1 ![1]
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1
  scatter_S100000_S3200000x1_S3200000_n_0_0_1_wf : ScatterDims.WF S100000 S3200000x1 S3200000 [] [0] [0] 1

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.Kernel.FrameKit.lean ====
/- The frame of the kernel program, first module: @main around its one pipelined region (the host
   lines before it, the region, the host lines after it), the buffers those lines leave alone, the blocks the
   windows read, the two conditions of the body in closed form over the grid, and where the output window is idle.
   The three case runs (RunA, RunB, RunC) and the frame itself (Frame) are stated over what is here. -/
import proofs.«418611_j20246475833437_3_alg».proof.Proof.Gen.Kernel.Launch
import proofs.«418611_j20246475833437_3_alg».proof.Proof.Gen.Kernel.Skeleton
import proofs.«418611_j20246475833437_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked structurally, one step per coordinate of a long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region, and the buffers they leave alone -/

/-- Core `c`'s TensorCore buffer contents when the region is entered, as a valuation: the launch contents after the
    five stretches of host operations that precede the region. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-- Every reference some host operation BEFORE the region writes: each operation writes its one result. -/
def preWritten : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_c, main_c_0, main_call0_v0, main_call1_v0]
/-- Every reference some host operation AFTER the region writes. -/
def sufWritten : List (Ref sig .tc) :=
  [main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_cst, main_cst_1, main_cst_2, main_cst_3]

/-- A listed reference, as a device buffer, is in the list's image. -/
theorem listed {W : List (Ref sig .tc)} {r : Ref sig .tc} (h : r ∈ W) :
    Proc.devRef (τ := τ) .tc r ∈ (W.map (Proc.devRef (τ := τ) .tc)).toFinset :=
  List.mem_toFinset.mpr (List.mem_map.mpr ⟨r, h, rfl⟩)

/-- A reference outside a list that holds everything a line writes is written by no operation of the line
    (references are told apart by decision; device buffers only through the injection of references). -/
theorem unwritten {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef .tc r ∉ op.writes := by
  intro op hop hb
  have hmem := (List.forall_iff_forall_mem.mp hW) op hop hb
  rw [List.mem_toFinset, List.mem_map] at hmem
  obtain ⟨y, hy, he⟩ := hmem
  exact hr (Proc.devRef_injective _ he ▸ hy)

/-- The lines before the region write only `preWritten`. -/
theorem pre_writes : (List.flatten [hostOps0, hostOps0_1, hostOps0_2, hostOps0_3, hostOps0_4] : List (HloOp τ sig (Elt F))).Forall
    fun op => op.writes ⊆ (preWritten.map (Proc.devRef (τ := τ) .tc)).toFinset := by
  simp only [hostOps0, hostOps0_1, hostOps0_2, hostOps0_3, hostOps0_4, List.flatten_cons, List.flatten_nil, List.append_nil,
    List.cons_append, List.nil_append, List.Forall, StableHlo.TRef.unary, StableHlo.TRef.binary, StableHlo.nullary_writes,
    StableHlo.unary_writes, StableHlo.binary_writes, StableHlo.reshape_writes, StableHlo.nary_writes, Finset.singleton_subset_iff]
  repeat' apply And.intro
  all_goals exact listed (by decide)

/-- The lines after the region write only `sufWritten`. -/
theorem suf_writes : (hostOps1 : List (HloOp τ sig (Elt F))).Forall
    fun op => op.writes ⊆ (sufWritten.map (Proc.devRef (τ := τ) .tc)).toFinset := by
  simp only [hostOps1, List.Forall, StableHlo.nullary_writes, StableHlo.unary_writes, StableHlo.binary_writes,
    StableHlo.reshape_writes, Finset.singleton_subset_iff]
  repeat' apply And.intro
  all_goals exact listed (by decide)

/-- No host operation allocates a buffer: before the region, -/
theorem pre_fresh : ([hostOps0, hostOps0_1, hostOps0_2, hostOps0_3, hostOps0_4] : List (List (HloOp τ sig (Elt F)))).Forall
    fun ops => ops.Forall fun op => op.fresh = ∅ := by
  simp only [List.Forall]; repeat' constructor
/-- and after it. -/
theorem suf_fresh : (hostOps1 : List (HloOp τ sig (Elt F))).Forall fun op => op.fresh = ∅ := by
  simp only [List.Forall]; repeat' constructor

/-- @main is the five stretches, the region, and one more stretch (`main_chain`): holding the boundary and the
    unscoped buffers at the launch contents it reduces to the region, entered at `V`, continued by the last stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩ pre_fresh main_chain

/-- No window's array is written after the region. -/
theorem arr_not_suf : ∀ w : Fin 5, Pipeline.arrRef spec0 w ∉ sufWritten := by decide

/-- The stretch after the region touches unscoped TensorCore buffers only; with nothing prefetched those are exactly
    the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- It allocates nothing, -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp suf_fresh) op hop
/-- and writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact unwritten suf_writes (arr_not_suf w) op hop

/-- A reference no line before the region writes enters the region as launched. -/
theorem V_keeps (c : Dev nD) (r : Ref sig .tc) (hr : r ∉ preWritten) : V m c r = m ((c : Thread nD τ).loc r) :=
  StableHlo.after_of_writes_sub _ _ pre_writes hr

theorem V_main_arg0 (c : Dev nD) : V m c main_arg0 = m ((c : Thread nD τ).loc main_arg0) := V_keeps m c _ (by decide)
theorem V_main_arg1 (c : Dev nD) : V m c main_arg1 = m ((c : Thread nD τ).loc main_arg1) := V_keeps m c _ (by decide)
theorem V_main_arg2 (c : Dev nD) : V m c main_arg2 = m ((c : Thread nD τ).loc main_arg2) := V_keeps m c _ (by decide)

/-- A reference that is no window's array and that no host line writes, before or after the region, holds at the end
    what it held at launch: the last stretch leaves it, the region's exit contents are the entry contents away from
    the arrays, and the first five stretches leave it. -/
theorem tail_keeps (dats : (p : Fin 1) → (c : Dev nD) → Dat τ (Elt F) Unit ℕ (UR sig nD τ) ℕ (cfgs p) c) (c : Dev nD)
    (r : Ref sig .tc) (hpre : r ∉ preWritten) (hsuf : r ∉ sufWritten) (harr : ∀ w, Pipeline.arrRef spec0 w ≠ r) :
    Pipeline.afterTail₀ cfgs dats 0 (V0 m) [hostOps1] c r = m ((c : Thread nD τ).loc r) := by
  unfold Pipeline.afterTail₀
  rw [List.flatten_cons, List.flatten_nil, List.append_nil, StableHlo.after_of_writes_sub _ _ suf_writes hsuf,
    Pipeline.withArrays_of_ne _ c (V0 m c) _ r harr]
  exact V_keeps m c r hpre

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- For an input window that is never cut and never idle, any proof data whose array is the region-entry contents and
    whose body leaves the block in place has the block in the window's current staging buffer at every point, fetched
    there or not (unfetched, the block index has not moved since the fetch). One statement per input window: the
    buffer's index type is the window's own. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  have hblk : ∀ t, dat.blockOf 0 t = iblk m c 0 t := fun t => by unfold Dat.blockOf iblk; rw [hA]
  exact (dat.before_in_eq_fetched 0 rfl (fun _ => rfl) (fun _ _ _ => rfl) (fun t => (hafter t).trans (hblk t).symm) t d).trans (hblk t)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  have hblk : ∀ t, dat.blockOf 1 t = iblk m c 1 t := fun t => by unfold Dat.blockOf iblk; rw [hA]
  exact (dat.before_in_eq_fetched 1 rfl (fun _ => rfl) (fun _ _ _ => rfl) (fun t => (hafter t).trans (hblk t).symm) t d).trans (hblk t)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  have hblk : ∀ t, dat.blockOf 2 t = iblk m c 2 t := fun t => by unfold Dat.blockOf iblk; rw [hA]
  exact (dat.before_in_eq_fetched 2 rfl (fun _ => rfl) (fun _ _ _ => rfl) (fun t => (hafter t).trans (hblk t).symm) t d).trans (hblk t)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t := by
  have hblk : ∀ t, dat.blockOf 3 t = iblk m c 3 t := fun t => by unfold Dat.blockOf iblk; rw [hA]
  exact (dat.before_in_eq_fetched 3 rfl (fun _ => rfl) (fun _ _ _ => rfl) (fun t => (hafter t).trans (hblk t).symm) t d).trans (hblk t)

/-! ## The frame claim's post from the frame run's -/

/-- The three arguments of @main are no window's array and no host operation writes them, so the frame run's post
    (every unscoped buffer that bypasses the region ends as the last stretch leaves the region-entry contents) gives
    the frame claim's: each argument ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        (tail_keeps m dats c main_arg0 (by decide) (by decide) (by decide)),
      ((h c).2 main_arg1 (Pipeline.mem_restRefs_of main_arg1 (by decide) (by decide))).trans
        (tail_keeps m dats c main_arg1 (by decide) (by decide) (by decide)),
      ((h c).2 main_arg2 (Pipeline.mem_restRefs_of main_arg2 (by decide) (by decide))).trans
        (tail_keeps m dats c main_arg2 (by decide) (by decide) (by decide))⟩) h

/-! ## The body's two conditions, over the grid -/

/-- The first conditional's condition (the inner grid coordinate is zero), from the grid coordinates. -/
abbrev cond0_0 (i : grid0.Coords) : Prop := (Scalar.cmpi .ne (Scalar.extui (Scalar.cmpi .eq (BitVec.ofNat 32 (i 1).val) 0#32)) 0#32) = 1#1
/-- With 1250 inner steps per core it holds exactly at the points that are 0 modulo 1250: decided over the 2500 points. -/
theorem hcond0_0 : ∀ t : Fin cfg0.N, cond0_0 (grid0.coords t) ↔ t.val % 1250 = 0 :=
  (by decide +kernel : ∀ t : Fin grid0.N, cond0_0 (grid0.coords t) ↔ t.val % 1250 = 0)

/-- The second conditional's condition (the inner grid coordinate is the last, 1249). -/
abbrev cond0_1 (i : grid0.Coords) : Prop := k0_cond2 i = 1#1
/-- It holds exactly at the points that are 1249 modulo 1250. -/
theorem hcond0_1 : ∀ t : Fin cfg0.N, cond0_1 (grid0.coords t) ↔ t.val % 1250 = 1249 :=
  (by decide +kernel : ∀ t : Fin grid0.N, cond0_1 (grid0.coords t) ↔ t.val % 1250 = 1249)

/-- The grid's size, as a bound on a point's position. -/
theorem pos_lt (t : Fin cfg0.N) : t.val < 2500 := lt_of_lt_of_eq t.isLt (show cfg0.N = 2500 from N_0)

/-! ## Where the windows are idle -/

/-- The four input windows are live at every point. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl

/-- The output window is idle exactly where the second condition fails: the configuration's table for it is that
    condition's negation. -/
theorem idle0_4_iff (i : grid0.Coords) : cfg0.idle 4 i = true ↔ ¬cond0_1 i := by
  show (!(k0_cond2 i == 1#1)) = true ↔ ¬(k0_cond2 i = 1#1)
  simp
/-- Where the second condition fails the output window is idle (the body stores nothing into it there), -/
theorem idleAt0_4 (t : Fin cfg0.N) (h : ¬cond0_1 (grid0.coords t)) : cfg0.idle 4 (grid0.coords t) = true :=
  (idle0_4_iff _).mpr h
/-- and its block is not written back there: it is written back only at the points 1249 modulo 1250. -/
theorem noFlush0_4 (t : Fin cfg0.N) (h : ¬cond0_1 (grid0.coords t)) : (cfg0.win 4).flush t = false := by
  cases hf : (cfg0.win 4).flush t with
  | false => rfl
  | true => exact absurd ((hcond0_1 t).mpr ((flush0_4 t).mp hf)) h
/-- Where the second condition holds the output window is live. -/
theorem liveAt0_4 (t : Fin cfg0.N) (h : cond0_1 (grid0.coords t)) : cfg0.idle 4 (grid0.coords t) = false := by
  cases hi : cfg0.idle 4 (grid0.coords t) with
  | false => rfl
  | true => exact absurd h ((idle0_4_iff _).mp hi)

/-! ## The memrefs the body is called with -/

/-- One staging buffer of the output window, through which its contents are stated (what a covering list of pieces
    reads back as does not depend on the whole buffer chosen). -/
abbrev VO0_4 : View sig .tc .vmem S1x4x200x512 .f32 := (Memref.whole cc0_stg4_0 : Memref sig .tc .vmem S1x4x200x512 .f32).view
/-- Each window's current staging memref at point `t`, as the pipeline passes it to the body, and that it is whole. -/
abbrev ms0_0 (t : Fin cfg0.N) : Memref sig .tc .vmem S1x1280 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S800x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S800x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x200x512 .f32 := win0_4.stage (cfg0.slots t 4)
abbrev hs0_4 (t : Fin cfg0.N) : (ms0_4 t).IsWhole := hstage0_4 ((cfg0.slots t 4).cast nbuf0_4)
/-- The scratch accumulator: a whole scoped buffer of the kernel's own, passed beside the windows, -/
abbrev scM0_0 : Memref sig .tc .vmem S4x200x512 .f32 := Memref.whole cc0_scratch0
/-- and the view through which what it holds between points is stated. -/
abbrev VS0_0 : View sig .tc .vmem S4x200x512 .f32 := scM0_0.view

/-- The region's class invariant, spelled out: the scratch accumulator owned whole at some contents, and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.Kernel.RunA.lean ====
/- The frame of the kernel program: the whole body run once in case A of its two conditionals. -/
import proofs.«418611_j20246475833437_3_alg».proof.Proof.Kernel.FrameKit

-- membership of an index in a rectangle of these extents is checked structurally, one step per coordinate of a long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is long: closing the definition walks it past the default budget
set_option maxHeartbeats 4000000 in
/-- The body at a point where the inner grid coordinate is 0 and is not the last (case A). The accumulator is first
    stored whole with zeros, so it may hold anything when the body starts; it then receives its four slices, each read
    back and stored again with the point's contribution added. The output block is not touched: whatever it holds
    (`xi4`) is handed back. The four input blocks are only read. The witness is the list of pieces the accumulator
    ends with (`LS0`, last store first) and the empty list for the output (`L4`); the statement is that from whole
    memrefs at these contents the body reaches any continuation that accepts them so. -/
noncomputable def kernelRun0_A (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) :
    Σ' (L4 : List (View.Piece (Elt F) S1x4x200x512 .f32)), { LS0 : List (View.Piece (Elt F) S4x200x512 .f32) //
      ∀ (xi4 : Vec F S1x4x200x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨[], ?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.Kernel.RunB.lean ====
/- The frame of the kernel program: the whole body run once in case B of its two conditionals. -/
import proofs.«418611_j20246475833437_3_alg».proof.Proof.Kernel.FrameKit

-- membership of an index in a rectangle of these extents is checked structurally, one step per coordinate of a long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is long: closing the definition walks it past the default budget
set_option maxHeartbeats 4000000 in
/-- The body at a point where the inner grid coordinate is neither 0 nor the last (case B). The accumulator holds
    what the point before left (`xs0`); each of its four slices is read back and stored again with the point's
    contribution added. The output block is not touched: whatever it holds (`xi4`) is handed back. The four input
    blocks are only read. The witness is the list of pieces the accumulator ends with (`LS0`, last store first) and
    the empty list for the output (`L4`). -/
noncomputable def kernelRun0_B (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) :
    Σ' (L4 : List (View.Piece (Elt F) S1x4x200x512 .f32)), { LS0 : List (View.Piece (Elt F) S4x200x512 .f32) //
      ∀ (xi4 : Vec F S1x4x200x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨[], ?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.Kernel.RunC.lean ====
/- The frame of the kernel program: the whole body run once in case C of its two conditionals. -/
import proofs.«418611_j20246475833437_3_alg».proof.Proof.Kernel.FrameKit

-- membership of an index in a rectangle of these extents is checked structurally, one step per coordinate of a long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is long: closing the definition walks it past the default budget
set_option maxHeartbeats 4000000 in
/-- The body at a point where the inner grid coordinate is the last and not 0 (case C). The accumulator holds what
    the point before left (`xs0`); each of its four slices is read back and stored again with the point's
    contribution added, and then the whole accumulator is read and stored into the output block, which may hold
    anything before. The four input blocks are only read. The witness is the pieces the output block ends with
    (`L4`: the one whole store) and those the accumulator ends with (`LS0`, last store first). -/
noncomputable def kernelRun0_C (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) :
    Σ' (L4 : List (View.Piece (Elt F) S1x4x200x512 .f32)), { LS0 : List (View.Piece (Elt F) S4x200x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.Kernel.Frame.lean ====
/- The frame of the kernel program, last module: what the output block and the accumulator hold after each
   point of the grid, the pipeline's proof data, the body's obligation at every point from the three case runs, the run
   of @main, and the frame claim at any float instance. -/
import proofs.«418611_j20246475833437_3_alg».proof.Proof.Kernel.RunA
import proofs.«418611_j20246475833437_3_alg».proof.Proof.Kernel.RunB
import proofs.«418611_j20246475833437_3_alg».proof.Proof.Kernel.RunC

-- membership of an index in a rectangle of these extents is checked structurally, one step per coordinate of a long axis
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block and in the accumulator -/

/-- Case A stores nothing into the output block (the window is idle there and is not written back), so its list
    of pieces is empty: this reads back as unspecified contents, which nothing consults. -/
def out0_A_4 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) : Vec F S1x4x200x512 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it (the whole reset and the four slices stored after it): every index lies in some piece. -/
theorem scover0_A_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) (y : S4x200x512.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL _ S4x200x512.size (by sl_kernel_rfl) y

/-- What case A leaves in the accumulator: its pieces read back (over anything, as they cover it). -/
def sout0_A_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) : Vec F S4x200x512 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output block (the window is idle there and is not written back), so its list
    of pieces is empty: this reads back as unspecified contents, which nothing consults. -/
def out0_B_4 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) : Vec F S1x4x200x512 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it (the four slices, each stored once): every index lies in some piece. -/
theorem scover0_B_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) (y : S4x200x512.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (s := S4x200x512) _ S1x200x512.size (by sl_kernel_rfl) y

/-- What case B leaves in the accumulator: its pieces read back (over anything, as they cover it). -/
def sout0_B_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) : Vec F S4x200x512 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's one store into the output block is the whole block, so its pieces cover it. -/
theorem cover0_C_4 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) (y : S1x4x200x512.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL _ S1x4x200x512.size (by sl_kernel_rfl) y

/-- What case C leaves in the output block: its pieces read back (over anything, as they cover it). -/
def out0_C_4 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) : Vec F S1x4x200x512 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it (the four slices, each stored once): every index lies in some piece. -/
theorem scover0_C_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) (y : S4x200x512.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (s := S4x200x512) _ S1x200x512.size (by sl_kernel_rfl) y

/-- What case C leaves in the accumulator: its pieces read back (over anything, as they cover it). -/
def sout0_C_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) : Vec F S4x200x512 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## Point by point -/

/-- THE ACCUMULATION. What the output window's staging buffer and the accumulator hold after the body at position `n`
    (output first): at a point that is 0 modulo 1250, case A's contents, which depend on no earlier point; at a point
    that is 1249 modulo 1250, case C's over what the point before left in the accumulator; elsewhere case B's over
    what the point before left. By recursion on the position; the first point is 0 modulo 1250. -/
def outsAt0 (c : Dev nD) : (n : ℕ) → n < cfg0.N → Vec F S1x4x200x512 .f32 × Vec F S4x200x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (show ¬(0 % 1250 = 1249) from by omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (show ¬(0 % 1250 = 1249) from by omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 1250 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (show ¬((n + 1) % 1250 = 1249) from by omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (show ¬((n + 1) % 1250 = 1249) from by omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else if h1 : (n + 1) % 1250 = 1249 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a point of case A: that case's contents. -/
theorem outsAt0_A (c : Dev nD) (t : Fin cfg0.N) (h0 : t.val % 1250 = 0) (h1 : ¬t.val % 1250 = 1249) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => rfl
  | succ n => exact (dif_pos h0).trans rfl

/-- At a point of case B: that case's contents over what the point before left in the accumulator. -/
theorem outsAt0_B (c : Dev nD) (t : Fin cfg0.N) (h0 : ¬t.val % 1250 = 0) (h1 : ¬t.val % 1250 = 1249) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point of case C: that case's contents over what the point before left in the accumulator. -/
theorem outsAt0_C (c : Dev nD) (t : Fin cfg0.N) (h0 : ¬t.val % 1250 = 0) (h1 : t.val % 1250 = 1249) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position `n`: before the first point the class's invariant (the accumulator at
    anything); before any later point the accumulator at what the point before left in it, and the generator register
    at some state. -/
def PhiS (c : Dev nD) (n : ℕ) (h : n ≤ cfg0.N) : sProp 𝕄 :=
  if hz : n = 0 then Pipeline.ΦA spec0 c
  else iprop(iprop(owns (c : Thread nD τ) scM0_0 fullShare ((outsAt0 m c (n - 1) (by omega)).2)) ∗ (∃ r, prngReg c r))

theorem PhiS_zero (c : Dev nD) (n : ℕ) (h : n ≤ cfg0.N) (hz : n = 0) : PhiS m c n h = Pipeline.ΦA spec0 c := dif_pos hz

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) :=
  dif_neg hz

/-- After point `n`: the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) :=
  dif_neg (Nat.succ_ne_zero n)

/-- Whatever the position, the invariant holds the accumulator at SOME contents: what a point that overwrites it whole
    needs of it. -/
theorem PhiS_any (c : Dev nD) (n : ℕ) (h : n ≤ cfg0.N) :
    PhiS m c n h ⊢ iprop(iprop((∃ d, owns (c : Thread nD τ) scM0_0 fullShare d)) ∗ (∃ r, prngReg c r)) := by
  by_cases hz : n = 0
  · rw [PhiS_zero m c n h hz, PhiA0_eq]
  · rw [PhiS_pos m c n h hz]
    iintro ⟨HS, Hg⟩
    isplitl [HS]
    · iexists _; iexact HS
    iexact Hg

/-! ## The pipeline's proof data -/

/-- The proof data of the pipeline on core `c`: the arrays as the region finds them; after the body at point `t`
    each input's buffer at its block and the output's at `outsAt0`'s first component; the invariant `PhiS`; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents (read off the definition, the valuation left folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The invariant at a point's start and end, at the point's position. -/
theorem Phi_castSucc (c : Dev nD) (t : Fin cfg0.N) : (dats m 0 c).Φ t.castSucc = PhiS m c t.val (Nat.le_of_lt t.isLt) := rfl
theorem Phi_succ (c : Dev nD) (t : Fin cfg0.N) :
    (dats m 0 c).Φ t.succ = iprop(iprop(owns (c : Thread nD τ) scM0_0 fullShare ((outsAt0 m c t.val t.isLt).2)) ∗ (∃ r, prngReg c r)) :=
  PhiS_succ m c t.val t.isLt

/-- An input window, live everywhere, is left at its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
/-- The output window where the second condition fails: idle and not written back, so left as found; -/
theorem leaves0_4_idle (c : Dev nD) (t : Fin cfg0.N) (h : ¬cond0_1 (grid0.coords t)) :
    (dats m 0 c).leavesExact 4 t = iprop(∃ d, owns (c : Thread nD τ) (ms0_4 t) fullShare ((dats m 0 c).before 4 t d)) :=
  Dat.leavesExact_idle (dats m 0 c) 4 t (idleAt0_4 t h) (noFlush0_4 t h)
/-- where it holds: live, left at `outsAt0`'s first component. -/
theorem leaves0_4_live (c : Dev nD) (t : Fin cfg0.N) (h : cond0_1 (grid0.coords t)) :
    (dats m 0 c).leavesExact 4 t = owns (c : Thread nD τ) (ms0_4 t) fullShare (outsAt0 m c t.val t.isLt).1 := by
  unfold Dat.leavesExact; rw [liveAt0_4 t h, after0_4]

/-- A whole memref whose contents are some buffer written with pieces that cover the shape is owned at what the pieces
    read back as through any view of the shape: covered, the read does not see what was written over. -/
theorem owns_of_cover {c : Dev nD} {s : Shape} {e : EltTy} (M : Memref sig .tc .vmem s e) (v' : View sig .tc .vmem s e)
    (L : List (View.Piece (Elt F) s e)) (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  unfold owns
  iintro ⟨%f, H⟩
  iexists M.view.writes (Elt F) f L; isplitr
  · ipureintro; exact View.read_writes_of_cover _ _ _ _ _ hL
  iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point. The inputs' buffers hold their blocks and are handed back so. The point's position modulo
    1250 says which case it is in. At 0 the accumulator may hold anything (`PhiS_any`): case A overwrites it, and the
    output block, idle and not written back there, is returned as found. Elsewhere the position is not the first, so
    the invariant holds the accumulator at what the point before left (`PhiS_pos`), which is what cases B and C start
    from; B returns the output block as found, C leaves it at the accumulator's contents. In every case the
    accumulator's pieces cover it, so it is owned afterwards at this point's contents, as the invariant after the point
    asks; the core owes nothing before or after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, leaves0_0, leaves0_1, leaves0_2, leaves0_3]
  rw [show (dats m 0 c).owesAt () t.succ = (dats m 0 c).owesAt () t.castSucc from rfl, Phi_succ, Phi_castSucc]
  have hN := pos_lt t
  by_cases h0 : t.val % 1250 = 0
  · have h1 : ¬t.val % 1250 = 1249 := by omega
    have hc1 : ¬cond0_1 (grid0.coords t) := fun h => h1 ((hcond0_1 t).mp h)
    rw [leaves0_4_idle m c t hc1, outsAt0_A m c t h0 h1]
    unfold sout0_A_0
    iintro ⟨HΦ, Ho, ⟨%d0, H0⟩, ⟨%d1, H1⟩, ⟨%d2, H2⟩, ⟨%d3, H3⟩, ⟨%d4, H4⟩⟩
    icases (PhiS_any m c _ _) $$ HΦ with ⟨HS, Hg⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iapply (owns_of_cover _ _ _ (scover0_A_0 c _ _ _ _ _ _ _ _ _ _ _ _ _ _ _ _ _ _ _)) $$ HS
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    rw [PhiS_pos m c _ _ hz]
    by_cases h1 : t.val % 1250 = 1249
    · have hc1 : cond0_1 (grid0.coords t) := (hcond0_1 t).mpr h1
      rw [leaves0_4_live m c t hc1, outsAt0_C m c t h0 h1]
      unfold out0_C_4 sout0_C_0
      iintro ⟨⟨HS, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iapply (owns_of_cover _ _ _ (scover0_C_0 c _ _ _ _ _ _ _ _ _ _ _ _ _ _ _ _ _ _ _ _)) $$ HS
        iexact Hg
      isplitl [Ho]; · iexact Ho
      isplitl [H0]; · iexact H0
      isplitl [H1]; · iexact H1
      isplitl [H2]; · iexact H2
      isplitl [H3]; · iexact H3
      iapply (owns_of_cover _ _ _ (cover0_C_4 c _ _ _ _ _ _ _ _ _ _ _ _ _ _ _ _ _ _ _ _)) $$ H4
    · have hc1 : ¬cond0_1 (grid0.coords t) := fun h => h1 ((hcond0_1 t).mp h)
      rw [leaves0_4_idle m c t hc1, outsAt0_B m c t h0 h1]
      unfold sout0_B_0
      iintro ⟨⟨HS, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iapply (owns_of_cover _ _ _ (scover0_B_0 c _ _ _ _ _ _ _ _ _ _ _ _ _ _ _ _ _ _ _ _)) $$ HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the class's back: the accumulator's named contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  exact PhiS_any m c _ _

/-! ## The run and the frame -/

-- the launch theorem's implicit arguments are found by unifying its conclusion with this statement, which takes
-- unfolding plain definitions inside a metavariable's type
set_option backward.isDefEq.respectTransparency.types false in
/-- At the compiled mesh, for any values, from any memory with zero counters: every weakly fair execution of @main on
    the TensorCore terminates, and every final state has every array of the pipeline at what the library computes from
    the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.Kernel.Fr.run_main' depends on axioms: [propext, Classical.choice, Quot.sound] -/
#guard_msgs in #print axioms run_main

/-- THE FRAME: at any float instance, @main runs and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.KernelIdeal.FrameKit.lean ====
/- The frame of the idealized kernel program, first module: @main around its one pipelined region (the host
   lines before it, the region, the host lines after it), the buffers those lines leave alone, the blocks the
   windows read, the two conditions of the body in closed form over the grid, and where the output window is idle.
   The three case runs (RunA, RunB, RunC) and the frame itself (Frame) are stated over what is here. -/
import proofs.«418611_j20246475833437_3_alg».proof.Proof.Gen.KernelIdeal.Launch
import proofs.«418611_j20246475833437_3_alg».proof.Proof.Gen.KernelIdeal.Skeleton
import proofs.«418611_j20246475833437_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked structurally, one step per coordinate of a long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region, and the buffers they leave alone -/

/-- Core `c`'s TensorCore buffer contents when the region is entered, as a valuation: the launch contents after the
    five stretches of host operations that precede the region. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-- Every reference some host operation BEFORE the region writes: each operation writes its one result. -/
def preWritten : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_c, main_c_0, main_call0_v0, main_call1_v0]
/-- Every reference some host operation AFTER the region writes. -/
def sufWritten : List (Ref sig .tc) :=
  [main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_cst, main_cst_1, main_cst_2, main_cst_3]

/-- A listed reference, as a device buffer, is in the list's image. -/
theorem listed {W : List (Ref sig .tc)} {r : Ref sig .tc} (h : r ∈ W) :
    Proc.devRef (τ := τ) .tc r ∈ (W.map (Proc.devRef (τ := τ) .tc)).toFinset :=
  List.mem_toFinset.mpr (List.mem_map.mpr ⟨r, h, rfl⟩)

/-- A reference outside a list that holds everything a line writes is written by no operation of the line
    (references are told apart by decision; device buffers only through the injection of references). -/
theorem unwritten {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef .tc r ∉ op.writes := by
  intro op hop hb
  have hmem := (List.forall_iff_forall_mem.mp hW) op hop hb
  rw [List.mem_toFinset, List.mem_map] at hmem
  obtain ⟨y, hy, he⟩ := hmem
  exact hr (Proc.devRef_injective _ he ▸ hy)

/-- The lines before the region write only `preWritten`. -/
theorem pre_writes : (List.flatten [hostOps0, hostOps0_1, hostOps0_2, hostOps0_3, hostOps0_4] : List (HloOp τ sig (Elt F))).Forall
    fun op => op.writes ⊆ (preWritten.map (Proc.devRef (τ := τ) .tc)).toFinset := by
  simp only [hostOps0, hostOps0_1, hostOps0_2, hostOps0_3, hostOps0_4, List.flatten_cons, List.flatten_nil, List.append_nil,
    List.cons_append, List.nil_append, List.Forall, StableHlo.TRef.unary, StableHlo.TRef.binary, StableHlo.nullary_writes,
    StableHlo.unary_writes, StableHlo.binary_writes, StableHlo.reshape_writes, StableHlo.nary_writes, Finset.singleton_subset_iff]
  repeat' apply And.intro
  all_goals exact listed (by decide)

/-- The lines after the region write only `sufWritten`. -/
theorem suf_writes : (hostOps1 : List (HloOp τ sig (Elt F))).Forall
    fun op => op.writes ⊆ (sufWritten.map (Proc.devRef (τ := τ) .tc)).toFinset := by
  simp only [hostOps1, List.Forall, StableHlo.nullary_writes, StableHlo.unary_writes, StableHlo.binary_writes,
    StableHlo.reshape_writes, Finset.singleton_subset_iff]
  repeat' apply And.intro
  all_goals exact listed (by decide)

/-- No host operation allocates a buffer: before the region, -/
theorem pre_fresh : ([hostOps0, hostOps0_1, hostOps0_2, hostOps0_3, hostOps0_4] : List (List (HloOp τ sig (Elt F)))).Forall
    fun ops => ops.Forall fun op => op.fresh = ∅ := by
  simp only [List.Forall]; repeat' constructor
/-- and after it. -/
theorem suf_fresh : (hostOps1 : List (HloOp τ sig (Elt F))).Forall fun op => op.fresh = ∅ := by
  simp only [List.Forall]; repeat' constructor

/-- @main is the five stretches, the region, and one more stretch (`main_chain`): holding the boundary and the
    unscoped buffers at the launch contents it reduces to the region, entered at `V`, continued by the last stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    ⟨hostOps0_sub, hostOps0_1_sub, hostOps0_2_sub, hostOps0_3_sub, hostOps0_4_sub⟩ pre_fresh main_chain

/-- No window's array is written after the region. -/
theorem arr_not_suf : ∀ w : Fin 5, Pipeline.arrRef spec0 w ∉ sufWritten := by decide

/-- The stretch after the region touches unscoped TensorCore buffers only; with nothing prefetched those are exactly
    the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- It allocates nothing, -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp suf_fresh) op hop
/-- and writes no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  exact unwritten suf_writes (arr_not_suf w) op hop

/-- A reference no line before the region writes enters the region as launched. -/
theorem V_keeps (c : Dev nD) (r : Ref sig .tc) (hr : r ∉ preWritten) : V m c r = m ((c : Thread nD τ).loc r) :=
  StableHlo.after_of_writes_sub _ _ pre_writes hr

theorem V_main_arg0 (c : Dev nD) : V m c main_arg0 = m ((c : Thread nD τ).loc main_arg0) := V_keeps m c _ (by decide)
theorem V_main_arg1 (c : Dev nD) : V m c main_arg1 = m ((c : Thread nD τ).loc main_arg1) := V_keeps m c _ (by decide)
theorem V_main_arg2 (c : Dev nD) : V m c main_arg2 = m ((c : Thread nD τ).loc main_arg2) := V_keeps m c _ (by decide)

/-- A reference that is no window's array and that no host line writes, before or after the region, holds at the end
    what it held at launch: the last stretch leaves it, the region's exit contents are the entry contents away from
    the arrays, and the first five stretches leave it. -/
theorem tail_keeps (dats : (p : Fin 1) → (c : Dev nD) → Dat τ (Elt F) Unit ℕ (UR sig nD τ) ℕ (cfgs p) c) (c : Dev nD)
    (r : Ref sig .tc) (hpre : r ∉ preWritten) (hsuf : r ∉ sufWritten) (harr : ∀ w, Pipeline.arrRef spec0 w ≠ r) :
    Pipeline.afterTail₀ cfgs dats 0 (V0 m) [hostOps1] c r = m ((c : Thread nD τ).loc r) := by
  unfold Pipeline.afterTail₀
  rw [List.flatten_cons, List.flatten_nil, List.append_nil, StableHlo.after_of_writes_sub _ _ suf_writes hsuf,
    Pipeline.withArrays_of_ne _ c (V0 m c) _ r harr]
  exact V_keeps m c r hpre

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- For an input window that is never cut and never idle, any proof data whose array is the region-entry contents and
    whose body leaves the block in place has the block in the window's current staging buffer at every point, fetched
    there or not (unfetched, the block index has not moved since the fetch). One statement per input window: the
    buffer's index type is the window's own. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  have hblk : ∀ t, dat.blockOf 0 t = iblk m c 0 t := fun t => by unfold Dat.blockOf iblk; rw [hA]
  exact (dat.before_in_eq_fetched 0 rfl (fun _ => rfl) (fun _ _ _ => rfl) (fun t => (hafter t).trans (hblk t).symm) t d).trans (hblk t)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  have hblk : ∀ t, dat.blockOf 1 t = iblk m c 1 t := fun t => by unfold Dat.blockOf iblk; rw [hA]
  exact (dat.before_in_eq_fetched 1 rfl (fun _ => rfl) (fun _ _ _ => rfl) (fun t => (hafter t).trans (hblk t).symm) t d).trans (hblk t)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t := by
  have hblk : ∀ t, dat.blockOf 2 t = iblk m c 2 t := fun t => by unfold Dat.blockOf iblk; rw [hA]
  exact (dat.before_in_eq_fetched 2 rfl (fun _ => rfl) (fun _ _ _ => rfl) (fun t => (hafter t).trans (hblk t).symm) t d).trans (hblk t)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t := by
  have hblk : ∀ t, dat.blockOf 3 t = iblk m c 3 t := fun t => by unfold Dat.blockOf iblk; rw [hA]
  exact (dat.before_in_eq_fetched 3 rfl (fun _ => rfl) (fun _ _ _ => rfl) (fun t => (hafter t).trans (hblk t).symm) t d).trans (hblk t)

/-! ## The frame claim's post from the frame run's -/

/-- The three arguments of @main are no window's array and no host operation writes them, so the frame run's post
    (every unscoped buffer that bypasses the region ends as the last stretch leaves the region-entry contents) gives
    the frame claim's: each argument ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans
        (tail_keeps m dats c main_arg0 (by decide) (by decide) (by decide)),
      ((h c).2 main_arg1 (Pipeline.mem_restRefs_of main_arg1 (by decide) (by decide))).trans
        (tail_keeps m dats c main_arg1 (by decide) (by decide) (by decide)),
      ((h c).2 main_arg2 (Pipeline.mem_restRefs_of main_arg2 (by decide) (by decide))).trans
        (tail_keeps m dats c main_arg2 (by decide) (by decide) (by decide))⟩) h

/-! ## The body's two conditions, over the grid -/

/-- The first conditional's condition (the inner grid coordinate is zero), from the grid coordinates. -/
abbrev cond0_0 (i : grid0.Coords) : Prop := (Scalar.cmpi .ne (Scalar.extui (Scalar.cmpi .eq (BitVec.ofNat 32 (i 1).val) 0#32)) 0#32) = 1#1
/-- With 1250 inner steps per core it holds exactly at the points that are 0 modulo 1250: decided over the 2500 points. -/
theorem hcond0_0 : ∀ t : Fin cfg0.N, cond0_0 (grid0.coords t) ↔ t.val % 1250 = 0 :=
  (by decide +kernel : ∀ t : Fin grid0.N, cond0_0 (grid0.coords t) ↔ t.val % 1250 = 0)

/-- The second conditional's condition (the inner grid coordinate is the last, 1249). -/
abbrev cond0_1 (i : grid0.Coords) : Prop := k0_cond2 i = 1#1
/-- It holds exactly at the points that are 1249 modulo 1250. -/
theorem hcond0_1 : ∀ t : Fin cfg0.N, cond0_1 (grid0.coords t) ↔ t.val % 1250 = 1249 :=
  (by decide +kernel : ∀ t : Fin grid0.N, cond0_1 (grid0.coords t) ↔ t.val % 1250 = 1249)

/-- The grid's size, as a bound on a point's position. -/
theorem pos_lt (t : Fin cfg0.N) : t.val < 2500 := lt_of_lt_of_eq t.isLt (show cfg0.N = 2500 from N_0)

/-! ## Where the windows are idle -/

/-- The four input windows are live at every point. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl

/-- The output window is idle exactly where the second condition fails: the configuration's table for it is that
    condition's negation. -/
theorem idle0_4_iff (i : grid0.Coords) : cfg0.idle 4 i = true ↔ ¬cond0_1 i := by
  show (!(k0_cond2 i == 1#1)) = true ↔ ¬(k0_cond2 i = 1#1)
  simp
/-- Where the second condition fails the output window is idle (the body stores nothing into it there), -/
theorem idleAt0_4 (t : Fin cfg0.N) (h : ¬cond0_1 (grid0.coords t)) : cfg0.idle 4 (grid0.coords t) = true :=
  (idle0_4_iff _).mpr h
/-- and its block is not written back there: it is written back only at the points 1249 modulo 1250. -/
theorem noFlush0_4 (t : Fin cfg0.N) (h : ¬cond0_1 (grid0.coords t)) : (cfg0.win 4).flush t = false := by
  cases hf : (cfg0.win 4).flush t with
  | false => rfl
  | true => exact absurd ((hcond0_1 t).mpr ((flush0_4 t).mp hf)) h
/-- Where the second condition holds the output window is live. -/
theorem liveAt0_4 (t : Fin cfg0.N) (h : cond0_1 (grid0.coords t)) : cfg0.idle 4 (grid0.coords t) = false := by
  cases hi : cfg0.idle 4 (grid0.coords t) with
  | false => rfl
  | true => exact absurd h ((idle0_4_iff _).mp hi)

/-! ## The memrefs the body is called with -/

/-- One staging buffer of the output window, through which its contents are stated (what a covering list of pieces
    reads back as does not depend on the whole buffer chosen). -/
abbrev VO0_4 : View sig .tc .vmem S1x4x200x512 .f32 := (Memref.whole cc0_stg4_0 : Memref sig .tc .vmem S1x4x200x512 .f32).view
/-- Each window's current staging memref at point `t`, as the pipeline passes it to the body, and that it is whole. -/
abbrev ms0_0 (t : Fin cfg0.N) : Memref sig .tc .vmem S1x1280 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1280 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S800x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S800x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x200x512 .f32 := win0_4.stage (cfg0.slots t 4)
abbrev hs0_4 (t : Fin cfg0.N) : (ms0_4 t).IsWhole := hstage0_4 ((cfg0.slots t 4).cast nbuf0_4)
/-- The scratch accumulator: a whole scoped buffer of the kernel's own, passed beside the windows, -/
abbrev scM0_0 : Memref sig .tc .vmem S4x200x512 .f32 := Memref.whole cc0_scratch0
/-- and the view through which what it holds between points is stated. -/
abbrev VS0_0 : View sig .tc .vmem S4x200x512 .f32 := scM0_0.view

/-- The region's class invariant, spelled out: the scratch accumulator owned whole at some contents, and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KernelIdeal.RunA.lean ====
/- The frame of the idealized kernel program: the whole body run once in case A of its two conditionals. -/
import proofs.«418611_j20246475833437_3_alg».proof.Proof.KernelIdeal.FrameKit

-- membership of an index in a rectangle of these extents is checked structurally, one step per coordinate of a long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is long: closing the definition walks it past the default budget
set_option maxHeartbeats 4000000 in
/-- The body at a point where the inner grid coordinate is 0 and is not the last (case A). The accumulator is first
    stored whole with zeros, so it may hold anything when the body starts; it then receives its four slices, each read
    back and stored again with the point's contribution added. The output block is not touched: whatever it holds
    (`xi4`) is handed back. The four input blocks are only read. The witness is the list of pieces the accumulator
    ends with (`LS0`, last store first) and the empty list for the output (`L4`); the statement is that from whole
    memrefs at these contents the body reaches any continuation that accepts them so. -/
noncomputable def kernelRun0_A (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) :
    Σ' (L4 : List (View.Piece (Elt F) S1x4x200x512 .f32)), { LS0 : List (View.Piece (Elt F) S4x200x512 .f32) //
      ∀ (xi4 : Vec F S1x4x200x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨[], ?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KernelIdeal.RunB.lean ====
/- The frame of the idealized kernel program: the whole body run once in case B of its two conditionals. -/
import proofs.«418611_j20246475833437_3_alg».proof.Proof.KernelIdeal.FrameKit

-- membership of an index in a rectangle of these extents is checked structurally, one step per coordinate of a long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is long: closing the definition walks it past the default budget
set_option maxHeartbeats 4000000 in
/-- The body at a point where the inner grid coordinate is neither 0 nor the last (case B). The accumulator holds
    what the point before left (`xs0`); each of its four slices is read back and stored again with the point's
    contribution added. The output block is not touched: whatever it holds (`xi4`) is handed back. The four input
    blocks are only read. The witness is the list of pieces the accumulator ends with (`LS0`, last store first) and
    the empty list for the output (`L4`). -/
noncomputable def kernelRun0_B (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) :
    Σ' (L4 : List (View.Piece (Elt F) S1x4x200x512 .f32)), { LS0 : List (View.Piece (Elt F) S4x200x512 .f32) //
      ∀ (xi4 : Vec F S1x4x200x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨[], ?_, fun xi4 E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.KernelIdeal.RunC.lean ====
/- The frame of the idealized kernel program: the whole body run once in case C of its two conditionals. -/
import proofs.«418611_j20246475833437_3_alg».proof.Proof.KernelIdeal.FrameKit

-- membership of an index in a rectangle of these extents is checked structurally, one step per coordinate of a long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is long: closing the definition walks it past the default budget
set_option maxHeartbeats 4000000 in
/-- The body at a point where the inner grid coordinate is the last and not 0 (case C). The accumulator holds what
    the point before left (`xs0`); each of its four slices is read back and stored again with the point's
    contribution added, and then the whole accumulator is read and stored into the output block, which may hold
    anything before. The four input blocks are only read. The witness is the pieces the output block ends with
    (`L4`: the one whole store) and those the accumulator ends with (`LS0`, last store first). -/
noncomputable def kernelRun0_C (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) :
    Σ' (L4 : List (View.Piece (Elt F) S1x4x200x512 .f32)), { LS0 : List (View.Piece (Elt F) S4x200x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.KernelIdeal.Frame.lean ====
/- The frame of the idealized kernel program, last module: what the output block and the accumulator hold after each
   point of the grid, the pipeline's proof data, the body's obligation at every point from the three case runs, the run
   of @main, and the frame claim at any float instance. -/
import proofs.«418611_j20246475833437_3_alg».proof.Proof.KernelIdeal.RunA
import proofs.«418611_j20246475833437_3_alg».proof.Proof.KernelIdeal.RunB
import proofs.«418611_j20246475833437_3_alg».proof.Proof.KernelIdeal.RunC

-- membership of an index in a rectangle of these extents is checked structurally, one step per coordinate of a long axis
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block and in the accumulator -/

/-- Case A stores nothing into the output block (the window is idle there and is not written back), so its list
    of pieces is empty: this reads back as unspecified contents, which nothing consults. -/
def out0_A_4 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) : Vec F S1x4x200x512 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it (the whole reset and the four slices stored after it): every index lies in some piece. -/
theorem scover0_A_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) (y : S4x200x512.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL _ S4x200x512.size (by sl_kernel_rfl) y

/-- What case A leaves in the accumulator: its pieces read back (over anything, as they cover it). -/
def sout0_A_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) : Vec F S4x200x512 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output block (the window is idle there and is not written back), so its list
    of pieces is empty: this reads back as unspecified contents, which nothing consults. -/
def out0_B_4 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) : Vec F S1x4x200x512 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it (the four slices, each stored once): every index lies in some piece. -/
theorem scover0_B_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) (y : S4x200x512.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (s := S4x200x512) _ S1x200x512.size (by sl_kernel_rfl) y

/-- What case B leaves in the accumulator: its pieces read back (over anything, as they cover it). -/
def sout0_B_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) : Vec F S4x200x512 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's one store into the output block is the whole block, so its pieces cover it. -/
theorem cover0_C_4 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) (y : S1x4x200x512.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL _ S1x4x200x512.size (by sl_kernel_rfl) y

/-- What case C leaves in the output block: its pieces read back (over anything, as they cover it). -/
def out0_C_4 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) : Vec F S1x4x200x512 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it (the four slices, each stored once): every index lies in some piece. -/
theorem scover0_C_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) (y : S4x200x512.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (s := S4x200x512) _ S1x200x512.size (by sl_kernel_rfl) y

/-- What case C leaves in the accumulator: its pieces read back (over anything, as they cover it). -/
def sout0_C_0 (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) : Vec F S4x200x512 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## Point by point -/

/-- THE ACCUMULATION. What the output window's staging buffer and the accumulator hold after the body at position `n`
    (output first): at a point that is 0 modulo 1250, case A's contents, which depend on no earlier point; at a point
    that is 1249 modulo 1250, case C's over what the point before left in the accumulator; elsewhere case B's over
    what the point before left. By recursion on the position; the first point is 0 modulo 1250. -/
def outsAt0 (c : Dev nD) : (n : ℕ) → n < cfg0.N → Vec F S1x4x200x512 .f32 × Vec F S4x200x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (show ¬(0 % 1250 = 1249) from by omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (show ¬(0 % 1250 = 1249) from by omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 1250 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (show ¬((n + 1) % 1250 = 1249) from by omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => (show ¬((n + 1) % 1250 = 1249) from by omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else if h1 : (n + 1) % 1250 = 1249 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a point of case A: that case's contents. -/
theorem outsAt0_A (c : Dev nD) (t : Fin cfg0.N) (h0 : t.val % 1250 = 0) (h1 : ¬t.val % 1250 = 1249) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => rfl
  | succ n => exact (dif_pos h0).trans rfl

/-- At a point of case B: that case's contents over what the point before left in the accumulator. -/
theorem outsAt0_B (c : Dev nD) (t : Fin cfg0.N) (h0 : ¬t.val % 1250 = 0) (h1 : ¬t.val % 1250 = 1249) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- At a point of case C: that case's contents over what the point before left in the accumulator. -/
theorem outsAt0_C (c : Dev nD) (t : Fin cfg0.N) (h0 : ¬t.val % 1250 = 0) (h1 : t.val % 1250 = 1249) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region's invariant before position `n`: before the first point the class's invariant (the accumulator at
    anything); before any later point the accumulator at what the point before left in it, and the generator register
    at some state. -/
def PhiS (c : Dev nD) (n : ℕ) (h : n ≤ cfg0.N) : sProp 𝕄 :=
  if hz : n = 0 then Pipeline.ΦA spec0 c
  else iprop(iprop(owns (c : Thread nD τ) scM0_0 fullShare ((outsAt0 m c (n - 1) (by omega)).2)) ∗ (∃ r, prngReg c r))

theorem PhiS_zero (c : Dev nD) (n : ℕ) (h : n ≤ cfg0.N) (hz : n = 0) : PhiS m c n h = Pipeline.ΦA spec0 c := dif_pos hz

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) :=
  dif_neg hz

/-- After point `n`: the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) :=
  dif_neg (Nat.succ_ne_zero n)

/-- Whatever the position, the invariant holds the accumulator at SOME contents: what a point that overwrites it whole
    needs of it. -/
theorem PhiS_any (c : Dev nD) (n : ℕ) (h : n ≤ cfg0.N) :
    PhiS m c n h ⊢ iprop(iprop((∃ d, owns (c : Thread nD τ) scM0_0 fullShare d)) ∗ (∃ r, prngReg c r)) := by
  by_cases hz : n = 0
  · rw [PhiS_zero m c n h hz, PhiA0_eq]
  · rw [PhiS_pos m c n h hz]
    iintro ⟨HS, Hg⟩
    isplitl [HS]
    · iexists _; iexact HS
    iexact Hg

/-! ## The pipeline's proof data -/

/-- The proof data of the pipeline on core `c`: the arrays as the region finds them; after the body at point `t`
    each input's buffer at its block and the output's at `outsAt0`'s first component; the invariant `PhiS`; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents (read off the definition, the valuation left folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The invariant at a point's start and end, at the point's position. -/
theorem Phi_castSucc (c : Dev nD) (t : Fin cfg0.N) : (dats m 0 c).Φ t.castSucc = PhiS m c t.val (Nat.le_of_lt t.isLt) := rfl
theorem Phi_succ (c : Dev nD) (t : Fin cfg0.N) :
    (dats m 0 c).Φ t.succ = iprop(iprop(owns (c : Thread nD τ) scM0_0 fullShare ((outsAt0 m c t.val t.isLt).2)) ∗ (∃ r, prngReg c r)) :=
  PhiS_succ m c t.val t.isLt

/-- An input window, live everywhere, is left at its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
/-- The output window where the second condition fails: idle and not written back, so left as found; -/
theorem leaves0_4_idle (c : Dev nD) (t : Fin cfg0.N) (h : ¬cond0_1 (grid0.coords t)) :
    (dats m 0 c).leavesExact 4 t = iprop(∃ d, owns (c : Thread nD τ) (ms0_4 t) fullShare ((dats m 0 c).before 4 t d)) :=
  Dat.leavesExact_idle (dats m 0 c) 4 t (idleAt0_4 t h) (noFlush0_4 t h)
/-- where it holds: live, left at `outsAt0`'s first component. -/
theorem leaves0_4_live (c : Dev nD) (t : Fin cfg0.N) (h : cond0_1 (grid0.coords t)) :
    (dats m 0 c).leavesExact 4 t = owns (c : Thread nD τ) (ms0_4 t) fullShare (outsAt0 m c t.val t.isLt).1 := by
  unfold Dat.leavesExact; rw [liveAt0_4 t h, after0_4]

/-- A whole memref whose contents are some buffer written with pieces that cover the shape is owned at what the pieces
    read back as through any view of the shape: covered, the read does not see what was written over. -/
theorem owns_of_cover {c : Dev nD} {s : Shape} {e : EltTy} (M : Memref sig .tc .vmem s e) (v' : View sig .tc .vmem s e)
    (L : List (View.Piece (Elt F) s e)) (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  unfold owns
  iintro ⟨%f, H⟩
  iexists M.view.writes (Elt F) f L; isplitr
  · ipureintro; exact View.read_writes_of_cover _ _ _ _ _ hL
  iexact H

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point. The inputs' buffers hold their blocks and are handed back so. The point's position modulo
    1250 says which case it is in. At 0 the accumulator may hold anything (`PhiS_any`): case A overwrites it, and the
    output block, idle and not written back there, is returned as found. Elsewhere the position is not the first, so
    the invariant holds the accumulator at what the point before left (`PhiS_pos`), which is what cases B and C start
    from; B returns the output block as found, C leaves it at the accumulator's contents. In every case the
    accumulator's pieces cover it, so it is owned afterwards at this point's contents, as the invariant after the point
    asks; the core owes nothing before or after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, leaves0_0, leaves0_1, leaves0_2, leaves0_3]
  rw [show (dats m 0 c).owesAt () t.succ = (dats m 0 c).owesAt () t.castSucc from rfl, Phi_succ, Phi_castSucc]
  have hN := pos_lt t
  by_cases h0 : t.val % 1250 = 0
  · have h1 : ¬t.val % 1250 = 1249 := by omega
    have hc1 : ¬cond0_1 (grid0.coords t) := fun h => h1 ((hcond0_1 t).mp h)
    rw [leaves0_4_idle m c t hc1, outsAt0_A m c t h0 h1]
    unfold sout0_A_0
    iintro ⟨HΦ, Ho, ⟨%d0, H0⟩, ⟨%d1, H1⟩, ⟨%d2, H2⟩, ⟨%d3, H3⟩, ⟨%d4, H4⟩⟩
    icases (PhiS_any m c _ _) $$ HΦ with ⟨HS, Hg⟩
    iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iapply (owns_of_cover _ _ _ (scover0_A_0 c _ _ _ _ _ _ _ _ _ _ _ _ _ _ _ _ _ _ _)) $$ HS
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    rw [PhiS_pos m c _ _ hz]
    by_cases h1 : t.val % 1250 = 1249
    · have hc1 : cond0_1 (grid0.coords t) := (hcond0_1 t).mpr h1
      rw [leaves0_4_live m c t hc1, outsAt0_C m c t h0 h1]
      unfold out0_C_4 sout0_C_0
      iintro ⟨⟨HS, Hg⟩, Ho, ⟨%d0, H0⟩, ⟨%d1, H1⟩, ⟨%d2, H2⟩, ⟨%d3, H3⟩, ⟨%d4, H4⟩⟩
      iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iapply (owns_of_cover _ _ _ (scover0_C_0 c _ _ _ _ _ _ _ _ _ _ _ _ _ _ _ _ _ _ _ _)) $$ HS
        iexact Hg
      isplitl [Ho]; · iexact Ho
      isplitl [H0]; · iexact H0
      isplitl [H1]; · iexact H1
      isplitl [H2]; · iexact H2
      isplitl [H3]; · iexact H3
      iapply (owns_of_cover _ _ _ (cover0_C_4 c _ _ _ _ _ _ _ _ _ _ _ _ _ _ _ _ _ _ _ _)) $$ H4
    · have hc1 : ¬cond0_1 (grid0.coords t) := fun h => h1 ((hcond0_1 t).mp h)
      rw [leaves0_4_idle m c t hc1, outsAt0_B m c t h0 h1]
      unfold sout0_B_0
      iintro ⟨⟨HS, Hg⟩, Ho, ⟨%d0, H0⟩, ⟨%d1, H1⟩, ⟨%d2, H2⟩, ⟨%d3, H3⟩, ⟨%d4, H4⟩⟩
      iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]
        · iapply (owns_of_cover _ _ _ (scover0_B_0 c _ _ _ _ _ _ _ _ _ _ _ _ _ _ _ _ _ _ _ _)) $$ HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the class's back: the accumulator's named contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  exact PhiS_any m c _ _

/-! ## The run and the frame -/

-- the launch theorem's implicit arguments are found by unifying its conclusion with this statement, which takes
-- unfolding plain definitions inside a metavariable's type
set_option backward.isDefEq.respectTransparency.types false in
/-- At the compiled mesh, for any values, from any memory with zero counters: every weakly fair execution of @main on
    the TensorCore terminates, and every final state has every array of the pipeline at what the library computes from
    the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.KernelIdeal.Fr.run_main' depends on axioms: [propext, Classical.choice, Quot.sound] -/
#guard_msgs in #print axioms run_main

/-- THE FRAME: at any float instance, @main runs and its three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.KernelIdeal.Blocks.lean ====
/- The four input windows' blocks of the idealized kernel's region, read at an index off the arrays as the region
   finds them: the two identifier windows move along the edge axis one block of 1280 per grid point; the two feature
   tables are one block, the whole array, at every point. -/
import proofs.«418611_j20246475833437_3_alg».proof.Proof.KernelIdeal.FrameKit
import Idealize.ShloMosaic.Lib.ValueIdx

set_option maxRecDepth 16384

noncomputable section

namespace Cert.KernelIdeal.Acc

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)

variable {F : FTy → Type} [FloatOps F]

variable (m : (ℓ : Loc nD τ sig) → Buf (Elt F) ℓ)

/-- The printed index maps, decided once over the grid: at the point in position `t` the two identifier windows are at
    block `(0, t)` (core `t / 1250`, inner step `t % 1250`, and `1250 * (t / 1250) + t % 1250 = t`); the two table
    windows are at block `(0, 0)` throughout. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Position `t`'s block of 1280 edges lies inside the edge axis. -/
theorem edge_lt (t : Fin cfg0.N) (q : Fin 1280) : t.val * 1280 + q.val < 3200000 := by
  have ht := pos_lt t
  have hq := q.isLt
  omega

/-- The source-identifier block at position `t`: entry `q` is edge `1280 t + q` of the source row. -/
theorem iblk0_apply (c : Dev nD) (t : Fin cfg0.N) (q : Fin 1280) :
    (iblk m c 0 t : Vec F S1x1280 .i32) (ix2 (0 : Fin 1) q)
      = V m c main_v26 (ix2 (0 : Fin 1) (⟨t.val * 1280 + q.val, edge_lt t q⟩ : Fin 3200000)) := by
  obtain ⟨e0, e1, -⟩ := idx_facts t
  show V m c main_v26 (((cfg0.win 0).blk t).view.emb (ix2 (0 : Fin 1) q)) = _
  refine congrArg (V m c main_v26) ?_
  funext a; apply Fin.ext
  match a with
  | ⟨0, _⟩ => show win0_0.index t (0 : Fin 2) * 1 + 1 * 0 = 0; omega
  | ⟨1, _⟩ => show win0_0.index t (1 : Fin 2) * 1280 + 1 * q.val = t.val * 1280 + q.val; omega

/-- The destination-identifier block at position `t`: entry `q` is edge `1280 t + q` of the destination row. -/
theorem iblk1_apply (c : Dev nD) (t : Fin cfg0.N) (q : Fin 1280) :
    (iblk m c 1 t : Vec F S1x1280 .i32) (ix2 (0 : Fin 1) q)
      = V m c main_v29 (ix2 (0 : Fin 1) (⟨t.val * 1280 + q.val, edge_lt t q⟩ : Fin 3200000)) := by
  obtain ⟨-, -, e0, e1, -⟩ := idx_facts t
  show V m c main_v29 (((cfg0.win 1).blk t).view.emb (ix2 (0 : Fin 1) q)) = _
  refine congrArg (V m c main_v29) ?_
  funext a; apply Fin.ext
  match a with
  | ⟨0, _⟩ => show win0_1.index t (0 : Fin 2) * 1 + 1 * 0 = 0; omega
  | ⟨1, _⟩ => show win0_1.index t (1 : Fin 2) * 1280 + 1 * q.val = t.val * 1280 + q.val; omega

/-- The high feature table's block is the whole table at every position. -/
theorem iblk2_eq (c : Dev nD) (t : Fin cfg0.N) : (iblk m c 2 t : Vec F S800x512 .bf16) = V m c main_v20 := by
  obtain ⟨-, -, -, -, e0, e1, -⟩ := idx_facts t
  funext j
  show V m c main_v20 (((cfg0.win 2).blk t).view.emb j) = V m c main_v20 j
  refine congrArg (V m c main_v20) ?_
  funext a; apply Fin.ext
  match a with
  | ⟨0, _⟩ => show win0_2.index t (0 : Fin 2) * 800 + 1 * (j 0).val = (j 0).val; omega
  | ⟨1, _⟩ => show win0_2.index t (1 : Fin 2) * 512 + 1 * (j 1).val = (j 1).val; omega

/-- The low feature table's block is the whole table at every position. -/
theorem iblk3_eq (c : Dev nD) (t : Fin cfg0.N) : (iblk m c 3 t : Vec F S800x512 .bf16) = V m c main_v21 := by
  obtain ⟨-, -, -, -, -, -, e0, e1⟩ := idx_facts t
  funext j
  show V m c main_v21 (((cfg0.win 3).blk t).view.emb j) = V m c main_v21 j
  refine congrArg (V m c main_v21) ?_
  funext a; apply Fin.ext
  match a with
  | ⟨0, _⟩ => show win0_3.index t (0 : Fin 2) * 800 + 1 * (j 0).val = (j 0).val; omega
  | ⟨1, _⟩ => show win0_3.index t (1 : Fin 2) * 512 + 1 * (j 1).val = (j 1).val; omega

end Cert.KernelIdeal.Acc

end
-- ==== Proof.LibExtReal.lean ====
/-
  Extended reals that are real numbers.  The extended reals carry two infinities, and the distributive law
  x * (a + b) = x * a + x * b fails there (take x = +∞, a = 1, b = -1).  It does hold when every term is a
  real number, and being a real number is preserved by finite sums, products, maxima, and by quotients whose
  divisor is a real number other than zero.  This file collects those facts, and the one identity built on
  them: a sum over 2n terms whose second half multiplies one fixed finite factor splits as the first half's sum
  plus that factor times the sum of the second half's other factors.
-/
import Idealize.ShloMosaic.PureOps.Ideal.Laws

namespace Cert.ExtReal

open Idealize.ShloMosaic

/-- The extended real `x` is (the image of) a real number. -/
def IsFin (x : EReal) : Prop := ∃ r : ℝ, x = (r : EReal)

theorem IsFin.coe (r : ℝ) : IsFin (r : EReal) := ⟨r, rfl⟩

theorem IsFin.zero : IsFin 0 := ⟨0, EReal.coe_zero.symm⟩

theorem IsFin.one : IsFin 1 := ⟨1, EReal.coe_one.symm⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

/-- A finite sum of real numbers is a real number. -/
theorem IsFin.sum {ι : Type} (s : Finset ι) (f : ι → EReal) : (∀ i ∈ s, IsFin (f i)) → IsFin (∑ i ∈ s, f i) := by
  classical
  refine Finset.induction_on s (fun _ => ?_) (fun a s ha ih h => ?_)
  · rw [Finset.sum_empty]; exact IsFin.zero
  · rw [Finset.sum_insert ha]
    exact (h a (Finset.mem_insert_self a s)).add (ih fun i hi => h i (Finset.mem_insert_of_mem hi))

/-- The quotient of two real numbers, the divisor not zero, is a real number. -/
theorem IsFin.div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- The larger of anything and one is not zero. -/
theorem max_one_ne_zero (x : EReal) : max x 1 ≠ 0 :=
  (lt_of_lt_of_le zero_lt_one (le_max_right x 1)).ne'

/-- Among real numbers multiplication distributes over addition. -/
theorem mul_add_of_isFin {x y z : EReal} (hx : IsFin x) (hy : IsFin y) (hz : IsFin z) :
    x * (y + z) = x * y + x * z := by
  obtain ⟨a, rfl⟩ := hx; obtain ⟨b, rfl⟩ := hy; obtain ⟨c, rfl⟩ := hz
  exact_mod_cast mul_add a b c

/-- A real factor moves inside a finite sum of real numbers. -/
theorem mul_sum_of_isFin {ι : Type} (s : Finset ι) (x : EReal) (f : ι → EReal) (hx : IsFin x) :
    (∀ i ∈ s, IsFin (f i)) → x * ∑ i ∈ s, f i = ∑ i ∈ s, x * f i := by
  classical
  refine Finset.induction_on s (fun _ => ?_) (fun a s ha ih h => ?_)
  · rw [Finset.sum_empty, Finset.sum_empty, mul_zero]
  · rw [Finset.sum_insert ha, Finset.sum_insert ha,
      mul_add_of_isFin hx (h a (Finset.mem_insert_self a s))
        (IsFin.sum s f fun i hi => h i (Finset.mem_insert_of_mem hi)),
      ih fun i hi => h i (Finset.mem_insert_of_mem hi)]

/-- A sum of products over `n + n` terms, whose first `n` left factors are `u` and whose last `n` left factors
    are all the one real number `x`, the right factors being `v` then the real numbers `w`: it is the sum of
    `u d * v d` plus `x` times the sum of `w`. -/
theorem sum_two_halves {n : ℕ} (l r : Fin (n + n) → EReal) (u v w : Fin n → EReal) (x : EReal)
    (hl1 : ∀ d, l (Fin.castAdd n d) = u d) (hl2 : ∀ d, l (Fin.natAdd n d) = x)
    (hr1 : ∀ d, r (Fin.castAdd n d) = v d) (hr2 : ∀ d, r (Fin.natAdd n d) = w d)
    (hx : IsFin x) (hw : ∀ d, IsFin (w d)) :
    ∑ k, l k * r k = (∑ d, u d * v d) + x * ∑ d, w d := by
  rw [Fin.sum_univ_add, mul_sum_of_isFin Finset.univ x w hx fun d _ => hw d]
  congr 1
  · exact Finset.sum_congr rfl fun d _ => by rw [hl1, hr1]
  · exact Finset.sum_congr rfl fun d _ => by rw [hl2, hr2]

end Cert.ExtReal
-- ==== Proof.Spec.lean ====
/-
  The mathematics both programs compute, as plain functions of the three argument arrays (no program is imported).

  Nodes carry four features: a temperature (column 3 of `x`) and three coordinates (the columns of `pos`). An edge
  `k` goes from node `src k` to node `dst k`. It adds to its target node, per coordinate `j`,
      (T[src] - T[dst]) / (|pos[src] - pos[dst]|² + ε) · (pos[src] - pos[dst])_j
  and 1 to the node's count. The result at node `n`, coordinate `j`, is
      scale · (Σ_{k : dst k = n} term_j k) / max(count n, 1) · mask n,
  where the mask is 1 where |x[n, 8]| < threshold and 0 elsewhere. The kernel multiplies by the reciprocal of the clipped
  count, the reference divides by it: `kernelForm`, `refForm`, and the law between them.
  Channels and node numbers are natural numbers throughout (channel 0 the temperature, 1–3 the coordinates; term channels
  0–2 the coordinates' contributions, 3 the count), so that no statement carries a cast between index types.
-/
import Idealize.ShloMosaic.PureOps.Ideal.Laws
import Idealize.ShloMosaic.Lib.ValueIdx
import proofs.«418611_j20246475833437_3_alg».proof.Proof.LibExtReal

noncomputable section

namespace Cert.EdgeForce

open Idealize.ShloMosaic Idealize.ShloMosaic.ValueIdx Cert.ExtReal

/-- The three argument arrays' index shapes. -/
abbrev SX : Shape := ⟨2, ![100000, 9]⟩
abbrev SP : Shape := ⟨2, ![100000, 3]⟩
abbrev SE : Shape := ⟨2, ![2, 3200000]⟩

/-- The four constants both programs carry, as their words denote them: ε, the scale, the mask's threshold, one. -/
def eps : EReal := Ideal.ofBits .f32 0x322BCC77#32
def scale : EReal := Ideal.ofBits .f32 0xB8D1B717#32
def thresh : EReal := Ideal.ofBits .f32 0x3E99999A#32
def one : EReal := Ideal.ofBits .f32 0x3F800000#32

variable (x : SX.Idx → EReal) (p : SP.Idx → EReal) (e : SE.Idx → BitVec 32)

/-- Feature `c` of node `n` (0: temperature; 1, 2, 3: the coordinates), zero past the last node. -/
def feat (c n : ℕ) : EReal :=
  if h : n < 100000 then
    match c with
    | 0 => x (ix2 (⟨n, h⟩ : Fin 100000) (3 : Fin 9))
    | 1 => p (ix2 (⟨n, h⟩ : Fin 100000) (0 : Fin 3))
    | 2 => p (ix2 (⟨n, h⟩ : Fin 100000) (1 : Fin 3))
    | _ => p (ix2 (⟨n, h⟩ : Fin 100000) (2 : Fin 3))
  else 0

/-- Feature `c` of node `s` less that of node `d`. -/
def diff (c s d : ℕ) : EReal := feat x p c s - feat x p c d

/-- The squared distance of the two nodes, plus ε (summed in the kernel's order). -/
def dist2 (s d : ℕ) : EReal :=
  diff x p 1 s d * diff x p 1 s d + diff x p 2 s d * diff x p 2 s d + diff x p 3 s d * diff x p 3 s d + eps

/-- The temperature difference over the squared distance. -/
def coeff (s d : ℕ) : EReal := Ideal.div (diff x p 0 s d) (dist2 x p s d)

/-- What an edge from `s` to `d` adds to node `d` in channel `j`: coordinate `j` of the gradient term for `j < 3`, one for the count. -/
def term (j s d : ℕ) : EReal :=
  match j with
  | 0 => coeff x p s d * diff x p 1 s d
  | 1 => coeff x p s d * diff x p 2 s d
  | 2 => coeff x p s d * diff x p 3 s d
  | _ => one

/-- The two ends of edge `k`, as natural numbers. -/
def src (k : Fin 3200000) : ℕ := (e (ix2 (0 : Fin 2) k)).toNat
def dst (k : Fin 3200000) : ℕ := (e (ix2 (1 : Fin 2) k)).toNat

/-- Channel `j` summed over the edges that arrive at node `n`. -/
def nodeSum (j n : ℕ) : EReal :=
  ∑ k : Fin 3200000, if dst e k = n then term x p j (src e k) (dst e k) else 0

/-- The same over the 1280 edges of block `b` only (edge `b · 1280 + q`). -/
def blockSum (j n : ℕ) (b : Fin 2500) : EReal :=
  ∑ q : Fin 1280, if dst e ⟨b.val * 1280 + q.val, by have := b.isLt; have := q.isLt; omega⟩ = n
    then term x p j (src e ⟨b.val * 1280 + q.val, by have := b.isLt; have := q.isLt; omega⟩) (dst e ⟨b.val * 1280 + q.val, by have := b.isLt; have := q.isLt; omega⟩) else 0

/-- The interface mask of node `n`: one where |x[n, 8]| is below the threshold, zero elsewhere. -/
def mask (n : Fin 100000) : EReal :=
  FloatOps.uitofp (F := Ideal) .f32
    (FloatOps.cmpf (F := Ideal) (φ := .f32) .olt (FloatOps.absf (F := Ideal) (φ := .f32) (x (ix2 n (8 : Fin 9)))) thresh)

/-- The result as the kernel arranges it: scaled sum, times the reciprocal of the clipped count, times the mask. -/
def kernelForm (i : SP.Idx) : EReal :=
  ((scale * nodeSum x p e (i 1).val (i 0).val) * Ideal.div one (max (nodeSum x p e 3 (i 0).val) one)) * mask x ⟨(i 0).val, (i 0).isLt⟩

/-- The result as the reference arranges it: the sum over the clipped count, scaled, times the mask. -/
def refForm (i : SP.Idx) : EReal :=
  (scale * Ideal.div (nodeSum x p e (i 1).val (i 0).val) (max (nodeSum x p e 3 (i 0).val) one)) * mask x ⟨(i 0).val, (i 0).isLt⟩

/-- Every entry of the two float arrays is a real number. -/
def AllFin : Prop := (∀ i, IsFin (x i)) ∧ (∀ i, IsFin (p i))

/-- Every edge end is a node number. -/
def InRange : Prop := ∀ i, (e i).toNat < 100000

end Cert.EdgeForce

end
-- ==== Proof.Gathered.lean ====
/-
  The gather side of one grid point: the one-hot matrices of a block of node numbers, and the four feature differences
  of each edge of the block, read off a table of node features by products against those one-hot matrices.

  A node number v below 100000 is split as v = 512 · (v / 512) + v % 512. The table holds feature c of node 512 · h + l in
  row c · 200 + h, column l. The product of the table with the one-hot matrix of v % 512 picks column v % 512 of every row;
  the sum over h of the one-hot of v / 512 times rows c · 200 + h picks row c · 200 + v / 512: together, feature c of node v.
-/
import Idealize.ShloMosaic.Lib.ValueLayout
import proofs.«418611_j20246475833437_3_alg».proof.Proof.Spec
import proofs.«418611_j20246475833437_3_alg».proof.Proof.Gen.KernelIdeal.Skeleton

noncomputable section

namespace Cert.KernelIdeal.PointMath

open Idealize.ShloMosaic Idealize.ShloMosaic.ValueIdx Cert.KernelIdeal Cert.KernelIdeal.Gen

/-! ## Words: the low nine bits and the rest of a node number -/

/-- The low nine bits of a word are its value modulo 512. -/
theorem lo_toNat (v : BitVec 32) : (IntOp.andi v 511#32).toNat = v.toNat % 512 := by
  show (v &&& 511#32).toNat = _
  rw [BitVec.toNat_and]
  exact Nat.and_two_pow_sub_one_eq_mod v.toNat 9

/-- A word below 2^31 shifted right arithmetically by nine places is its value divided by 512. -/
theorem hi_toNat (v : BitVec 32) (h : v.toNat < 100000) : (IntOp.shrsi .vector v 9#32).toNat = v.toNat / 512 := by
  have hm : v.msb = false := by
    rw [BitVec.msb_eq_decide]; simp; omega
  show (if (9#32 : BitVec 32).toNat < 32 then v.sshiftRight' 9#32 else _).toNat = _
  rw [if_pos (by decide)]
  show (v.sshiftRight (9#32 : BitVec 32).toNat).toNat = _
  rw [BitVec.sshiftRight_eq_of_msb_false hm, BitVec.toNat_ushiftRight, Nat.shiftRight_eq_div_pow]
  rfl

/-- The entry of a one-hot matrix as the kernel builds it: the comparison bit of two words, widened and converted, is one
    where the words agree and zero elsewhere. -/
theorem onehot_word (a b : BitVec 32) :
    FloatOps.sitofp (F := Ideal) .f32 ((IntOp.cmpi .eq a b).setWidth 32) = if a = b then (1 : EReal) else 0 := by
  by_cases h : a = b
  · subst h
    rw [if_pos rfl]
    show (((((BitVec.ofBool (a == a)).setWidth 32).toInt : ℝ)) : EReal) = 1
    simp
  · rw [if_neg h]
    show (((((BitVec.ofBool (a == b)).setWidth 32).toInt : ℝ)) : EReal) = 0
    have : (a == b) = false := by simpa using h
    rw [this]
    simp

/-- A coordinate below 512 agrees, as a word, with the low bits of `v` exactly when it is `v % 512`. -/
theorem lo_eq_iff (l : Fin 512) (v : BitVec 32) : BitVec.ofNat 32 l.val = IntOp.andi v 511#32 ↔ v.toNat % 512 = l.val := by
  rw [← BitVec.toNat_inj, lo_toNat, BitVec.toNat_ofNat]
  have := l.isLt
  rw [Nat.mod_eq_of_lt (by omega)]
  exact eq_comm

/-- A coordinate below 200 agrees, as a word, with the high part of an in-range `v` exactly when it is `v / 512`. -/
theorem hi_eq_iff (h : Fin 200) (v : BitVec 32) (hv : v.toNat < 100000) :
    BitVec.ofNat 32 h.val = IntOp.shrsi .vector v 9#32 ↔ v.toNat / 512 = h.val := by
  rw [← BitVec.toNat_inj, hi_toNat v hv, BitVec.toNat_ofNat]
  have := h.isLt
  rw [Nat.mod_eq_of_lt (by omega)]
  exact eq_comm

/-! ## Layout: a column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot matrices of a block of node numbers -/

section OneHot
variable (ids : S1x1280.Idx → BitVec 32)

/-- Row `l`, column `q` of the one-hot matrix of the low parts: one where node `q` of the block has low part `l`. -/
theorem onehot_lo (l : Fin 512) (q : Fin 1280) :
    k0_pay15 (F := Ideal) ids (ix2 l q) = if (ids (ix2 (0 : Fin 1) q)).toNat % 512 = l.val then 1 else 0 := by
  unfold k0_pay15 k0_pay14
  have e1 : broadcastTo S512x1280 (iota .tc S512x1 32 [0] iota_S512x1_d0_w32) broadcasts_S512x1_S512x1280 (ix2 l q)
      = BitVec.ofNat 32 l.val :=
    (broadcastTo_a1_ab_apply _ _ l q).trans (iota_single_apply .tc S512x1 32 0 _ _)
  have e2 : broadcastTo S512x1280 (andi (shapeCast S1x1280 ids shapeCasts_S1x1280_S1x1280) (broadcast S1x1280 511#32))
      broadcasts_S1x1280_S512x1280 (ix2 l q) = IntOp.andi (ids (ix2 (0 : Fin 1) q)) 511#32 := by
    refine (broadcastTo_1b_ab_apply _ _ l q).trans ?_
    rw [shapeCast_self]
    rfl
  show FloatOps.sitofp (F := Ideal) .f32 ((IntOp.cmpi .eq
      (broadcastTo S512x1280 (iota .tc S512x1 32 [0] iota_S512x1_d0_w32) broadcasts_S512x1_S512x1280 (ix2 l q))
      (broadcastTo S512x1280 (andi (shapeCast S1x1280 ids shapeCasts_S1x1280_S1x1280) (broadcast S1x1280 511#32))
        broadcasts_S1x1280_S512x1280 (ix2 l q))).setWidth 32) = _
  rw [e1, e2]
  exact (onehot_word _ _).trans (if_congr (lo_eq_iff l _) rfl rfl)

/-- Row `h`, column `q` of the one-hot matrix of the high parts, in single precision. -/
theorem onehot_hi_f32 (hin : ∀ i, (ids i).toNat < 100000) (h : Fin 200) (q : Fin 1280) :
    k0_pay16 (F := Ideal) ids (ix2 h q) = if (ids (ix2 (0 : Fin 1) q)).toNat / 512 = h.val then 1 else 0 := by
  unfold k0_pay16 k0_pay14
  have e1 : broadcastTo S200x1280 (iota .tc S200x1 32 [0] iota_S200x1_d0_w32) broadcasts_S200x1_S200x1280 (ix2 h q)
      = BitVec.ofNat 32 h.val :=
    (broadcastTo_a1_ab_apply _ _ h q).trans (iota_single_apply .tc S200x1 32 0 _ _)
  have e2 : broadcastTo S200x1280 (shrsi (shapeCast S1x1280 ids shapeCasts_S1x1280_S1x1280) (broadcast S1x1280 9#32))
      broadcasts_S1x1280_S200x1280 (ix2 h q) = IntOp.shrsi .vector (ids (ix2 (0 : Fin 1) q)) 9#32 := by
    refine (broadcastTo_1b_ab_apply _ _ h q).trans ?_
    rw [shapeCast_self]
    rfl
  show FloatOps.sitofp (F := Ideal) .f32 ((IntOp.cmpi .eq
      (broadcastTo S200x1280 (iota .tc S200x1 32 [0] iota_S200x1_d0_w32) broadcasts_S200x1_S200x1280 (ix2 h q))
      (broadcastTo S200x1280 (shrsi (shapeCast S1x1280 ids shapeCasts_S1x1280_S1x1280) (broadcast S1x1280 9#32))
        broadcasts_S1x1280_S200x1280 (ix2 h q))).setWidth 32) = _
  rw [e1, e2]
  exact (onehot_word _ _).trans (if_congr (hi_eq_iff h _ (hin _)) rfl rfl)

/-- The same matrix in the narrower format: the same numbers. -/
theorem onehot_hi (hin : ∀ i, (ids i).toNat < 100000) (h : Fin 200) (q : Fin 1280) :
    k0_pay17 (F := Ideal) ids (ix2 h q) = if (ids (ix2 (0 : Fin 1) q)).toNat / 512 = h.val then 1 else 0 :=
  onehot_hi_f32 ids hin h q

end OneHot

/-! ## The product of the feature table with a matrix, read at an index -/

section TableProduct

theorem lhsTable_0 (j : S800x1280.Idx) (k : (dot_S800x512_S512x1280_S800x1280_1_0_0_1_n_n).contr.Idx) :
    ((dot_S800x512_S512x1280_S800x1280_1_0_0_1_n_n).lhsIdx j k 0).val = (j 0).val := by
  unfold DotDims.lhsIdx
  rw [dif_neg (show ¬(0 : Fin S800x512.rank) ∈ (dot_S800x512_S512x1280_S800x1280_1_0_0_1_n_n).lhsBatch by decide),
    dif_pos (show (0 : Fin S800x512.rank) ∈ (dot_S800x512_S512x1280_S800x1280_1_0_0_1_n_n).lhsNonContracting by decide)]
  rfl

theorem lhsTable_1 (j : S800x1280.Idx) (k : (dot_S800x512_S512x1280_S800x1280_1_0_0_1_n_n).contr.Idx) :
    ((dot_S800x512_S512x1280_S800x1280_1_0_0_1_n_n).lhsIdx j k 1).val = (k ⟨0, by decide⟩).val :=
  (dot_S800x512_S512x1280_S800x1280_1_0_0_1_n_n).lhsIdx_val_of_single rfl j k

theorem rhsTable_0 (j : S800x1280.Idx) (k : (dot_S800x512_S512x1280_S800x1280_1_0_0_1_n_n).contr.Idx) :
    ((dot_S800x512_S512x1280_S800x1280_1_0_0_1_n_n).rhsIdx j k 0).val = (k ⟨0, by decide⟩).val :=
  (dot_S800x512_S512x1280_S800x1280_1_0_0_1_n_n).rhsIdx_val_of_single rfl j k

theorem rhsTable_1 (j : S800x1280.Idx) (k : (dot_S800x512_S512x1280_S800x1280_1_0_0_1_n_n).contr.Idx) :
    ((dot_S800x512_S512x1280_S800x1280_1_0_0_1_n_n).rhsIdx j k 1).val = (j 1).val := by
  unfold DotDims.rhsIdx
  rw [dif_neg (show ¬(1 : Fin S512x1280.rank) ∈ (dot_S800x512_S512x1280_S800x1280_1_0_0_1_n_n).rhsBatch by decide),
    dif_pos (show (1 : Fin S512x1280.rank) ∈ (dot_S800x512_S512x1280_S800x1280_1_0_0_1_n_n).rhsNonContracting by decide)]
  rfl

/-- Row `r`, column `q` of the table times a matrix, from a zero accumulator: the sum over the 512 columns of the table. -/
theorem tableProduct_apply (T : S800x512.Idx → EReal) (B : S512x1280.Idx → EReal) (r : Fin 800) (q : Fin 1280) :
    matmul (F := Ideal) (φ₁ := .bf16) (φ₂ := .bf16) dot_S800x512_S512x1280_S800x1280_1_0_0_1_n_n none T B
      (constant (F := Ideal) S800x1280 .f32 0x00000000#32) (ix2 r q) = ∑ l : Fin 512, T (ix2 r l) * B (ix2 l q) := by
  refine (Ideal.matmul_constant_zero_apply (φ₁ := .bf16) (φ₂ := .bf16) dot_S800x512_S512x1280_S800x1280_1_0_0_1_n_n none T B (ix2 r q)).trans ?_
  rw [← Equiv.sum_comp (contrEquiv1 dot_S800x512_S512x1280_S800x1280_1_0_0_1_n_n 512 rfl rfl).symm]
  refine Finset.sum_congr rfl fun l _ => ?_
  have c := contrEquiv1_symm_val dot_S800x512_S512x1280_S800x1280_1_0_0_1_n_n 512 rfl rfl l
  have eL : (dot_S800x512_S512x1280_S800x1280_1_0_0_1_n_n).lhsIdx (ix2 r q)
      ((contrEquiv1 dot_S800x512_S512x1280_S800x1280_1_0_0_1_n_n 512 rfl rfl).symm l) = ix2 r l := by
    funext ax; apply Fin.ext
    match ax with
    | ⟨0, _⟩ => exact lhsTable_0 _ _
    | ⟨1, _⟩ => exact (lhsTable_1 _ _).trans c
  have eR : (dot_S800x512_S512x1280_S800x1280_1_0_0_1_n_n).rhsIdx (ix2 r q)
      ((contrEquiv1 dot_S800x512_S512x1280_S800x1280_1_0_0_1_n_n 512 rfl rfl).symm l) = ix2 l q := by
    funext ax; apply Fin.ext
    match ax with
    | ⟨0, _⟩ => exact (rhsTable_0 _ _).trans c
    | ⟨1, _⟩ => exact rhsTable_1 _ _
  rw [eL, eR]

end TableProduct

/-! ## Sums against a one-hot row -/

theorem sum_mul_onehot {n : ℕ} (a : Fin n → EReal) (k : ℕ) (hk : k < n) :
    ∑ l : Fin n, a l * (if k = l.val then (1 : EReal) else 0) = a ⟨k, hk⟩ := by
  rw [Finset.sum_eq_single (⟨k, hk⟩ : Fin n)]
  · rw [if_pos rfl, mul_one]
  · intro b _ hb
    rw [if_neg (fun h => hb (Fin.ext h.symm)), mul_zero]
  · intro h; exact absurd (Finset.mem_univ _) h

theorem sum_onehot_mul {n : ℕ} (a : Fin n → EReal) (k : ℕ) (hk : k < n) :
    ∑ l : Fin n, (if k = l.val then (1 : EReal) else 0) * a l = a ⟨k, hk⟩ := by
  rw [Finset.sum_eq_single (⟨k, hk⟩ : Fin n)]
  · rw [if_pos rfl, one_mul]
  · intro b _ hb
    rw [if_neg (fun h => hb (Fin.ext h.symm)), zero_mul]
  · intro h; exact absurd (Finset.mem_univ _) h

/-! ## One column of the table per edge, then one row per channel -/

section Gather
variable (ids : S1x1280.Idx → BitVec 32)

/-- The table times the one-hot matrix of the low parts: at row `r`, edge `q`, the table's entry in row `r` and the column
    of the edge's node (for both halves of the table). -/
theorem gatherColumn_apply (T4 T6 : S800x512.Idx → EReal) (r : Fin 800) (q : Fin 1280) :
    k0_pay18 (F := Ideal) T4 T6 ids (ix2 r q)
      = T4 (ix2 r ⟨(ids (ix2 (0 : Fin 1) q)).toNat % 512, Nat.mod_lt _ (by decide)⟩)
        + T6 (ix2 r ⟨(ids (ix2 (0 : Fin 1) q)).toNat % 512, Nat.mod_lt _ (by decide)⟩) := by
  have e (T : S800x512.Idx → EReal) :
      matmul (F := Ideal) (φ₁ := .bf16) (φ₂ := .bf16) dot_S800x512_S512x1280_S800x1280_1_0_0_1_n_n none T (k0_pay15 ids)
        (constant (F := Ideal) S800x1280 .f32 0x00000000#32) (ix2 r q)
        = T (ix2 r ⟨(ids (ix2 (0 : Fin 1) q)).toNat % 512, Nat.mod_lt _ (by decide)⟩) := by
    rw [tableProduct_apply]
    simp only [onehot_lo]
    exact sum_mul_onehot (fun l => T (ix2 r l)) _ _
  exact congrArg₂ (· + ·) (e T4) (e T6)

/-- A sum down the 200 rows of a slice of an `[800, 1280]` array, weighted entry by entry. -/
theorem laneSum_apply (off : ℕ) (hoff : off + 200 ≤ 800) (hs : S800x1280.Slices ![off, 0] S200x1280)
    (hr : S200x1280.Reduces [0] S1280) (hφ : FKind.Formats .f32)
    (hacc : (0x00000000#32 : BitVec FTy.f32.bits) = FKind.add.neutral .f32 hφ)
    (w : S200x1280.Idx → EReal) (P : S800x1280.Idx → EReal) (q : Fin 1280) :
    multiReduction (F := Ideal) (φ := .f32) .add [0] S1280 (mulf w (extractStridedSlice S200x1280 ![off, 0] P hs))
        0x00000000#32 hr hφ hacc (ix1 q)
      = ∑ h : Fin 200, w (ix2 h q) * P (ix2 (⟨off + h.val, by have := h.isLt; omega⟩ : Fin 800) q) := by
  refine (Ideal.multiReduction_add_single (φ := .f32) _ _ hr hφ hacc (ix1 q)).trans ?_
  refine Finset.sum_congr rfl fun (h : Fin 200) _ => ?_
  have ej : hr.lift (ix1 q) h = ix2 h q := by
    funext ax; apply Fin.ext
    match ax with
    | ⟨0, _⟩ => rfl
    | ⟨1, _⟩ => rfl
  rw [ej]
  exact congrArg (w (ix2 h q) * ·) (slice2_axis0_apply off P hs h q ⟨off + h.val, by have := h.isLt; omega⟩ rfl)

/-- The row sum against the one-hot matrix of the high parts picks, of the 200 rows from `off`, the row of the edge's node. -/
theorem gatherEntry_apply (hin : ∀ i, (ids i).toNat < 100000) (off : ℕ) (hoff : off + 200 ≤ 800)
    (hs : S800x1280.Slices ![off, 0] S200x1280) (hr : S200x1280.Reduces [0] S1280) (hφ : FKind.Formats .f32)
    (hacc : (0x00000000#32 : BitVec FTy.f32.bits) = FKind.add.neutral .f32 hφ)
    (T4 T6 : S800x512.Idx → EReal) (q : Fin 1280) :
    multiReduction (F := Ideal) (φ := .f32) .add [0] S1280
        (mulf (k0_pay16 ids) (extractStridedSlice S200x1280 ![off, 0] (k0_pay18 T4 T6 ids) hs)) 0x00000000#32 hr hφ hacc (ix1 q)
      = T4 (ix2 (⟨off + (ids (ix2 (0 : Fin 1) q)).toNat / 512, by have := hin (ix2 (0 : Fin 1) q); omega⟩ : Fin 800)
            ⟨(ids (ix2 (0 : Fin 1) q)).toNat % 512, Nat.mod_lt _ (by decide)⟩)
        + T6 (ix2 (⟨off + (ids (ix2 (0 : Fin 1) q)).toNat / 512, by have := hin (ix2 (0 : Fin 1) q); omega⟩ : Fin 800)
            ⟨(ids (ix2 (0 : Fin 1) q)).toNat % 512, Nat.mod_lt _ (by decide)⟩) := by
  rw [laneSum_apply off hoff]
  simp only [onehot_hi_f32 ids hin, gatherColumn_apply]
  exact sum_onehot_mul (fun h : Fin 200 =>
    T4 (ix2 (⟨off + h.val, by have := h.isLt; omega⟩ : Fin 800) ⟨(ids (ix2 (0 : Fin 1) q)).toNat % 512, Nat.mod_lt _ (by decide)⟩)
      + T6 (ix2 (⟨off + h.val, by have := h.isLt; omega⟩ : Fin 800) ⟨(ids (ix2 (0 : Fin 1) q)).toNat % 512, Nat.mod_lt _ (by decide)⟩))
    ((ids (ix2 (0 : Fin 1) q)).toNat / 512) (by have := hin (ix2 (0 : Fin 1) q); omega)

end Gather

/-! ## The four feature differences of an edge -/

/-- What one grid point's gather reads: the table's upper half holds the node features (feature `c` of node `512 · h + l` in
    row `c · 200 + h`, column `l`), its lower half is zero, and both blocks of node numbers are in range. -/
structure PointHyp (x : Cert.EdgeForce.SX.Idx → EReal) (p : Cert.EdgeForce.SP.Idx → EReal)
    (x0 x1 : S1x1280.Idx → BitVec 32) (x2 x3 : S800x512.Idx → EReal) : Prop where
  tab : ∀ (c : Fin 4) (h : Fin 200) (l : Fin 512),
    x2 (ix2 (⟨c.val * 200 + h.val, by have := c.isLt; have := h.isLt; omega⟩ : Fin 800) l)
      = Cert.EdgeForce.feat x p c.val (h.val * 512 + l.val)
  lo : ∀ i, x3 i = 0
  srcIn : ∀ i, (x0 i).toNat < 100000
  dstIn : ∀ i, (x1 i).toNat < 100000

/-- The source side builds its one-hot matrices and its column gather by the same operations as the target side. -/
theorem pay9_eq (v3 v5 : S800x512.Idx → EReal) (v7 : S1x1280.Idx → BitVec 32) :
    k0_pay9 (F := Ideal) v3 v5 v7 = k0_pay18 (k0_pay6 v3) (k0_pay7 v5) v7 := rfl
theorem pay10_eq (v7 : S1x1280.Idx → BitVec 32) : k0_pay10 (F := Ideal) v7 = k0_pay16 v7 := rfl
theorem pay19_eq (v7 : S1x1280.Idx → BitVec 32) : k0_pay19 (F := Ideal) v7 = k0_pay16 v7 := rfl

section Differences
variable {x : Cert.EdgeForce.SX.Idx → EReal} {p : Cert.EdgeForce.SP.Idx → EReal}
  {x0 x1 : S1x1280.Idx → BitVec 32} {x2 x3 : S800x512.Idx → EReal}

/-- Channel `c` gathered for a block of in-range node numbers: feature `c` of the node of edge `q`. -/
theorem channel_feat (hyp : PointHyp x p x0 x1 x2 x3) (ids : S1x1280.Idx → BitVec 32) (hin : ∀ i, (ids i).toNat < 100000)
    (c : Fin 4) (off : ℕ) (hoffc : off = c.val * 200)
    (hs : S800x1280.Slices ![off, 0] S200x1280) (hr : S200x1280.Reduces [0] S1280) (hφ : FKind.Formats .f32)
    (hacc : (0x00000000#32 : BitVec FTy.f32.bits) = FKind.add.neutral .f32 hφ) (q : Fin 1280) :
    multiReduction (F := Ideal) (φ := .f32) .add [0] S1280
        (mulf (k0_pay16 ids) (extractStridedSlice S200x1280 ![off, 0] (k0_pay18 (k0_pay6 x2) (k0_pay7 x3) ids) hs))
        0x00000000#32 hr hφ hacc (ix1 q)
      = Cert.EdgeForce.feat x p c.val (ids (ix2 (0 : Fin 1) q)).toNat := by
  subst hoffc
  rw [gatherEntry_apply ids hin (c.val * 200) (by have := c.isLt; omega)]
  have e6 : k0_pay6 (F := Ideal) x2 = x2 := shapeCast_self _ _
  have e7 : k0_pay7 (F := Ideal) x3 = x3 := shapeCast_self _ _
  rw [e6, e7, hyp.lo, add_zero]
  refine (hyp.tab c ⟨(ids (ix2 (0 : Fin 1) q)).toNat / 512, by have := hin (ix2 (0 : Fin 1) q); omega⟩
    ⟨(ids (ix2 (0 : Fin 1) q)).toNat % 512, Nat.mod_lt _ (by decide)⟩).trans ?_
  exact congrArg (Cert.EdgeForce.feat x p c.val) (Nat.div_add_mod' _ 512)

/-- The temperature of the source node less that of the target node. -/
theorem gathered_diff0 (hyp : PointHyp x p x0 x1 x2 x3) (q : Fin 1280) :
    k0_pay20 (F := Ideal) (k0_pay6 x2) (k0_pay7 x3) (k0_pay11 x2 x3 x0) x1 (ix2 (0 : Fin 1) q)
      = Cert.EdgeForce.diff x p 0 (x0 (ix2 (0 : Fin 1) q)).toNat (x1 (ix2 (0 : Fin 1) q)).toNat := by
  unfold k0_pay20 k0_pay11 Cert.EdgeForce.diff
  rw [pay9_eq, pay10_eq, pay19_eq]
  refine congrArg₂ (· - ·) ((shapeCast_a_1a_apply _ _ 0 q).trans ?_) ((shapeCast_a_1a_apply _ _ 0 q).trans ?_)
  · exact channel_feat hyp x0 hyp.srcIn 0 0 rfl _ _ _ _ q
  · exact channel_feat hyp x1 hyp.dstIn 0 0 rfl _ _ _ _ q

/-- The first coordinate of the source node less that of the target node. -/
theorem gathered_diff1 (hyp : PointHyp x p x0 x1 x2 x3) (q : Fin 1280) :
    k0_pay21 (F := Ideal) (k0_pay6 x2) (k0_pay7 x3) (k0_pay12 x2 x3 x0) x1 (ix2 (0 : Fin 1) q)
      = Cert.EdgeForce.diff x p 1 (x0 (ix2 (0 : Fin 1) q)).toNat (x1 (ix2 (0 : Fin 1) q)).toNat := by
  unfold k0_pay21 k0_pay12 Cert.EdgeForce.diff
  rw [pay9_eq, pay10_eq, pay19_eq]
  refine congrArg₂ (· - ·) ((shapeCast_a_1a_apply _ _ 0 q).trans ?_) ((shapeCast_a_1a_apply _ _ 0 q).trans ?_)
  · exact channel_feat hyp x0 hyp.srcIn 1 200 rfl _ _ _ _ q
  · exact channel_feat hyp x1 hyp.dstIn 1 200 rfl _ _ _ _ q

/-- The second coordinate of the source node less that of the target node. -/
theorem gathered_diff2 (hyp : PointHyp x p x0 x1 x2 x3) (q : Fin 1280) :
    k0_pay22 (F := Ideal) (k0_pay6 x2) (k0_pay7 x3) (k0_pay13 x2 x3 x0) x1 (ix2 (0 : Fin 1) q)
      = Cert.EdgeForce.diff x p 2 (x0 (ix2 (0 : Fin 1) q)).toNat (x1 (ix2 (0 : Fin 1) q)).toNat := by
  unfold k0_pay22 k0_pay13 Cert.EdgeForce.diff
  rw [pay9_eq, pay10_eq, pay19_eq]
  refine congrArg₂ (· - ·) ((shapeCast_a_1a_apply _ _ 0 q).trans ?_) ((shapeCast_a_1a_apply _ _ 0 q).trans ?_)
  · exact channel_feat hyp x0 hyp.srcIn 2 400 rfl _ _ _ _ q
  · exact channel_feat hyp x1 hyp.dstIn 2 400 rfl _ _ _ _ q

/-- The third coordinate of the source node less that of the target node. -/
theorem gathered_diff3 (hyp : PointHyp x p x0 x1 x2 x3) (q : Fin 1280) :
    k0_pay23 (F := Ideal) (k0_pay6 x2) (k0_pay7 x3) (k0_pay9 x2 x3 x0) (k0_pay10 x0) x1 (ix2 (0 : Fin 1) q)
      = Cert.EdgeForce.diff x p 3 (x0 (ix2 (0 : Fin 1) q)).toNat (x1 (ix2 (0 : Fin 1) q)).toNat := by
  unfold k0_pay23 Cert.EdgeForce.diff
  rw [pay9_eq, pay10_eq, pay19_eq]
  refine congrArg₂ (· - ·) ((shapeCast_a_1a_apply _ _ 0 q).trans ?_) ((shapeCast_a_1a_apply _ _ 0 q).trans ?_)
  · exact channel_feat hyp x0 hyp.srcIn 3 600 rfl _ _ _ _ q
  · exact channel_feat hyp x1 hyp.dstIn 3 600 rfl _ _ _ _ q

end Differences

end Cert.KernelIdeal.PointMath

end
-- ==== Proof.SpecConsts.lean ====
/-
  The four float constants of the two programs as real numbers: one is 1, ε is a positive real, the scale and the
  threshold are reals. The words are unfolded here, once, for every module that needs a constant's value.
-/
import proofs.«418611_j20246475833437_3_alg».proof.Proof.Spec

noncomputable section

namespace Cert.EdgeForce

open Idealize.ShloMosaic Cert.ExtReal

/-- The word of `1.0` denotes the number one. -/
theorem one_eq : one = 1 := by
  unfold one
  simp [Ideal.ofBits, Ideal.ieee, -EReal.coe_mul]; norm_num

/-- ε is a positive real number (11258999 · 2⁻⁵⁰). -/
theorem eps_pos : ∃ r : ℝ, 0 < r ∧ eps = (r : EReal) := by
  unfold eps
  simp only [Ideal.ofBits, Ideal.ieee]
  refine ⟨_, ?_, by simp [-EReal.coe_mul]; rfl⟩
  norm_num

/-- The scale is a real number. -/
theorem scale_fin : IsFin scale := by
  unfold scale
  simp only [Ideal.ofBits, Ideal.ieee]
  exact ⟨_, by simp [-EReal.coe_mul]; rfl⟩

end Cert.EdgeForce

end
-- ==== Proof.Scattered.lean ====
/-
  The scatter side of one grid point. The block's 1280 edges carry, per channel, one real value each; the body
  multiplies the row of values into the indicator matrix of the target nodes' low parts (node mod 512), contracts
  the result with the indicator matrix of the high parts (node div 512) over the edges, and adds the product to the
  accumulator's row. Each value is first split into itself (a change of number format is the identity on extended
  reals) and the remainder value − value, which is zero because the value is a real number; so at (h, l) the row gains
  the sum of the values of the edges that arrive at node h · 512 + l. Stated over the gathered differences as
  hypotheses, so that nothing here depends on how they were gathered.
-/
import Idealize.ShloMosaic.PureOps.Ideal.Laws
import Idealize.ShloMosaic.Lib.ValueIdx
import Idealize.ShloMosaic.Lib.ValueLayout
import proofs.«418611_j20246475833437_3_alg».proof.Proof.Spec
import proofs.«418611_j20246475833437_3_alg».proof.Proof.SpecConsts
import proofs.«418611_j20246475833437_3_alg».proof.Proof.Gen.KernelIdeal.Skeleton

noncomputable section

namespace Cert.KernelIdeal.PointMath

open Idealize.ShloMosaic Idealize.ShloMosaic.ValueIdx Cert.ExtReal Cert.KernelIdeal Cert.KernelIdeal.Gen
open scoped BigOperators

/-! ## The scatter contraction's index maps, coordinate by coordinate

Both operands are contracted along their second axis (the 1280 edges of the block): the left operand is read at
(row of the result, edge), the right operand at (column of the result, edge). -/

theorem scat_lhs_0 (j : S200x512.Idx) (k : dot_S200x1280_S512x1280_S200x512_1_1_0_0_n_n.contr.Idx) :
    (dot_S200x1280_S512x1280_S200x512_1_1_0_0_n_n.lhsIdx j k 0 : ℕ) = j 0 := by
  simp [DotDims.lhsIdx, dot_S200x1280_S512x1280_S200x512_1_1_0_0_n_n]; rfl
theorem scat_lhs_1 (j : S200x512.Idx) (k : dot_S200x1280_S512x1280_S200x512_1_1_0_0_n_n.contr.Idx) :
    (dot_S200x1280_S512x1280_S200x512_1_1_0_0_n_n.lhsIdx j k 1 : ℕ) = k ⟨0, by decide⟩ := by
  simp [DotDims.lhsIdx, dot_S200x1280_S512x1280_S200x512_1_1_0_0_n_n]; rfl
theorem scat_rhs_0 (j : S200x512.Idx) (k : dot_S200x1280_S512x1280_S200x512_1_1_0_0_n_n.contr.Idx) :
    (dot_S200x1280_S512x1280_S200x512_1_1_0_0_n_n.rhsIdx j k 0 : ℕ) = j 1 := by
  simp [DotDims.rhsIdx, dot_S200x1280_S512x1280_S200x512_1_1_0_0_n_n]; rfl
theorem scat_rhs_1 (j : S200x512.Idx) (k : dot_S200x1280_S512x1280_S200x512_1_1_0_0_n_n.contr.Idx) :
    (dot_S200x1280_S512x1280_S200x512_1_1_0_0_n_n.rhsIdx j k 1 : ℕ) = k ⟨0, by decide⟩ := by
  simp [DotDims.rhsIdx, dot_S200x1280_S512x1280_S200x512_1_1_0_0_n_n]; rfl

/-- A node number is h · 512 + l exactly when its quotient by 512 is h and its remainder is l. -/
theorem split_iff (d : ℕ) (h : Fin 200) (l : Fin 512) : (d / 512 = h.val ∧ d % 512 = l.val) ↔ d = h.val * 512 + l.val := by
  have := l.isLt; omega

/-- The product of two indicator values and a third factor: the factor where both conditions hold, zero elsewhere. -/
theorem ind_mul_ind_mul (A B : Prop) [Decidable A] [Decidable B] (w : EReal) :
    (if A then (1 : EReal) else 0) * ((if B then (1 : EReal) else 0) * w) = if A ∧ B then w else 0 := by
  by_cases hA : A <;> by_cases hB : B <;> simp [hA, hB]

section OneHot
variable (did : Fin 1280 → ℕ)
  (v60 : S512x1280.Idx → EReal) (v66 : S200x1280.Idx → EReal)
  (h60 : ∀ (l : Fin 512) (q : Fin 1280), v60 (ix2 l q) = if did q % 512 = l.val then 1 else 0)
  (h66 : ∀ (h : Fin 200) (q : Fin 1280), v66 (ix2 h q) = if did q / 512 = h.val then 1 else 0)
include h60 h66

/-- The product of the two indicator matrices with a row of per-edge values spread over the lanes: at (h, l) it is the sum of
    the values of the edges that arrive at node h · 512 + l. -/
theorem onehot_matmul_apply (wrow : S1x1280.Idx → EReal) (h : Fin 200) (l : Fin 512) :
    matmul (F := Ideal) (φ₁ := .bf16) (φ₂ := .bf16) dot_S200x1280_S512x1280_S200x512_1_1_0_0_n_n none v66
        (mulf (F := Ideal) (φ := .bf16) v60 (broadcastTo S512x1280 wrow broadcasts_S1x1280_S512x1280))
        (constant (F := Ideal) S200x512 .f32 0x00000000#32) (ix2 h l)
      = ∑ q : Fin 1280, if did q = h.val * 512 + l.val then wrow (ix2 (0 : Fin 1) q) else 0 := by
  refine (Ideal.matmul_constant_zero_apply dot_S200x1280_S512x1280_S200x512_1_1_0_0_n_n none v66 _ (ix2 h l)).trans ?_
  rw [← Equiv.sum_comp (contrEquiv1 dot_S200x1280_S512x1280_S200x512_1_1_0_0_n_n 1280 rfl rfl).symm]
  refine Finset.sum_congr rfl fun q _ => ?_
  have eL : dot_S200x1280_S512x1280_S200x512_1_1_0_0_n_n.lhsIdx (ix2 h l)
      ((contrEquiv1 dot_S200x1280_S512x1280_S200x512_1_1_0_0_n_n 1280 rfl rfl).symm q) = ix2 h q := by
    funext a
    match a with
    | ⟨0, _⟩ => exact Fin.ext (scat_lhs_0 _ _)
    | ⟨1, _⟩ => exact Fin.ext ((scat_lhs_1 _ _).trans (contrEquiv1_symm_val _ 1280 rfl rfl q))
  have eR : dot_S200x1280_S512x1280_S200x512_1_1_0_0_n_n.rhsIdx (ix2 h l)
      ((contrEquiv1 dot_S200x1280_S512x1280_S200x512_1_1_0_0_n_n 1280 rfl rfl).symm q) = ix2 l q := by
    funext a
    match a with
    | ⟨0, _⟩ => exact Fin.ext (scat_rhs_0 _ _)
    | ⟨1, _⟩ => exact Fin.ext ((scat_rhs_1 _ _).trans (contrEquiv1_symm_val _ 1280 rfl rfl q))
  rw [eL, eR, mulf_apply, broadcastTo_1b_ab_apply, h66, h60, ind_mul_ind_mul]
  exact if_congr (split_iff (did q) h l) rfl rfl

end OneHot

/-! ## Real numbers: a difference, and the per-edge values -/

/-- The difference of two real numbers is a real number. -/
theorem isFin_sub {a b : EReal} (ha : IsFin a) (hb : IsFin b) : IsFin (a - b) := by
  obtain ⟨u, rfl⟩ := ha; obtain ⟨v, rfl⟩ := hb
  exact ⟨u - v, (EReal.coe_sub u v).symm⟩

/-- A real number less itself is zero (false at the two infinities). -/
theorem sub_self_of_isFin {a : EReal} (ha : IsFin a) : a - a = 0 := by
  obtain ⟨u, rfl⟩ := ha
  rw [← EReal.coe_sub, sub_self, EReal.coe_zero]

section Values
variable (x : Cert.EdgeForce.SX.Idx → EReal) (p : Cert.EdgeForce.SP.Idx → EReal) (hfin : Cert.EdgeForce.AllFin x p)
include hfin

/-- Every feature of every node is a real number. -/
theorem feat_fin (c n : ℕ) : IsFin (Cert.EdgeForce.feat x p c n) := by
  unfold Cert.EdgeForce.feat
  split
  · split
    · exact hfin.1 _
    · exact hfin.2 _
    · exact hfin.2 _
    · exact hfin.2 _
  · exact IsFin.zero

/-- So is every difference of features. -/
theorem diff_fin (c s d : ℕ) : IsFin (Cert.EdgeForce.diff x p c s d) :=
  isFin_sub (feat_fin x p hfin c s) (feat_fin x p hfin c d)

/-- The squared distance plus ε is a positive real number. -/
theorem dist2_pos (s d : ℕ) : ∃ t : ℝ, 0 < t ∧ Cert.EdgeForce.dist2 x p s d = (t : EReal) := by
  obtain ⟨a, ha⟩ := diff_fin x p hfin 1 s d
  obtain ⟨b, hb⟩ := diff_fin x p hfin 2 s d
  obtain ⟨c, hc⟩ := diff_fin x p hfin 3 s d
  obtain ⟨e, he, hee⟩ := Cert.EdgeForce.eps_pos
  refine ⟨a * a + b * b + c * c + e, by nlinarith [mul_self_nonneg a, mul_self_nonneg b, mul_self_nonneg c], ?_⟩
  unfold Cert.EdgeForce.dist2
  rw [ha, hb, hc, hee]
  norm_cast

/-- The temperature difference over the squared distance is a real number. -/
theorem coeff_fin (s d : ℕ) : IsFin (Cert.EdgeForce.coeff x p s d) := by
  obtain ⟨t, ht, hte⟩ := dist2_pos x p hfin s d
  unfold Cert.EdgeForce.coeff
  refine IsFin.div (diff_fin x p hfin 0 s d) ⟨t, hte⟩ ?_
  rw [hte]
  exact_mod_cast ht.ne'

/-- What an edge adds to its target node, in each channel, is a real number. -/
theorem term_fin (j s d : ℕ) : IsFin (Cert.EdgeForce.term x p j s d) := by
  unfold Cert.EdgeForce.term
  split
  · exact (coeff_fin x p hfin s d).mul (diff_fin x p hfin 1 s d)
  · exact (coeff_fin x p hfin s d).mul (diff_fin x p hfin 2 s d)
  · exact (coeff_fin x p hfin s d).mul (diff_fin x p hfin 3 s d)
  · rw [Cert.EdgeForce.one_eq]; exact IsFin.one

end Values

/-! ## One row of the accumulator updated -/

section Rows
variable (did : Fin 1280 → ℕ)
  (v60 : S512x1280.Idx → EReal) (v66 : S200x1280.Idx → EReal)
  (h60 : ∀ (l : Fin 512) (q : Fin 1280), v60 (ix2 l q) = if did q % 512 = l.val then 1 else 0)
  (h66 : ∀ (h : Fin 200) (q : Fin 1280), v66 (ix2 h q) = if did q / 512 = h.val then 1 else 0)
include h60 h66

/-- A row of real per-edge values is split into itself and the remainder, which is zero; the two products, added to the
    row's previous contents: each node gains the sum of the values of the edges that arrive at it. -/
theorem split_row_apply (crow : S1x1280.Idx → EReal) (hc : ∀ q : Fin 1280, IsFin (crow (ix2 (0 : Fin 1) q)))
    (r : S1x200x512.Idx → EReal) (h : Fin 200) (l : Fin 512) :
    shapeCast S1x200x512
        (addf (F := Ideal) (φ := .f32) (shapeCast S200x512 r shapeCasts_S1x200x512_S200x512)
          (addf (F := Ideal) (φ := .f32)
            (matmul (F := Ideal) (φ₁ := .bf16) (φ₂ := .bf16) dot_S200x1280_S512x1280_S200x512_1_1_0_0_n_n none v66
              (mulf (F := Ideal) (φ := .bf16) v60
                (broadcastTo S512x1280 (truncf (F := Ideal) (φ := .f32) .bf16 crow bitsLt_bf16_f32) broadcasts_S1x1280_S512x1280))
              (constant (F := Ideal) S200x512 .f32 0x00000000#32))
            (matmul (F := Ideal) (φ₁ := .bf16) (φ₂ := .bf16) dot_S200x1280_S512x1280_S200x512_1_1_0_0_n_n none v66
              (mulf (F := Ideal) (φ := .bf16) v60
                (broadcastTo S512x1280 (truncf (F := Ideal) (φ := .f32) .bf16 (subf (F := Ideal) (φ := .f32) crow crow) bitsLt_bf16_f32)
                  broadcasts_S1x1280_S512x1280))
              (constant (F := Ideal) S200x512 .f32 0x00000000#32))))
        shapeCasts_S200x512_S1x200x512 (ix3 (0 : Fin 1) h l)
      = r (ix3 (0 : Fin 1) h l) + ∑ q : Fin 1280, if did q = h.val * 512 + l.val then crow (ix2 (0 : Fin 1) q) else 0 := by
  refine (shapeCast_ab_1ab_apply _ shapeCasts_S200x512_S1x200x512 (0 : Fin 1) h l).trans ?_
  refine (addf_apply _ _ (ix2 h l)).trans ?_
  refine congrArg₂ (· + ·) (shapeCast_1ab_ab_apply r shapeCasts_S1x200x512_S200x512 h l) ?_
  refine (addf_apply _ _ (ix2 h l)).trans ?_
  rw [onehot_matmul_apply did v60 v66 h60 h66 _ h l, onehot_matmul_apply did v60 v66 h60 h66 _ h l]
  have hz : (∑ q : Fin 1280, if did q = h.val * 512 + l.val then
      (truncf (F := Ideal) (φ := .f32) .bf16 (subf (F := Ideal) (φ := .f32) crow crow) bitsLt_bf16_f32) (ix2 (0 : Fin 1) q) else 0) = 0 :=
    Finset.sum_eq_zero fun q _ => by
      split
      · exact sub_self_of_isFin (hc q)
      · rfl
  rw [hz, add_zero]
  rfl

/-- A row of per-edge values multiplied in once (no remainder). -/
theorem single_row_apply (crow : S1x1280.Idx → EReal)
    (r : S1x200x512.Idx → EReal) (h : Fin 200) (l : Fin 512) :
    shapeCast S1x200x512
        (addf (F := Ideal) (φ := .f32) (shapeCast S200x512 r shapeCasts_S1x200x512_S200x512)
          (matmul (F := Ideal) (φ₁ := .bf16) (φ₂ := .bf16) dot_S200x1280_S512x1280_S200x512_1_1_0_0_n_n none v66
            (mulf (F := Ideal) (φ := .bf16) v60
              (broadcastTo S512x1280 (truncf (F := Ideal) (φ := .f32) .bf16 crow bitsLt_bf16_f32) broadcasts_S1x1280_S512x1280))
            (constant (F := Ideal) S200x512 .f32 0x00000000#32)))
        shapeCasts_S200x512_S1x200x512 (ix3 (0 : Fin 1) h l)
      = r (ix3 (0 : Fin 1) h l) + ∑ q : Fin 1280, if did q = h.val * 512 + l.val then crow (ix2 (0 : Fin 1) q) else 0 := by
  refine (shapeCast_ab_1ab_apply _ shapeCasts_S200x512_S1x200x512 (0 : Fin 1) h l).trans ?_
  refine (addf_apply _ _ (ix2 h l)).trans ?_
  refine congrArg₂ (· + ·) (shapeCast_1ab_ab_apply r shapeCasts_S1x200x512_S200x512 h l) ?_
  rw [onehot_matmul_apply did v60 v66 h60 h66 _ h l]
  rfl

end Rows

/-! ## The four rows of one grid point -/

section Point
variable (x : Cert.EdgeForce.SX.Idx → EReal) (p : Cert.EdgeForce.SP.Idx → EReal)
  (sid did : Fin 1280 → ℕ)
  (v60 : S512x1280.Idx → EReal) (v66 : S200x1280.Idx → EReal) (v87 v88 v89 v90 : S1x1280.Idx → EReal)
  (h60 : ∀ (l : Fin 512) (q : Fin 1280), v60 (ix2 l q) = if did q % 512 = l.val then 1 else 0)
  (h66 : ∀ (h : Fin 200) (q : Fin 1280), v66 (ix2 h q) = if did q / 512 = h.val then 1 else 0)
  (h87 : ∀ q : Fin 1280, v87 (ix2 (0 : Fin 1) q) = Cert.EdgeForce.diff x p 0 (sid q) (did q))
  (h88 : ∀ q : Fin 1280, v88 (ix2 (0 : Fin 1) q) = Cert.EdgeForce.diff x p 1 (sid q) (did q))
  (h89 : ∀ q : Fin 1280, v89 (ix2 (0 : Fin 1) q) = Cert.EdgeForce.diff x p 2 (sid q) (did q))
  (h90 : ∀ q : Fin 1280, v90 (ix2 (0 : Fin 1) q) = Cert.EdgeForce.diff x p 3 (sid q) (did q))
  (hfin : Cert.EdgeForce.AllFin x p)

include h87 h88 h89 h90 in
/-- The quotient the body computes per edge is the specification's coefficient. -/
theorem pay24_apply (q : Fin 1280) :
    k0_pay24 (F := Ideal) v87 v88 v89 v90 (ix2 (0 : Fin 1) q) = Cert.EdgeForce.coeff x p (sid q) (did q) := by
  unfold k0_pay24 Cert.EdgeForce.coeff Cert.EdgeForce.dist2
  show Ideal.div (v87 (ix2 (0 : Fin 1) q))
      (v88 (ix2 (0 : Fin 1) q) * v88 (ix2 (0 : Fin 1) q) + v89 (ix2 (0 : Fin 1) q) * v89 (ix2 (0 : Fin 1) q)
        + v90 (ix2 (0 : Fin 1) q) * v90 (ix2 (0 : Fin 1) q) + Cert.EdgeForce.eps) = _
  rw [h87, h88, h89, h90]

include h60 h66 h87 h88 h89 h90 hfin

/-- Row 0: the first coordinate's gradient terms. -/
theorem row0_apply (r : S1x200x512.Idx → EReal) (h : Fin 200) (l : Fin 512) :
    k0_pay27 (F := Ideal) v60 v66 v87 v88 v89 v90 r (ix3 (0 : Fin 1) h l)
      = r (ix3 (0 : Fin 1) h l)
        + ∑ q : Fin 1280, if did q = h.val * 512 + l.val then Cert.EdgeForce.term x p 0 (sid q) (did q) else 0 := by
  have hv : ∀ q : Fin 1280, (mulf (F := Ideal) (φ := .f32) (k0_pay24 (F := Ideal) v87 v88 v89 v90) v88) (ix2 (0 : Fin 1) q)
      = Cert.EdgeForce.term x p 0 (sid q) (did q) := fun q => by
    show k0_pay24 (F := Ideal) v87 v88 v89 v90 (ix2 (0 : Fin 1) q) * v88 (ix2 (0 : Fin 1) q) = _
    rw [pay24_apply x p sid did v87 v88 v89 v90 h87 h88 h89 h90 q, h88]
    rfl
  unfold k0_pay27
  refine (split_row_apply did v60 v66 h60 h66 _ (fun q => by rw [hv q]; exact term_fin x p hfin 0 _ _) r h l).trans ?_
  exact congrArg (r (ix3 (0 : Fin 1) h l) + ·) (Finset.sum_congr rfl fun q _ => by rw [hv q])

/-- Row 1: the second coordinate's gradient terms. -/
theorem row1_apply (r : S1x200x512.Idx → EReal) (h : Fin 200) (l : Fin 512) :
    k0_pay1 (F := Ideal) (k0_pay28 (F := Ideal) v60 v66 v87 v88 v89 v90 r) (ix3 (0 : Fin 1) h l)
      = r (ix3 (0 : Fin 1) h l)
        + ∑ q : Fin 1280, if did q = h.val * 512 + l.val then Cert.EdgeForce.term x p 1 (sid q) (did q) else 0 := by
  have hv : ∀ q : Fin 1280, (mulf (F := Ideal) (φ := .f32) (k0_pay24 (F := Ideal) v87 v88 v89 v90) v89) (ix2 (0 : Fin 1) q)
      = Cert.EdgeForce.term x p 1 (sid q) (did q) := fun q => by
    show k0_pay24 (F := Ideal) v87 v88 v89 v90 (ix2 (0 : Fin 1) q) * v89 (ix2 (0 : Fin 1) q) = _
    rw [pay24_apply x p sid did v87 v88 v89 v90 h87 h88 h89 h90 q, h89]
    rfl
  unfold k0_pay1 k0_pay28
  refine (split_row_apply did v60 v66 h60 h66 _ (fun q => by rw [hv q]; exact term_fin x p hfin 1 _ _) r h l).trans ?_
  exact congrArg (r (ix3 (0 : Fin 1) h l) + ·) (Finset.sum_congr rfl fun q _ => by rw [hv q])

/-- Row 2: the third coordinate's gradient terms. -/
theorem row2_apply (r : S1x200x512.Idx → EReal) (h : Fin 200) (l : Fin 512) :
    k0_pay2 (F := Ideal) v60 v66 (k0_pay25 (F := Ideal) v87 v88 v89 v90) r (ix3 (0 : Fin 1) h l)
      = r (ix3 (0 : Fin 1) h l)
        + ∑ q : Fin 1280, if did q = h.val * 512 + l.val then Cert.EdgeForce.term x p 2 (sid q) (did q) else 0 := by
  have hv : ∀ q : Fin 1280, (k0_pay25 (F := Ideal) v87 v88 v89 v90) (ix2 (0 : Fin 1) q)
      = Cert.EdgeForce.term x p 2 (sid q) (did q) := fun q => by
    show k0_pay24 (F := Ideal) v87 v88 v89 v90 (ix2 (0 : Fin 1) q) * v90 (ix2 (0 : Fin 1) q) = _
    rw [pay24_apply x p sid did v87 v88 v89 v90 h87 h88 h89 h90 q, h90]
    rfl
  unfold k0_pay2
  refine (split_row_apply did v60 v66 h60 h66 _ (fun q => by rw [hv q]; exact term_fin x p hfin 2 _ _) r h l).trans ?_
  exact congrArg (r (ix3 (0 : Fin 1) h l) + ·) (Finset.sum_congr rfl fun q _ => by rw [hv q])

omit h87 h88 h89 h90 hfin in
/-- Row 3: the count of the edges that arrive. -/
theorem row3_apply (r : S1x200x512.Idx → EReal) (h : Fin 200) (l : Fin 512) :
    k0_pay3 (F := Ideal) v60 v66 (k0_pay26 (F := Ideal)) r (ix3 (0 : Fin 1) h l)
      = r (ix3 (0 : Fin 1) h l)
        + ∑ q : Fin 1280, if did q = h.val * 512 + l.val then Cert.EdgeForce.term x p 3 (sid q) (did q) else 0 := by
  unfold k0_pay3
  refine (single_row_apply did v60 v66 h60 h66 _ r h l).trans ?_
  rfl

end Point

end Cert.KernelIdeal.PointMath

end
-- ==== Proof.PointMath.lean ====
/-
  One grid point as a whole: from the four loaded blocks (the block's source and target node numbers and the two halves of
  the feature table) the body gathers the four feature differences of each of the block's 1280 edges, forms the per-edge
  terms, and adds to each of the four rows of the accumulator, at node 512 · h + l, the sum of the terms of the edges that
  arrive at that node. The dataflow is named once, for every number system; its value is read at the extended reals.
-/
import proofs.«418611_j20246475833437_3_alg».proof.Proof.Gathered
import proofs.«418611_j20246475833437_3_alg».proof.Proof.Scattered

noncomputable section

namespace Cert.KernelIdeal.PointMath

open Idealize.ShloMosaic Idealize.ShloMosaic.ValueIdx Cert.KernelIdeal Cert.KernelIdeal.Gen

/-! ## The dataflow of one grid point -/

section Dataflow
variable {F : FTy → Type} [FloatOps F]

/-- The one-hot matrix of the target nodes' low parts. -/
abbrev gv60 (x1 : Vec F S1x1280 .i32) : FVec F S512x1280 .bf16 := k0_pay15 x1
/-- The one-hot matrix of the target nodes' high parts. -/
abbrev gv66 (x1 : Vec F S1x1280 .i32) : FVec F S200x1280 .bf16 := k0_pay17 x1
/-- Per edge: the source node's temperature less the target node's. -/
abbrev gv87 (x0 x1 : Vec F S1x1280 .i32) (x2 x3 : Vec F S800x512 .bf16) : FVec F S1x1280 .f32 :=
  k0_pay20 (k0_pay6 x2) (k0_pay7 x3) (k0_pay11 x2 x3 x0) x1
/-- Per edge: the source node's first coordinate less the target node's. -/
abbrev gv88 (x0 x1 : Vec F S1x1280 .i32) (x2 x3 : Vec F S800x512 .bf16) : FVec F S1x1280 .f32 :=
  k0_pay21 (k0_pay6 x2) (k0_pay7 x3) (k0_pay12 x2 x3 x0) x1
/-- Per edge: the source node's second coordinate less the target node's. -/
abbrev gv89 (x0 x1 : Vec F S1x1280 .i32) (x2 x3 : Vec F S800x512 .bf16) : FVec F S1x1280 .f32 :=
  k0_pay22 (k0_pay6 x2) (k0_pay7 x3) (k0_pay13 x2 x3 x0) x1
/-- Per edge: the source node's third coordinate less the target node's. -/
abbrev gv90 (x0 x1 : Vec F S1x1280 .i32) (x2 x3 : Vec F S800x512 .bf16) : FVec F S1x1280 .f32 :=
  k0_pay23 (k0_pay6 x2) (k0_pay7 x3) (k0_pay9 x2 x3 x0) (k0_pay10 x0) x1

/-- Row 0 of the accumulator after the grid point, from its previous contents `r`. -/
abbrev upd0 (x0 x1 : Vec F S1x1280 .i32) (x2 x3 : Vec F S800x512 .bf16) (r : Vec F S1x200x512 .f32) : FVec F S1x200x512 .f32 :=
  k0_pay27 (gv60 x1) (gv66 x1) (gv87 x0 x1 x2 x3) (gv88 x0 x1 x2 x3) (gv89 x0 x1 x2 x3) (gv90 x0 x1 x2 x3) r
/-- Row 1 likewise. -/
abbrev upd1 (x0 x1 : Vec F S1x1280 .i32) (x2 x3 : Vec F S800x512 .bf16) (r : Vec F S1x200x512 .f32) : FVec F S1x200x512 .f32 :=
  k0_pay1 (k0_pay28 (gv60 x1) (gv66 x1) (gv87 x0 x1 x2 x3) (gv88 x0 x1 x2 x3) (gv89 x0 x1 x2 x3) (gv90 x0 x1 x2 x3) r)
/-- Row 2 likewise. -/
abbrev upd2 (x0 x1 : Vec F S1x1280 .i32) (x2 x3 : Vec F S800x512 .bf16) (r : Vec F S1x200x512 .f32) : FVec F S1x200x512 .f32 :=
  k0_pay2 (gv60 x1) (gv66 x1) (k0_pay25 (gv87 x0 x1 x2 x3) (gv88 x0 x1 x2 x3) (gv89 x0 x1 x2 x3) (gv90 x0 x1 x2 x3)) r
/-- Row 3 (the count) likewise. -/
abbrev upd3 (x0 x1 : Vec F S1x1280 .i32) (x2 x3 : Vec F S800x512 .bf16) (r : Vec F S1x200x512 .f32) : FVec F S1x200x512 .f32 :=
  k0_pay3 (gv60 (F := F) x1) (gv66 (F := F) x1) (k0_pay26 (F := F)) r

/-- Row `j` of the accumulator after the grid point. -/
def upd (j : Fin 4) (x0 x1 : Vec F S1x1280 .i32) (x2 x3 : Vec F S800x512 .bf16) (r : Vec F S1x200x512 .f32) :
    FVec F S1x200x512 .f32 :=
  match j with
  | ⟨0, _⟩ => upd0 x0 x1 x2 x3 r
  | ⟨1, _⟩ => upd1 x0 x1 x2 x3 r
  | ⟨2, _⟩ => upd2 x0 x1 x2 x3 r
  | ⟨3, _⟩ => upd3 x0 x1 x2 x3 r

end Dataflow

/-! ## Its value -/

section Value
variable {x : Cert.EdgeForce.SX.Idx → EReal} {p : Cert.EdgeForce.SP.Idx → EReal}
  {x0 x1 : S1x1280.Idx → BitVec 32} {x2 x3 : S800x512.Idx → EReal}

/-- Row 0 at node `512 · h + l` gains the sum of the first coordinate's terms over the block's edges that arrive there. -/
theorem upd0_apply (hyp : PointHyp x p x0 x1 x2 x3) (hfin : Cert.EdgeForce.AllFin x p)
    (r : S1x200x512.Idx → EReal) (h : Fin 200) (l : Fin 512) :
    upd0 (F := Ideal) x0 x1 x2 x3 r (ix3 (0 : Fin 1) h l)
      = r (ix3 (0 : Fin 1) h l)
        + ∑ q : Fin 1280, if (x1 (ix2 (0 : Fin 1) q)).toNat = h.val * 512 + l.val
            then Cert.EdgeForce.term x p 0 (x0 (ix2 (0 : Fin 1) q)).toNat (x1 (ix2 (0 : Fin 1) q)).toNat else 0 :=
  row0_apply x p (fun q => (x0 (ix2 (0 : Fin 1) q)).toNat) (fun q => (x1 (ix2 (0 : Fin 1) q)).toNat)
    (gv60 (F := Ideal) x1) (gv66 (F := Ideal) x1) (gv87 (F := Ideal) x0 x1 x2 x3) (gv88 (F := Ideal) x0 x1 x2 x3)
    (gv89 (F := Ideal) x0 x1 x2 x3) (gv90 (F := Ideal) x0 x1 x2 x3)
    (onehot_lo x1) (onehot_hi x1 hyp.dstIn) (gathered_diff0 hyp) (gathered_diff1 hyp) (gathered_diff2 hyp)
    (gathered_diff3 hyp) hfin r h l

/-- Row 1 likewise, for the second coordinate. -/
theorem upd1_apply (hyp : PointHyp x p x0 x1 x2 x3) (hfin : Cert.EdgeForce.AllFin x p)
    (r : S1x200x512.Idx → EReal) (h : Fin 200) (l : Fin 512) :
    upd1 (F := Ideal) x0 x1 x2 x3 r (ix3 (0 : Fin 1) h l)
      = r (ix3 (0 : Fin 1) h l)
        + ∑ q : Fin 1280, if (x1 (ix2 (0 : Fin 1) q)).toNat = h.val * 512 + l.val
            then Cert.EdgeForce.term x p 1 (x0 (ix2 (0 : Fin 1) q)).toNat (x1 (ix2 (0 : Fin 1) q)).toNat else 0 :=
  row1_apply x p (fun q => (x0 (ix2 (0 : Fin 1) q)).toNat) (fun q => (x1 (ix2 (0 : Fin 1) q)).toNat)
    (gv60 (F := Ideal) x1) (gv66 (F := Ideal) x1) (gv87 (F := Ideal) x0 x1 x2 x3) (gv88 (F := Ideal) x0 x1 x2 x3)
    (gv89 (F := Ideal) x0 x1 x2 x3) (gv90 (F := Ideal) x0 x1 x2 x3)
    (onehot_lo x1) (onehot_hi x1 hyp.dstIn) (gathered_diff0 hyp) (gathered_diff1 hyp) (gathered_diff2 hyp)
    (gathered_diff3 hyp) hfin r h l

/-- Row 2 likewise, for the third coordinate. -/
theorem upd2_apply (hyp : PointHyp x p x0 x1 x2 x3) (hfin : Cert.EdgeForce.AllFin x p)
    (r : S1x200x512.Idx → EReal) (h : Fin 200) (l : Fin 512) :
    upd2 (F := Ideal) x0 x1 x2 x3 r (ix3 (0 : Fin 1) h l)
      = r (ix3 (0 : Fin 1) h l)
        + ∑ q : Fin 1280, if (x1 (ix2 (0 : Fin 1) q)).toNat = h.val * 512 + l.val
            then Cert.EdgeForce.term x p 2 (x0 (ix2 (0 : Fin 1) q)).toNat (x1 (ix2 (0 : Fin 1) q)).toNat else 0 :=
  row2_apply x p (fun q => (x0 (ix2 (0 : Fin 1) q)).toNat) (fun q => (x1 (ix2 (0 : Fin 1) q)).toNat)
    (gv60 (F := Ideal) x1) (gv66 (F := Ideal) x1) (gv87 (F := Ideal) x0 x1 x2 x3) (gv88 (F := Ideal) x0 x1 x2 x3)
    (gv89 (F := Ideal) x0 x1 x2 x3) (gv90 (F := Ideal) x0 x1 x2 x3)
    (onehot_lo x1) (onehot_hi x1 hyp.dstIn) (gathered_diff0 hyp) (gathered_diff1 hyp) (gathered_diff2 hyp)
    (gathered_diff3 hyp) hfin r h l

/-- Row 3 likewise, for the count. -/
theorem upd3_apply (hyp : PointHyp x p x0 x1 x2 x3)
    (r : S1x200x512.Idx → EReal) (h : Fin 200) (l : Fin 512) :
    upd3 (F := Ideal) x0 x1 x2 x3 r (ix3 (0 : Fin 1) h l)
      = r (ix3 (0 : Fin 1) h l)
        + ∑ q : Fin 1280, if (x1 (ix2 (0 : Fin 1) q)).toNat = h.val * 512 + l.val
            then Cert.EdgeForce.term x p 3 (x0 (ix2 (0 : Fin 1) q)).toNat (x1 (ix2 (0 : Fin 1) q)).toNat else 0 :=
  row3_apply x p (fun q => (x0 (ix2 (0 : Fin 1) q)).toNat) (fun q => (x1 (ix2 (0 : Fin 1) q)).toNat)
    (gv60 (F := Ideal) x1) (gv66 (F := Ideal) x1) (onehot_lo x1) (onehot_hi x1 hyp.dstIn) r h l

/-- Row `j` at node `512 · h + l` gains the sum of channel `j`'s terms over the block's edges that arrive at that node. -/
theorem upd_apply (hyp : PointHyp x p x0 x1 x2 x3) (hfin : Cert.EdgeForce.AllFin x p) (j : Fin 4)
    (r : S1x200x512.Idx → EReal) (h : Fin 200) (l : Fin 512) :
    upd (F := Ideal) j x0 x1 x2 x3 r (ix3 (0 : Fin 1) h l)
      = r (ix3 (0 : Fin 1) h l)
        + ∑ q : Fin 1280, if (x1 (ix2 (0 : Fin 1) q)).toNat = h.val * 512 + l.val
            then Cert.EdgeForce.term x p j.val (x0 (ix2 (0 : Fin 1) q)).toNat (x1 (ix2 (0 : Fin 1) q)).toNat else 0 :=
  match j with
  | ⟨0, _⟩ => upd0_apply hyp hfin r h l
  | ⟨1, _⟩ => upd1_apply hyp hfin r h l
  | ⟨2, _⟩ => upd2_apply hyp hfin r h l
  | ⟨3, _⟩ => upd3_apply hyp r h l

end Value

end Cert.KernelIdeal.PointMath

end
-- ==== Proof.KernelIdeal.Pieces.lean ====
/- What each case of the idealized kernel's body leaves in the carried accumulator and in the output block, read at
   an index: every row of the accumulator is its previous contents (zero after the reset of the first inner step)
   updated by the grid point's contribution, and the last inner step copies the accumulator into the output block. -/
import proofs.«418611_j20246475833437_3_alg».proof.Proof.KernelIdeal.Frame
import proofs.«418611_j20246475833437_3_alg».proof.Proof.PointMath
import Idealize.ShloMosaic.Lib.ValueIdx
import Idealize.ShloMosaic.Lib.Pipeline.Value

set_option maxRecDepth 16384

noncomputable section

namespace Cert.KernelIdeal.Acc

open Cert.KernelIdeal Cert.KernelIdeal.Gen Cert.KernelIdeal.Fr
open Idealize.ShloMosaic Idealize.ShloMosaic.TcCoe Idealize.ShloMosaic.ValueIdx Idealize.ShloMosaic.Tactic

/-! ## Rows of the accumulator -/

/-- Row `j` of contents of the four-row accumulator, as a one-row block: entry `(0, h, l)` is entry `(j, h, l)`. -/
def rowOf {α : Type} (j : Fin 4) (xs : S4x200x512.Idx → α) : S1x200x512.Idx → α :=
  fun y => xs (ix3 j (y 1 : Fin 200) (y 2 : Fin 512))

theorem rowOf_apply {α : Type} (j : Fin 4) (xs : S4x200x512.Idx → α) (h : Fin 200) (l : Fin 512) :
    rowOf j xs (ix3 (0 : Fin 1) h l) = xs (ix3 j h l) := rfl

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Rows
variable {Val : EltTy → Type} {e : EltTy}

/-- The one-row rectangle at row `k` places its entry `(0, h, l)` at `(k, h, l)`. -/
theorem rowRect_emb {off : Fin 3 → Nat} (k : Fin 4) (hoff : off = ![k.val, 0, 0])
    (inb : ∀ a, off a + S1x200x512.size a ≤ S4x200x512.size a) (y : S1x200x512.Idx) :
    (Rect.unit (s := S4x200x512) off S1x200x512.size inb).emb y = ix3 k (y 1 : Fin 200) (y 2 : Fin 512) := by
  subst hoff
  funext a; apply Fin.ext
  have h0 : (y 0).val = 0 := by have := (y 0).isLt; change (y 0).val < 1 at this; omega
  match a with
  | ⟨0, _⟩ => show k.val + 1 * (y 0).val = k.val; omega
  | ⟨1, _⟩ => show 0 + 1 * (y 1).val = (y 1).val; omega
  | ⟨2, _⟩ => show 0 + 1 * (y 2).val = (y 2).val; omega

/-- A load of row `k` reads that row. -/
theorem ld_rowRect {off : Fin 3 → Nat} (k : Fin 4) (hoff : off = ![k.val, 0, 0])
    (inb : ∀ a, off a + S1x200x512.size a ≤ S4x200x512.size a) (xs : S4x200x512.Idx → Val e) :
    View.ld xs (Rect.unit (s := S4x200x512) off S1x200x512.size inb) = rowOf k xs := by
  funext x
  exact congrArg xs (rowRect_emb k hoff inb x)

theorem ld_row0 (inb : ∀ a, (![0, 0, 0] : Fin 3 → Nat) a + S1x200x512.size a ≤ S4x200x512.size a) (xs : S4x200x512.Idx → Val e) :
    View.ld xs (Rect.unit (s := S4x200x512) ![0, 0, 0] S1x200x512.size inb) = rowOf 0 xs :=
  ld_rowRect 0 rfl inb xs
theorem ld_row1 (inb : ∀ a, (![1, 0, 0] : Fin 3 → Nat) a + S1x200x512.size a ≤ S4x200x512.size a) (xs : S4x200x512.Idx → Val e) :
    View.ld xs (Rect.unit (s := S4x200x512) ![1, 0, 0] S1x200x512.size inb) = rowOf 1 xs :=
  ld_rowRect 1 rfl inb xs
theorem ld_row2 (inb : ∀ a, (![2, 0, 0] : Fin 3 → Nat) a + S1x200x512.size a ≤ S4x200x512.size a) (xs : S4x200x512.Idx → Val e) :
    View.ld xs (Rect.unit (s := S4x200x512) ![2, 0, 0] S1x200x512.size inb) = rowOf 2 xs :=
  ld_rowRect 2 rfl inb xs
theorem ld_row3 (inb : ∀ a, (![3, 0, 0] : Fin 3 → Nat) a + S1x200x512.size a ≤ S4x200x512.size a) (xs : S4x200x512.Idx → Val e) :
    View.ld xs (Rect.unit (s := S4x200x512) ![3, 0, 0] S1x200x512.size inb) = rowOf 3 xs :=
  ld_rowRect 3 rfl inb xs
theorem ld_row0' (inb : ∀ a, (![0, 0, 0] : Fin 3 → Nat) a + ![1, 200, 512] a ≤ ![4, 200, 512] a) (xs : S4x200x512.Idx → Val e) :
    View.ld xs (Rect.unit (s := S4x200x512) ![0, 0, 0] ![1, 200, 512] inb) = rowOf 0 xs :=
  ld_rowRect 0 rfl inb xs
theorem ld_row1' (inb : ∀ a, (![1, 0, 0] : Fin 3 → Nat) a + ![1, 200, 512] a ≤ ![4, 200, 512] a) (xs : S4x200x512.Idx → Val e) :
    View.ld xs (Rect.unit (s := S4x200x512) ![1, 0, 0] ![1, 200, 512] inb) = rowOf 1 xs :=
  ld_rowRect 1 rfl inb xs
theorem ld_row2' (inb : ∀ a, (![2, 0, 0] : Fin 3 → Nat) a + ![1, 200, 512] a ≤ ![4, 200, 512] a) (xs : S4x200x512.Idx → Val e) :
    View.ld xs (Rect.unit (s := S4x200x512) ![2, 0, 0] ![1, 200, 512] inb) = rowOf 2 xs :=
  ld_rowRect 2 rfl inb xs
theorem ld_row3' (inb : ∀ a, (![3, 0, 0] : Fin 3 → Nat) a + ![1, 200, 512] a ≤ ![4, 200, 512] a) (xs : S4x200x512.Idx → Val e) :
    View.ld xs (Rect.unit (s := S4x200x512) ![3, 0, 0] ![1, 200, 512] inb) = rowOf 3 xs :=
  ld_rowRect 3 rfl inb xs

/-- An entry of another row is outside the one-row rectangle at row `k`. -/
theorem not_mem_rowRect {off : Fin 3 → Nat} (k j : Fin 4) (hoff : off = ![k.val, 0, 0]) (hne : j ≠ k)
    (inb : ∀ a, off a + S1x200x512.size a ≤ S4x200x512.size a) (h : Fin 200) (l : Fin 512) :
    ix3 j h l ∉ (Rect.unit (s := S4x200x512) off S1x200x512.size inb).set := by
  subst hoff
  rw [Rect.mem_set_unit]
  intro hm
  have h0 := hm (0 : Fin 3)
  have hjk : j.val ≠ k.val := fun e => hne (Fin.ext e)
  change k.val ≤ j.val ∧ j.val < k.val + 1 at h0
  omega

variable [∀ e, Nonempty (Val e)]

/-- The last store of row `k` is what row `k` reads back as, -/
theorem canon_row_hit {off : Fin 3 → Nat} (k : Fin 4) (hoff : off = ![k.val, 0, 0])
    (inb : ∀ a, off a + S1x200x512.size a ≤ S4x200x512.size a) (w : S1x200x512.Idx → Val e)
    (L : List (View.Piece Val S4x200x512 e)) (h : Fin 200) (l : Fin 512) :
    View.canon ((⟨Rect.unit (s := S4x200x512) off S1x200x512.size inb, w⟩ : View.Piece Val S4x200x512 e) :: L) (ix3 k h l)
      = w (ix3 (0 : Fin 1) h l) := by
  have e := View.canon_cons_emb (Val := Val) (Rect.unit (s := S4x200x512) off S1x200x512.size inb) w L (ix3 (0 : Fin 1) h l)
  rw [rowRect_emb k hoff inb] at e
  exact e

/-- and another row reads through it to the earlier stores. -/
theorem canon_row_miss {off : Fin 3 → Nat} (k j : Fin 4) (hoff : off = ![k.val, 0, 0]) (hne : j ≠ k)
    (inb : ∀ a, off a + S1x200x512.size a ≤ S4x200x512.size a) (w : S1x200x512.Idx → Val e)
    (L : List (View.Piece Val S4x200x512 e)) (h : Fin 200) (l : Fin 512) :
    View.canon ((⟨Rect.unit (s := S4x200x512) off S1x200x512.size inb, w⟩ : View.Piece Val S4x200x512 e) :: L) (ix3 j h l)
      = View.canon L (ix3 j h l) :=
  View.canon_cons_of_not_mem _ L (not_mem_rowRect k j hoff hne inb h l)

/-- Four stores, one per row, rows 3, 2, 1, 0 last to first, over anything: row `j` reads back as its own store. -/
theorem canon_rows {o0 o1 o2 o3 : Fin 3 → Nat} (h0 : o0 = ![0, 0, 0]) (h1 : o1 = ![1, 0, 0]) (h2 : o2 = ![2, 0, 0]) (h3 : o3 = ![3, 0, 0])
    (inb0 : ∀ a, o0 a + S1x200x512.size a ≤ S4x200x512.size a) (inb1 : ∀ a, o1 a + S1x200x512.size a ≤ S4x200x512.size a)
    (inb2 : ∀ a, o2 a + S1x200x512.size a ≤ S4x200x512.size a) (inb3 : ∀ a, o3 a + S1x200x512.size a ≤ S4x200x512.size a)
    (P0 P1 P2 P3 : S1x200x512.Idx → Val e) (L : List (View.Piece Val S4x200x512 e)) (j : Fin 4) (h : Fin 200) (l : Fin 512) :
    View.canon ((⟨Rect.unit (s := S4x200x512) o3 S1x200x512.size inb3, P3⟩ : View.Piece Val S4x200x512 e)
        :: ⟨Rect.unit (s := S4x200x512) o2 S1x200x512.size inb2, P2⟩ :: ⟨Rect.unit (s := S4x200x512) o1 S1x200x512.size inb1, P1⟩
        :: ⟨Rect.unit (s := S4x200x512) o0 S1x200x512.size inb0, P0⟩ :: L) (ix3 j h l)
      = (match j with | ⟨0, _⟩ => P0 | ⟨1, _⟩ => P1 | ⟨2, _⟩ => P2 | ⟨3, _⟩ => P3) (ix3 (0 : Fin 1) h l) := by
  match j with
  | ⟨0, _⟩ =>
    exact (canon_row_miss 3 0 h3 (by decide) inb3 P3 _ h l).trans ((canon_row_miss 2 0 h2 (by decide) inb2 P2 _ h l).trans
      ((canon_row_miss 1 0 h1 (by decide) inb1 P1 _ h l).trans (canon_row_hit 0 h0 inb0 P0 L h l)))
  | ⟨1, _⟩ =>
    exact (canon_row_miss 3 1 h3 (by decide) inb3 P3 _ h l).trans ((canon_row_miss 2 1 h2 (by decide) inb2 P2 _ h l).trans
      (canon_row_hit 1 h1 inb1 P1 _ h l))
  | ⟨2, _⟩ =>
    exact (canon_row_miss 3 2 h3 (by decide) inb3 P3 _ h l).trans (canon_row_hit 2 h2 inb2 P2 _ h l)
  | ⟨3, _⟩ => exact canon_row_hit 3 h3 inb3 P3 _ h l

variable {sig : RefSig} {κ : Kind} {sp : Space}

/-- A load of row `k` after one store of the whole accumulator reads row `k` of what was stored. -/
theorem readCov_reset_rowRect (v : View sig κ sp S4x200x512 e) {off : Fin 3 → Nat} (k : Fin 4) (hoff : off = ![k.val, 0, 0])
    (inb0 : ∀ a, (![0, 0, 0] : Fin 3 → Nat) a + S4x200x512.size a ≤ S4x200x512.size a)
    (inb : ∀ a, off a + S1x200x512.size a ≤ S4x200x512.size a) (w : S4x200x512.Idx → Val e) :
    v.readCov [(⟨Rect.unit (s := S4x200x512) ![0, 0, 0] S4x200x512.size inb0, w⟩ : View.Piece Val S4x200x512 e)]
        (Rect.unit (s := S4x200x512) off S1x200x512.size inb).toLoadRect = rowOf k w := by
  rw [View.readCov_eq_canon', View.canon_unit_zero (S := S4x200x512) hz3]
  exact ld_rowRect k hoff inb w

theorem readCov_reset_row0 (v : View sig κ sp S4x200x512 e) (inb0 : ∀ a, (![0, 0, 0] : Fin 3 → Nat) a + S4x200x512.size a ≤ S4x200x512.size a)
    (inb : ∀ a, (![0, 0, 0] : Fin 3 → Nat) a + S1x200x512.size a ≤ S4x200x512.size a) (w : S4x200x512.Idx → Val e) :
    v.readCov [(⟨Rect.unit (s := S4x200x512) ![0, 0, 0] S4x200x512.size inb0, w⟩ : View.Piece Val S4x200x512 e)]
        (Rect.unit (s := S4x200x512) ![0, 0, 0] S1x200x512.size inb).toLoadRect = rowOf 0 w :=
  readCov_reset_rowRect v 0 rfl inb0 inb w
theorem readCov_reset_row1 (v : View sig κ sp S4x200x512 e) (inb0 : ∀ a, (![0, 0, 0] : Fin 3 → Nat) a + S4x200x512.size a ≤ S4x200x512.size a)
    (inb : ∀ a, (![1, 0, 0] : Fin 3 → Nat) a + S1x200x512.size a ≤ S4x200x512.size a) (w : S4x200x512.Idx → Val e) :
    v.readCov [(⟨Rect.unit (s := S4x200x512) ![0, 0, 0] S4x200x512.size inb0, w⟩ : View.Piece Val S4x200x512 e)]
        (Rect.unit (s := S4x200x512) ![1, 0, 0] S1x200x512.size inb).toLoadRect = rowOf 1 w :=
  readCov_reset_rowRect v 1 rfl inb0 inb w
theorem readCov_reset_row2 (v : View sig κ sp S4x200x512 e) (inb0 : ∀ a, (![0, 0, 0] : Fin 3 → Nat) a + S4x200x512.size a ≤ S4x200x512.size a)
    (inb : ∀ a, (![2, 0, 0] : Fin 3 → Nat) a + S1x200x512.size a ≤ S4x200x512.size a) (w : S4x200x512.Idx → Val e) :
    v.readCov [(⟨Rect.unit (s := S4x200x512) ![0, 0, 0] S4x200x512.size inb0, w⟩ : View.Piece Val S4x200x512 e)]
        (Rect.unit (s := S4x200x512) ![2, 0, 0] S1x200x512.size inb).toLoadRect = rowOf 2 w :=
  readCov_reset_rowRect v 2 rfl inb0 inb w
theorem readCov_reset_row3 (v : View sig κ sp S4x200x512 e) (inb0 : ∀ a, (![0, 0, 0] : Fin 3 → Nat) a + S4x200x512.size a ≤ S4x200x512.size a)
    (inb : ∀ a, (![3, 0, 0] : Fin 3 → Nat) a + S1x200x512.size a ≤ S4x200x512.size a) (w : S4x200x512.Idx → Val e) :
    v.readCov [(⟨Rect.unit (s := S4x200x512) ![0, 0, 0] S4x200x512.size inb0, w⟩ : View.Piece Val S4x200x512 e)]
        (Rect.unit (s := S4x200x512) ![3, 0, 0] S1x200x512.size inb).toLoadRect = rowOf 3 w :=
  readCov_reset_rowRect v 3 rfl inb0 inb w
theorem readCov_reset_row0' (v : View sig κ sp S4x200x512 e) (inb0 : ∀ a, (![0, 0, 0] : Fin 3 → Nat) a + ![4, 200, 512] a ≤ ![4, 200, 512] a)
    (inb : ∀ a, (![0, 0, 0] : Fin 3 → Nat) a + ![1, 200, 512] a ≤ ![4, 200, 512] a) (w : S4x200x512.Idx → Val e) :
    v.readCov [(⟨Rect.unit (s := S4x200x512) ![0, 0, 0] ![4, 200, 512] inb0, w⟩ : View.Piece Val S4x200x512 e)]
        (Rect.unit (s := S4x200x512) ![0, 0, 0] ![1, 200, 512] inb).toLoadRect = rowOf 0 w :=
  readCov_reset_rowRect v 0 rfl inb0 inb w
theorem readCov_reset_row1' (v : View sig κ sp S4x200x512 e) (inb0 : ∀ a, (![0, 0, 0] : Fin 3 → Nat) a + ![4, 200, 512] a ≤ ![4, 200, 512] a)
    (inb : ∀ a, (![1, 0, 0] : Fin 3 → Nat) a + ![1, 200, 512] a ≤ ![4, 200, 512] a) (w : S4x200x512.Idx → Val e) :
    v.readCov [(⟨Rect.unit (s := S4x200x512) ![0, 0, 0] ![4, 200, 512] inb0, w⟩ : View.Piece Val S4x200x512 e)]
        (Rect.unit (s := S4x200x512) ![1, 0, 0] ![1, 200, 512] inb).toLoadRect = rowOf 1 w :=
  readCov_reset_rowRect v 1 rfl inb0 inb w
theorem readCov_reset_row2' (v : View sig κ sp S4x200x512 e) (inb0 : ∀ a, (![0, 0, 0] : Fin 3 → Nat) a + ![4, 200, 512] a ≤ ![4, 200, 512] a)
    (inb : ∀ a, (![2, 0, 0] : Fin 3 → Nat) a + ![1, 200, 512] a ≤ ![4, 200, 512] a) (w : S4x200x512.Idx → Val e) :
    v.readCov [(⟨Rect.unit (s := S4x200x512) ![0, 0, 0] ![4, 200, 512] inb0, w⟩ : View.Piece Val S4x200x512 e)]
        (Rect.unit (s := S4x200x512) ![2, 0, 0] ![1, 200, 512] inb).toLoadRect = rowOf 2 w :=
  readCov_reset_rowRect v 2 rfl inb0 inb w
theorem readCov_reset_row3' (v : View sig κ sp S4x200x512 e) (inb0 : ∀ a, (![0, 0, 0] : Fin 3 → Nat) a + ![4, 200, 512] a ≤ ![4, 200, 512] a)
    (inb : ∀ a, (![3, 0, 0] : Fin 3 → Nat) a + ![1, 200, 512] a ≤ ![4, 200, 512] a) (w : S4x200x512.Idx → Val e) :
    v.readCov [(⟨Rect.unit (s := S4x200x512) ![0, 0, 0] ![4, 200, 512] inb0, w⟩ : View.Piece Val S4x200x512 e)]
        (Rect.unit (s := S4x200x512) ![3, 0, 0] ![1, 200, 512] inb).toLoadRect = rowOf 3 w :=
  readCov_reset_rowRect v 3 rfl inb0 inb w

/-! A load of a row reads through a later store of another row. -/
theorem readCov_skip_0_1 (v : View sig κ sp S4x200x512 e) (inbk : ∀ a, (![0, 0, 0] : Fin 3 → Nat) a + S1x200x512.size a ≤ S4x200x512.size a)
    (inbj : ∀ a, (![1, 0, 0] : Fin 3 → Nat) a + S1x200x512.size a ≤ S4x200x512.size a) (w : S1x200x512.Idx → Val e)
    (L : List (View.Piece Val S4x200x512 e)) :
    v.readCov ((⟨Rect.unit (s := S4x200x512) ![0, 0, 0] S1x200x512.size inbk, w⟩ : View.Piece Val S4x200x512 e) :: L)
        (Rect.unit (s := S4x200x512) ![1, 0, 0] S1x200x512.size inbj).toLoadRect
      = v.readCov L (Rect.unit (s := S4x200x512) ![1, 0, 0] S1x200x512.size inbj).toLoadRect :=
  View.readCov_cons_of_disjoint v _ L _ (Rect.unit_disjoint (inb := inbk) (inb' := inbj) (0 : Fin 3) (by decide))
theorem readCov_skip_0_2 (v : View sig κ sp S4x200x512 e) (inbk : ∀ a, (![0, 0, 0] : Fin 3 → Nat) a + S1x200x512.size a ≤ S4x200x512.size a)
    (inbj : ∀ a, (![2, 0, 0] : Fin 3 → Nat) a + S1x200x512.size a ≤ S4x200x512.size a) (w : S1x200x512.Idx → Val e)
    (L : List (View.Piece Val S4x200x512 e)) :
    v.readCov ((⟨Rect.unit (s := S4x200x512) ![0, 0, 0] S1x200x512.size inbk, w⟩ : View.Piece Val S4x200x512 e) :: L)
        (Rect.unit (s := S4x200x512) ![2, 0, 0] S1x200x512.size inbj).toLoadRect
      = v.readCov L (Rect.unit (s := S4x200x512) ![2, 0, 0] S1x200x512.size inbj).toLoadRect :=
  View.readCov_cons_of_disjoint v _ L _ (Rect.unit_disjoint (inb := inbk) (inb' := inbj) (0 : Fin 3) (by decide))
theorem readCov_skip_1_2 (v : View sig κ sp S4x200x512 e) (inbk : ∀ a, (![1, 0, 0] : Fin 3 → Nat) a + S1x200x512.size a ≤ S4x200x512.size a)
    (inbj : ∀ a, (![2, 0, 0] : Fin 3 → Nat) a + S1x200x512.size a ≤ S4x200x512.size a) (w : S1x200x512.Idx → Val e)
    (L : List (View.Piece Val S4x200x512 e)) :
    v.readCov ((⟨Rect.unit (s := S4x200x512) ![1, 0, 0] S1x200x512.size inbk, w⟩ : View.Piece Val S4x200x512 e) :: L)
        (Rect.unit (s := S4x200x512) ![2, 0, 0] S1x200x512.size inbj).toLoadRect
      = v.readCov L (Rect.unit (s := S4x200x512) ![2, 0, 0] S1x200x512.size inbj).toLoadRect :=
  View.readCov_cons_of_disjoint v _ L _ (Rect.unit_disjoint (inb := inbk) (inb' := inbj) (0 : Fin 3) (by decide))
theorem readCov_skip_0_3 (v : View sig κ sp S4x200x512 e) (inbk : ∀ a, (![0, 0, 0] : Fin 3 → Nat) a + S1x200x512.size a ≤ S4x200x512.size a)
    (inbj : ∀ a, (![3, 0, 0] : Fin 3 → Nat) a + S1x200x512.size a ≤ S4x200x512.size a) (w : S1x200x512.Idx → Val e)
    (L : List (View.Piece Val S4x200x512 e)) :
    v.readCov ((⟨Rect.unit (s := S4x200x512) ![0, 0, 0] S1x200x512.size inbk, w⟩ : View.Piece Val S4x200x512 e) :: L)
        (Rect.unit (s := S4x200x512) ![3, 0, 0] S1x200x512.size inbj).toLoadRect
      = v.readCov L (Rect.unit (s := S4x200x512) ![3, 0, 0] S1x200x512.size inbj).toLoadRect :=
  View.readCov_cons_of_disjoint v _ L _ (Rect.unit_disjoint (inb := inbk) (inb' := inbj) (0 : Fin 3) (by decide))
theorem readCov_skip_1_3 (v : View sig κ sp S4x200x512 e) (inbk : ∀ a, (![1, 0, 0] : Fin 3 → Nat) a + S1x200x512.size a ≤ S4x200x512.size a)
    (inbj : ∀ a, (![3, 0, 0] : Fin 3 → Nat) a + S1x200x512.size a ≤ S4x200x512.size a) (w : S1x200x512.Idx → Val e)
    (L : List (View.Piece Val S4x200x512 e)) :
    v.readCov ((⟨Rect.unit (s := S4x200x512) ![1, 0, 0] S1x200x512.size inbk, w⟩ : View.Piece Val S4x200x512 e) :: L)
        (Rect.unit (s := S4x200x512) ![3, 0, 0] S1x200x512.size inbj).toLoadRect
      = v.readCov L (Rect.unit (s := S4x200x512) ![3, 0, 0] S1x200x512.size inbj).toLoadRect :=
  View.readCov_cons_of_disjoint v _ L _ (Rect.unit_disjoint (inb := inbk) (inb' := inbj) (0 : Fin 3) (by decide))
theorem readCov_skip_2_3 (v : View sig κ sp S4x200x512 e) (inbk : ∀ a, (![2, 0, 0] : Fin 3 → Nat) a + S1x200x512.size a ≤ S4x200x512.size a)
    (inbj : ∀ a, (![3, 0, 0] : Fin 3 → Nat) a + S1x200x512.size a ≤ S4x200x512.size a) (w : S1x200x512.Idx → Val e)
    (L : List (View.Piece Val S4x200x512 e)) :
    v.readCov ((⟨Rect.unit (s := S4x200x512) ![2, 0, 0] S1x200x512.size inbk, w⟩ : View.Piece Val S4x200x512 e) :: L)
        (Rect.unit (s := S4x200x512) ![3, 0, 0] S1x200x512.size inbj).toLoadRect
      = v.readCov L (Rect.unit (s := S4x200x512) ![3, 0, 0] S1x200x512.size inbj).toLoadRect :=
  View.readCov_cons_of_disjoint v _ L _ (Rect.unit_disjoint (inb := inbk) (inb' := inbj) (0 : Fin 3) (by decide))
theorem readCov_skip_0_1' (v : View sig κ sp S4x200x512 e) (inbk : ∀ a, (![0, 0, 0] : Fin 3 → Nat) a + ![1, 200, 512] a ≤ ![4, 200, 512] a)
    (inbj : ∀ a, (![1, 0, 0] : Fin 3 → Nat) a + ![1, 200, 512] a ≤ ![4, 200, 512] a) (w : S1x200x512.Idx → Val e)
    (L : List (View.Piece Val S4x200x512 e)) :
    v.readCov ((⟨Rect.unit (s := S4x200x512) ![0, 0, 0] ![1, 200, 512] inbk, w⟩ : View.Piece Val S4x200x512 e) :: L)
        (Rect.unit (s := S4x200x512) ![1, 0, 0] ![1, 200, 512] inbj).toLoadRect
      = v.readCov L (Rect.unit (s := S4x200x512) ![1, 0, 0] ![1, 200, 512] inbj).toLoadRect :=
  View.readCov_cons_of_disjoint v _ L _ (Rect.unit_disjoint (inb := inbk) (inb' := inbj) (0 : Fin 3) (by decide))
theorem readCov_skip_0_2' (v : View sig κ sp S4x200x512 e) (inbk : ∀ a, (![0, 0, 0] : Fin 3 → Nat) a + ![1, 200, 512] a ≤ ![4, 200, 512] a)
    (inbj : ∀ a, (![2, 0, 0] : Fin 3 → Nat) a + ![1, 200, 512] a ≤ ![4, 200, 512] a) (w : S1x200x512.Idx → Val e)
    (L : List (View.Piece Val S4x200x512 e)) :
    v.readCov ((⟨Rect.unit (s := S4x200x512) ![0, 0, 0] ![1, 200, 512] inbk, w⟩ : View.Piece Val S4x200x512 e) :: L)
        (Rect.unit (s := S4x200x512) ![2, 0, 0] ![1, 200, 512] inbj).toLoadRect
      = v.readCov L (Rect.unit (s := S4x200x512) ![2, 0, 0] ![1, 200, 512] inbj).toLoadRect :=
  View.readCov_cons_of_disjoint v _ L _ (Rect.unit_disjoint (inb := inbk) (inb' := inbj) (0 : Fin 3) (by decide))
theorem readCov_skip_1_2' (v : View sig κ sp S4x200x512 e) (inbk : ∀ a, (![1, 0, 0] : Fin 3 → Nat) a + ![1, 200, 512] a ≤ ![4, 200, 512] a)
    (inbj : ∀ a, (![2, 0, 0] : Fin 3 → Nat) a + ![1, 200, 512] a ≤ ![4, 200, 512] a) (w : S1x200x512.Idx → Val e)
    (L : List (View.Piece Val S4x200x512 e)) :
    v.readCov ((⟨Rect.unit (s := S4x200x512) ![1, 0, 0] ![1, 200, 512] inbk, w⟩ : View.Piece Val S4x200x512 e) :: L)
        (Rect.unit (s := S4x200x512) ![2, 0, 0] ![1, 200, 512] inbj).toLoadRect
      = v.readCov L (Rect.unit (s := S4x200x512) ![2, 0, 0] ![1, 200, 512] inbj).toLoadRect :=
  View.readCov_cons_of_disjoint v _ L _ (Rect.unit_disjoint (inb := inbk) (inb' := inbj) (0 : Fin 3) (by decide))
theorem readCov_skip_0_3' (v : View sig κ sp S4x200x512 e) (inbk : ∀ a, (![0, 0, 0] : Fin 3 → Nat) a + ![1, 200, 512] a ≤ ![4, 200, 512] a)
    (inbj : ∀ a, (![3, 0, 0] : Fin 3 → Nat) a + ![1, 200, 512] a ≤ ![4, 200, 512] a) (w : S1x200x512.Idx → Val e)
    (L : List (View.Piece Val S4x200x512 e)) :
    v.readCov ((⟨Rect.unit (s := S4x200x512) ![0, 0, 0] ![1, 200, 512] inbk, w⟩ : View.Piece Val S4x200x512 e) :: L)
        (Rect.unit (s := S4x200x512) ![3, 0, 0] ![1, 200, 512] inbj).toLoadRect
      = v.readCov L (Rect.unit (s := S4x200x512) ![3, 0, 0] ![1, 200, 512] inbj).toLoadRect :=
  View.readCov_cons_of_disjoint v _ L _ (Rect.unit_disjoint (inb := inbk) (inb' := inbj) (0 : Fin 3) (by decide))
theorem readCov_skip_1_3' (v : View sig κ sp S4x200x512 e) (inbk : ∀ a, (![1, 0, 0] : Fin 3 → Nat) a + ![1, 200, 512] a ≤ ![4, 200, 512] a)
    (inbj : ∀ a, (![3, 0, 0] : Fin 3 → Nat) a + ![1, 200, 512] a ≤ ![4, 200, 512] a) (w : S1x200x512.Idx → Val e)
    (L : List (View.Piece Val S4x200x512 e)) :
    v.readCov ((⟨Rect.unit (s := S4x200x512) ![1, 0, 0] ![1, 200, 512] inbk, w⟩ : View.Piece Val S4x200x512 e) :: L)
        (Rect.unit (s := S4x200x512) ![3, 0, 0] ![1, 200, 512] inbj).toLoadRect
      = v.readCov L (Rect.unit (s := S4x200x512) ![3, 0, 0] ![1, 200, 512] inbj).toLoadRect :=
  View.readCov_cons_of_disjoint v _ L _ (Rect.unit_disjoint (inb := inbk) (inb' := inbj) (0 : Fin 3) (by decide))
theorem readCov_skip_2_3' (v : View sig κ sp S4x200x512 e) (inbk : ∀ a, (![2, 0, 0] : Fin 3 → Nat) a + ![1, 200, 512] a ≤ ![4, 200, 512] a)
    (inbj : ∀ a, (![3, 0, 0] : Fin 3 → Nat) a + ![1, 200, 512] a ≤ ![4, 200, 512] a) (w : S1x200x512.Idx → Val e)
    (L : List (View.Piece Val S4x200x512 e)) :
    v.readCov ((⟨Rect.unit (s := S4x200x512) ![2, 0, 0] ![1, 200, 512] inbk, w⟩ : View.Piece Val S4x200x512 e) :: L)
        (Rect.unit (s := S4x200x512) ![3, 0, 0] ![1, 200, 512] inbj).toLoadRect
      = v.readCov L (Rect.unit (s := S4x200x512) ![3, 0, 0] ![1, 200, 512] inbj).toLoadRect :=
  View.readCov_cons_of_disjoint v _ L _ (Rect.unit_disjoint (inb := inbk) (inb' := inbj) (0 : Fin 3) (by decide))

end Rows

/-! ## The pieces each case's run finds -/

variable {F : FTy → Type} [FloatOps F]

/-- Case B (an inner step that is neither the first nor the last) stores each row once, rows 0, 1, 2, 3 in this order,
    each as the row's previous contents updated by the grid point. -/
theorem pieces_B (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) :
    (kernelRun0_B c i arg2 harg2 arg3 harg3 arg4 harg4 arg5 harg5 arg6 harg6 arg7 harg7 hc0 hc1 x0 x1 x2 x3 xs0).2.1
      = [⟨Rect.unit (s := S4x200x512) ![3, 0, 0] S1x200x512.size inb_S4x200x512_S1x200x512_3_0_0, PointMath.upd3 x0 x1 x2 x3 (rowOf 3 xs0)⟩,
        ⟨Rect.unit (s := S4x200x512) ![2, 0, 0] S1x200x512.size inb_S4x200x512_S1x200x512_2_0_0, PointMath.upd2 x0 x1 x2 x3 (rowOf 2 xs0)⟩,
        ⟨Rect.unit (s := S4x200x512) ![1, 0, 0] S1x200x512.size inb_S4x200x512_S1x200x512_1_0_0, PointMath.upd1 x0 x1 x2 x3 (rowOf 1 xs0)⟩,
        ⟨Rect.unit (s := S4x200x512) ![0, 0, 0] S1x200x512.size inb_S4x200x512_S1x200x512_0_0_0, PointMath.upd0 x0 x1 x2 x3 (rowOf 0 xs0)⟩] := by
  unfold kernelRun0_B
  dsimp only
  sl_unfold_words
  simp only [View.readAt_eq_ld, harg2.read_unread, harg3.read_unread, harg4.read_unread, harg5.read_unread, harg7.read_unread,
    View.ld_unit_zero (S := S1x1280) hz2, View.ld_unit_zero (S := S800x512) hz2, ld_row0, ld_row1, ld_row2, ld_row3]
  rw [ld_row0, ld_row1, ld_row2, ld_row3]

/-- Case C (the last inner step) stores the rows exactly as case B does. -/
theorem pieces_C (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) :
    (kernelRun0_C c i arg2 harg2 arg3 harg3 arg4 harg4 arg5 harg5 arg6 harg6 arg7 harg7 hc0 hc1 x0 x1 x2 x3 xs0).2.1
      = [⟨Rect.unit (s := S4x200x512) ![3, 0, 0] S1x200x512.size inb_S4x200x512_S1x200x512_3_0_0, PointMath.upd3 x0 x1 x2 x3 (rowOf 3 xs0)⟩,
        ⟨Rect.unit (s := S4x200x512) ![2, 0, 0] S1x200x512.size inb_S4x200x512_S1x200x512_2_0_0, PointMath.upd2 x0 x1 x2 x3 (rowOf 2 xs0)⟩,
        ⟨Rect.unit (s := S4x200x512) ![1, 0, 0] S1x200x512.size inb_S4x200x512_S1x200x512_1_0_0, PointMath.upd1 x0 x1 x2 x3 (rowOf 1 xs0)⟩,
        ⟨Rect.unit (s := S4x200x512) ![0, 0, 0] S1x200x512.size inb_S4x200x512_S1x200x512_0_0_0, PointMath.upd0 x0 x1 x2 x3 (rowOf 0 xs0)⟩] := by
  unfold kernelRun0_C
  dsimp only
  sl_unfold_words
  simp only [View.readAt_eq_ld, harg2.read_unread, harg3.read_unread, harg4.read_unread, harg5.read_unread, harg7.read_unread,
    View.ld_unit_zero (S := S1x1280) hz2, View.ld_unit_zero (S := S800x512) hz2, ld_row0, ld_row1, ld_row2, ld_row3]
  rw [ld_row0, ld_row1, ld_row2, ld_row3]

/-- Case A (the first inner step) first stores zero into the whole accumulator, then stores each row as zero updated by
    the grid point: a row's load after the reset reads through the rows stored since to the reset. -/
theorem pieces_A (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) :
    (kernelRun0_A c i arg2 harg2 arg3 harg3 arg4 harg4 arg5 harg5 arg6 harg6 arg7 harg7 hc0 hc1 x0 x1 x2 x3).2.1
      = [⟨Rect.unit (s := S4x200x512) ![3, 0, 0] S1x200x512.size inb_S4x200x512_S1x200x512_3_0_0, PointMath.upd3 x0 x1 x2 x3 (rowOf 3 (k0_pay5 (F := F)))⟩,
        ⟨Rect.unit (s := S4x200x512) ![2, 0, 0] S1x200x512.size inb_S4x200x512_S1x200x512_2_0_0, PointMath.upd2 x0 x1 x2 x3 (rowOf 2 (k0_pay5 (F := F)))⟩,
        ⟨Rect.unit (s := S4x200x512) ![1, 0, 0] S1x200x512.size inb_S4x200x512_S1x200x512_1_0_0, PointMath.upd1 x0 x1 x2 x3 (rowOf 1 (k0_pay5 (F := F)))⟩,
        ⟨Rect.unit (s := S4x200x512) ![0, 0, 0] S1x200x512.size inb_S4x200x512_S1x200x512_0_0_0, PointMath.upd0 x0 x1 x2 x3 (rowOf 0 (k0_pay5 (F := F)))⟩,
        ⟨Rect.unit (s := S4x200x512) ![0, 0, 0] S4x200x512.size inb_S4x200x512_S4x200x512_0_0_0, k0_pay5 (F := F)⟩] := by
  unfold kernelRun0_A
  dsimp only
  sl_unfold_words
  simp only [View.readAt_eq_ld, harg2.read_unread, harg3.read_unread, harg4.read_unread, harg5.read_unread,
    View.ld_unit_zero (S := S1x1280) hz2, View.ld_unit_zero (S := S800x512) hz2,
    readCov_skip_0_1, readCov_skip_0_2, readCov_skip_1_2, readCov_skip_0_3, readCov_skip_1_3, readCov_skip_2_3,
    readCov_reset_row0, readCov_reset_row1, readCov_reset_row2, readCov_reset_row3,
    readCov_skip_0_1', readCov_skip_0_2', readCov_skip_1_2', readCov_skip_0_3', readCov_skip_1_3', readCov_skip_2_3',
    readCov_reset_row0', readCov_reset_row1', readCov_reset_row2', readCov_reset_row3']

/-! ## The accumulator after each case, at an index -/

/-- After case B, row `j` of the accumulator is row `j` of what the step before left, updated by the grid point. -/
theorem sout_B_apply (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : ¬cond0_1 i)
    (x0 x1 : Vec F S1x1280 .i32) (x2 x3 : Vec F S800x512 .bf16) (xs0 : Vec F S4x200x512 .f32) (j : Fin 4) (h : Fin 200) (l : Fin 512) :
    sout0_B_0 c i arg2 harg2 arg3 harg3 arg4 harg4 arg5 harg5 arg6 harg6 arg7 harg7 hc0 hc1 x0 x1 x2 x3 xs0 (ix3 j h l)
      = PointMath.upd j x0 x1 x2 x3 (rowOf j xs0) (ix3 (0 : Fin 1) h l) := by
  unfold sout0_B_0
  rw [View.read_writes_junk_eq_canon, pieces_B c i arg2 harg2 arg3 harg3 arg4 harg4 arg5 harg5 arg6 harg6 arg7 harg7 hc0 hc1 x0 x1 x2 x3 xs0]
  refine (canon_rows rfl rfl rfl rfl _ _ _ _ _ _ _ _ [] j h l).trans ?_
  match j with
  | ⟨0, _⟩ => rfl
  | ⟨1, _⟩ => rfl
  | ⟨2, _⟩ => rfl
  | ⟨3, _⟩ => rfl

/-- After case C likewise. -/
theorem sout_C_apply (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) (j : Fin 4) (h : Fin 200) (l : Fin 512) :
    sout0_C_0 c i arg2 harg2 arg3 harg3 arg4 harg4 arg5 harg5 arg6 harg6 arg7 harg7 hc0 hc1 x0 x1 x2 x3 xs0 (ix3 j h l)
      = PointMath.upd j x0 x1 x2 x3 (rowOf j xs0) (ix3 (0 : Fin 1) h l) := by
  unfold sout0_C_0
  rw [View.read_writes_junk_eq_canon, pieces_C c i arg2 harg2 arg3 harg3 arg4 harg4 arg5 harg5 arg6 harg6 arg7 harg7 hc0 hc1 x0 x1 x2 x3 xs0]
  refine (canon_rows rfl rfl rfl rfl _ _ _ _ _ _ _ _ [] j h l).trans ?_
  match j with
  | ⟨0, _⟩ => rfl
  | ⟨1, _⟩ => rfl
  | ⟨2, _⟩ => rfl
  | ⟨3, _⟩ => rfl

/-- After case A, row `j` of the accumulator is the zero row updated by the grid point. -/
theorem sout_A_apply (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : cond0_0 i) (hc1 : ¬cond0_1 i)
    (x0 x1 : Vec F S1x1280 .i32) (x2 x3 : Vec F S800x512 .bf16) (j : Fin 4) (h : Fin 200) (l : Fin 512) :
    sout0_A_0 c i arg2 harg2 arg3 harg3 arg4 harg4 arg5 harg5 arg6 harg6 arg7 harg7 hc0 hc1 x0 x1 x2 x3 (ix3 j h l)
      = PointMath.upd j x0 x1 x2 x3 (rowOf j (k0_pay5 (F := F))) (ix3 (0 : Fin 1) h l) := by
  unfold sout0_A_0
  rw [View.read_writes_junk_eq_canon, pieces_A c i arg2 harg2 arg3 harg3 arg4 harg4 arg5 harg5 arg6 harg6 arg7 harg7 hc0 hc1 x0 x1 x2 x3]
  refine (canon_rows rfl rfl rfl rfl _ _ _ _ _ _ _ _ _ j h l).trans ?_
  match j with
  | ⟨0, _⟩ => rfl
  | ⟨1, _⟩ => rfl
  | ⟨2, _⟩ => rfl
  | ⟨3, _⟩ => rfl

/-- The zero constant the reset stores is zero at the extended reals. -/
theorem pay5_apply (y : S4x200x512.Idx) : k0_pay5 (F := Ideal) y = 0 := by
  unfold k0_pay5
  rw [shapeCast_self]
  exact Ideal.ofBits_zero_f32

/-! ## The output block after the last inner step -/

/-- The copy into the output block adds a leading unit axis: entry `(0, j, h, l)` is entry `(j, h, l)`. -/
theorem pay4_apply (v : Vec F S4x200x512 .f32) (j : Fin 4) (h : Fin 200) (l : Fin 512) :
    k0_pay4 v (ix4 (0 : Fin 1) j h l) = v (ix3 j h l) := by
  unfold k0_pay4
  refine (shapeCast_addUnit_apply ![4, 200, 512] v _ (ix4 (0 : Fin 1) j h l)).trans ?_
  refine congrArg v ?_
  funext a
  match a with
  | ⟨0, _⟩ => rfl
  | ⟨1, _⟩ => rfl
  | ⟨2, _⟩ => rfl

/-- Case C's one store into the output block is the accumulator as its four row stores leave it. -/
theorem opieces_C (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) :
    (kernelRun0_C c i arg2 harg2 arg3 harg3 arg4 harg4 arg5 harg5 arg6 harg6 arg7 harg7 hc0 hc1 x0 x1 x2 x3 xs0).1
      = [⟨Rect.unit (s := S1x4x200x512) ![0, 0, 0, 0] S1x4x200x512.size inb_S1x4x200x512_S1x4x200x512_0_0_0_0,
          k0_pay4 (arg7.view.readCov ([⟨Rect.unit (s := S4x200x512) ![3, 0, 0] S1x200x512.size inb_S4x200x512_S1x200x512_3_0_0, PointMath.upd3 x0 x1 x2 x3 (rowOf 3 xs0)⟩,
        ⟨Rect.unit (s := S4x200x512) ![2, 0, 0] S1x200x512.size inb_S4x200x512_S1x200x512_2_0_0, PointMath.upd2 x0 x1 x2 x3 (rowOf 2 xs0)⟩,
        ⟨Rect.unit (s := S4x200x512) ![1, 0, 0] S1x200x512.size inb_S4x200x512_S1x200x512_1_0_0, PointMath.upd1 x0 x1 x2 x3 (rowOf 1 xs0)⟩,
        ⟨Rect.unit (s := S4x200x512) ![0, 0, 0] S1x200x512.size inb_S4x200x512_S1x200x512_0_0_0, PointMath.upd0 x0 x1 x2 x3 (rowOf 0 xs0)⟩])
            (Rect.unit (s := S4x200x512) ![0, 0, 0] S4x200x512.size inb_S4x200x512_S4x200x512_0_0_0).toLoadRect)⟩] := by
  unfold kernelRun0_C
  dsimp only
  sl_unfold_words
  simp only [View.readAt_eq_ld, harg2.read_unread, harg3.read_unread, harg4.read_unread, harg5.read_unread, harg7.read_unread,
    View.ld_unit_zero (S := S1x1280) hz2, View.ld_unit_zero (S := S800x512) hz2, ld_row0, ld_row1, ld_row2, ld_row3]
  rw [ld_row0, ld_row1, ld_row2, ld_row3]

/-- After case C the output block holds the accumulator: entry `(0, j, h, l)` is the accumulator's `(j, h, l)`. -/
theorem out_C_apply (c : Dev nD) (i : grid0.Coords) (arg2 : Memref sig .tc .vmem S1x1280 .i32) (harg2 : arg2.IsWhole) (arg3 : Memref sig .tc .vmem S1x1280 .i32) (harg3 : arg3.IsWhole) (arg4 : Memref sig .tc .vmem S800x512 .bf16) (harg4 : arg4.IsWhole) (arg5 : Memref sig .tc .vmem S800x512 .bf16) (harg5 : arg5.IsWhole) (arg6 : Memref sig .tc .vmem S1x4x200x512 .f32) (harg6 : arg6.IsWhole) (arg7 : Memref sig .tc .vmem S4x200x512 .f32) (harg7 : arg7.IsWhole) (hc0 : ¬cond0_0 i) (hc1 : cond0_1 i)
    (x0 x1 : Vec F S1x1280 .i32) (x2 x3 : Vec F S800x512 .bf16) (xs0 : Vec F S4x200x512 .f32) (j : Fin 4) (h : Fin 200) (l : Fin 512) :
    out0_C_4 c i arg2 harg2 arg3 harg3 arg4 harg4 arg5 harg5 arg6 harg6 arg7 harg7 hc0 hc1 x0 x1 x2 x3 xs0 (ix4 (0 : Fin 1) j h l)
      = sout0_C_0 c i arg2 harg2 arg3 harg3 arg4 harg4 arg5 harg5 arg6 harg6 arg7 harg7 hc0 hc1 x0 x1 x2 x3 xs0 (ix3 j h l) := by
  unfold out0_C_4 sout0_C_0
  rw [View.read_writes_junk_eq_canon, View.read_writes_junk_eq_canon, pieces_C c i arg2 harg2 arg3 harg3 arg4 harg4 arg5 harg5 arg6 harg6 arg7 harg7 hc0 hc1 x0 x1 x2 x3 xs0,
    opieces_C c i arg2 harg2 arg3 harg3 arg4 harg4 arg5 harg5 arg6 harg6 arg7 harg7 hc0 hc1 x0 x1 x2 x3 xs0, View.canon_unit_zero (S := S1x4x200x512) hz4]
  refine (pay4_apply _ j h l).trans ?_
  rw [View.readCov_eq_canon']
  exact congrFun (View.ld_unit_zero (S := S4x200x512) hz3 _ (View.canon _)) (ix3 j h l)

end Cert.KernelIdeal.Acc

end
-- ==== Proof.LibTypedRef.lean ====
/-
  General lemma: typed references' transports cancel.
  A host function that jax outlined (log_softmax, take_along_axis, …) prints over typed references, whose operations move a
  value to the buffer's own type and back (a cast along the reference's type equation). Reading a line of such operations
  with the library's result lemmas leaves every stage wrapped in `ofBuf (toBuf v)`; this lemma removes the wrapping,
  for any typed reference, with no look at the signature's tables — apply it by `simp only` before comparing the composed term
  with its stages.
-/
import Idealize.ShloMosaic.Lib.StableHlo

noncomputable section

open Idealize.ShloMosaic Idealize.ShloMosaic.StableHlo

namespace Cert.Lib.TypedRef

/-- A value moved to a typed reference's buffer type and back is the value. -/
theorem ofBuf_toBuf {sig : RefSig} {Val : EltTy → Type} {T : BufTy} (x : TRef sig T) (v : T.Contents Val) :
    x.ofBuf (x.toBuf v) = v := by
  unfold TRef.ofBuf TRef.toBuf
  simp only [cast_cast, cast_eq]

end Cert.Lib.TypedRef

end
-- ==== Proof.HostPrefix.lean ====
/-
  The host operations before the kernel region, read at an index of each array the region's windows are cut from.

  The host takes column 3 of `x` and the three columns of `pos` as four rows of 100000 node features, pads each row with
  zeros to 102400 = 200 · 512 node slots, rounds to the narrow format (the identity on extended reals), keeps the rounding
  remainder (feature minus feature: zero when the feature is a real number), and lays both out as 800 × 512 (row
  c · 200 + h, lane l holds feature c of node h · 512 + l). Column 8 of `x` is padded the same way to 200 × 512. The two rows
  of the edge list pass through two reshapes unchanged.
-/
import proofs.«418611_j20246475833437_3_alg».proof.Proof.Spec
import proofs.«418611_j20246475833437_3_alg».proof.Proof.LibTypedRef
import proofs.«418611_j20246475833437_3_alg».proof.Proof.Gen.KernelIdeal.Launch
import Idealize.ShloMosaic.Lib.StableHlo.Run
import Idealize.ShloMosaic.Lib.Pipeline.Frame
import Idealize.ShloMosaic.Lib.Pipeline.Value
import Idealize.ShloMosaic.Lib.KernelVsHost
import Idealize.ShloMosaic.Lib.ValueIdx
import Idealize.ShloMosaic.Lib.ValueLayout

noncomputable section

namespace Cert.KernelIdeal.HostVal

open Idealize.ShloMosaic Idealize.ShloMosaic.ValueIdx Idealize.ShloMosaic.TcCoe
open Cert.KernelIdeal Cert.KernelIdeal.Gen Cert.EdgeForce Cert.ExtReal

/-! ## The prefix's arrays as functions of the three arguments -/

/-- Column 3 of `x` as one row over the nodes. -/
def rowT (x : FVec Ideal S100000x9 .f32) : FVec Ideal S1x100000 .f32 :=
  broadcastInDim S1x100000 ![1] bcast_S100000_S1x100000_1
    (shapeCast S100000 (extractStridedSlice S100000x1 ![0, 3] x slices_S100000x9_S100000x1_0_3) shapeCasts_S100000x1_S100000)

/-- The three columns of `pos`, each as one row over the nodes. -/
def rowP0 (p : FVec Ideal S100000x3 .f32) : FVec Ideal S1x100000 .f32 :=
  broadcastInDim S1x100000 ![1] bcast_S100000_S1x100000_1
    (shapeCast S100000 (extractStridedSlice S100000x1 ![0, 0] p slices_S100000x3_S100000x1_0_0) shapeCasts_S100000x1_S100000)
def rowP1 (p : FVec Ideal S100000x3 .f32) : FVec Ideal S1x100000 .f32 :=
  broadcastInDim S1x100000 ![1] bcast_S100000_S1x100000_1
    (shapeCast S100000 (extractStridedSlice S100000x1 ![0, 1] p slices_S100000x3_S100000x1_0_1) shapeCasts_S100000x1_S100000)
def rowP2 (p : FVec Ideal S100000x3 .f32) : FVec Ideal S1x100000 .f32 :=
  broadcastInDim S1x100000 ![1] bcast_S100000_S1x100000_1
    (shapeCast S100000 (extractStridedSlice S100000x1 ![0, 2] p slices_S100000x3_S100000x1_0_2) shapeCasts_S100000x1_S100000)

/-- The four feature rows stacked. -/
def rows4 (x : FVec Ideal S100000x9 .f32) (p : FVec Ideal S100000x3 .f32) : FVec Ideal S4x100000 .f32 :=
  concatenate S4x100000 0 [⟨S1x100000, rowT x⟩, ⟨S1x100000, rowP0 p⟩, ⟨S1x100000, rowP1 p⟩, ⟨S1x100000, rowP2 p⟩]
    concatenates_S1x100000_S1x100000_S1x100000_S1x100000_S4x100000_d0

/-- The padding value: the integer zero as a float. -/
def padZero : FVec Ideal S_ .f32 := sitofp .f32 (constantI S_ 32 0#32)

/-- The four rows padded with zeros to the node slots. -/
def padded4 (r : FVec Ideal S4x100000 .f32) : FVec Ideal S4x102400 .f32 :=
  pad S4x102400 ![0, 0] ![0, 2400] ![0, 0] r padZero pads_S4x100000_S4x102400_000_024000 h_S_

/-- The features in the narrow format, 800 × 512. -/
def hiArr (r : FVec Ideal S4x100000 .f32) : FVec Ideal S800x512 .bf16 :=
  shapeCast S800x512 (truncf .bf16 (padded4 r) bitsLt_bf16_f32) shapeCasts_S4x102400_S800x512

/-- The rounding remainders in the narrow format, 800 × 512. -/
def loArr (r : FVec Ideal S4x100000 .f32) : FVec Ideal S800x512 .bf16 :=
  shapeCast S800x512
    (truncf .bf16 (subf (padded4 r) (extf .f32 (truncf .bf16 (padded4 r) bitsLt_bf16_f32) bitsLt_bf16_f32)) bitsLt_bf16_f32)
    shapeCasts_S4x102400_S800x512

/-- Column 8 of `x` over the nodes. -/
def col8 (x : FVec Ideal S100000x9 .f32) : FVec Ideal S100000 .f32 :=
  shapeCast S100000 (extractStridedSlice S100000x1 ![0, 8] x slices_S100000x9_S100000x1_0_8) shapeCasts_S100000x1_S100000

/-- Column 8 of `x` padded with zeros to the node slots, 200 × 512. -/
def phiArr (v : FVec Ideal S100000 .f32) : FVec Ideal S200x512 .f32 :=
  shapeCast S200x512 (pad S102400 ![0] ![2400] ![0] v padZero pads_S100000_S102400_024000 h_S_) shapeCasts_S102400_S200x512

/-- Rows 0 and 1 of the edge list, each through its two reshapes. -/
def edgeRow0 (e : IVec S2x3200000 32) : IVec S1x3200000 32 :=
  shapeCast S1x3200000
    (shapeCast S3200000 (extractStridedSlice S1x3200000 ![0, 0] e slices_S2x3200000_S1x3200000_0_0) shapeCasts_S1x3200000_S3200000)
    shapeCasts_S3200000_S1x3200000
def edgeRow1 (e : IVec S2x3200000 32) : IVec S1x3200000 32 :=
  shapeCast S1x3200000
    (shapeCast S3200000 (extractStridedSlice S1x3200000 ![1, 0] e slices_S2x3200000_S1x3200000_1_0) shapeCasts_S1x3200000_S3200000)
    shapeCasts_S3200000_S1x3200000

/-! ## The arrays at an index -/

/-- Column `k` of an array over the nodes, taken as a slice, flattened, and read as a one-row array. -/
theorem column_row_apply {C : ℕ} (y : (⟨2, ![100000, C]⟩ : Shape).Idx → EReal) (k : Fin C)
    (hs : (⟨2, ![100000, C]⟩ : Shape).Slices ![0, k.val] S100000x1) (n : Fin 100000) :
    broadcastInDim S1x100000 ![1] bcast_S100000_S1x100000_1
      (shapeCast S100000 (extractStridedSlice S100000x1 ![0, k.val] y hs) shapeCasts_S100000x1_S100000) (ix2 (0 : Fin 1) n)
      = y (ix2 n k) := by
  refine (broadcastInDim_apply ![1] bcast_S100000_S1x100000_1 _ (ix2 (0 : Fin 1) n) (ix1 n)
    (fun a => match a with | ⟨0, _⟩ => rfl)).trans ?_
  refine (shapeCast_apply _ shapeCasts_S100000x1_S100000 (ix1 n) (ix2 n (0 : Fin 1))
    (by rw [Shape.rowMajor_val_two, Shape.rowMajor_val_one]
        show n.val * 1 + 0 = n.val
        omega)).trans ?_
  exact extractStridedSlice_apply ![0, k.val] y hs (ix2 n (0 : Fin 1)) (ix2 n k)
    (fun a => match a with
      | ⟨0, _⟩ => by show n.val = 0 + n.val; omega
      | ⟨1, _⟩ => by show k.val = k.val + 0; omega)

theorem rowT_apply (x : S100000x9.Idx → EReal) (n : Fin 100000) : rowT x (ix2 (0 : Fin 1) n) = x (ix2 n (3 : Fin 9)) :=
  column_row_apply x (3 : Fin 9) slices_S100000x9_S100000x1_0_3 n
theorem rowP0_apply (p : S100000x3.Idx → EReal) (n : Fin 100000) : rowP0 p (ix2 (0 : Fin 1) n) = p (ix2 n (0 : Fin 3)) :=
  column_row_apply p (0 : Fin 3) slices_S100000x3_S100000x1_0_0 n
theorem rowP1_apply (p : S100000x3.Idx → EReal) (n : Fin 100000) : rowP1 p (ix2 (0 : Fin 1) n) = p (ix2 n (1 : Fin 3)) :=
  column_row_apply p (1 : Fin 3) slices_S100000x3_S100000x1_0_1 n
theorem rowP2_apply (p : S100000x3.Idx → EReal) (n : Fin 100000) : rowP2 p (ix2 (0 : Fin 1) n) = p (ix2 n (2 : Fin 3)) :=
  column_row_apply p (2 : Fin 3) slices_S100000x3_S100000x1_0_2 n

/-- Row `k` of the stack is piece `k`. -/
theorem rows4_piece (x : S100000x9.Idx → EReal) (p : S100000x3.Idx → EReal) (cc : Fin 4) (n : Fin 100000)
    (v : S1x100000.Idx → EReal)
    (hv : [(⟨S1x100000, rowT x⟩ : (s : Shape) × (s.Idx → EReal)), ⟨S1x100000, rowP0 p⟩, ⟨S1x100000, rowP1 p⟩,
      ⟨S1x100000, rowP2 p⟩][cc.val]'(by have := cc.isLt; simpa using this) = ⟨S1x100000, v⟩) :
    rows4 x p (ix2 cc n) = v (ix2 (0 : Fin 1) n) := by
  have hc := cc.isLt
  unfold rows4
  refine concatenate_apply_piece (t := S4x100000) (0 : Fin 2)
    [(⟨S1x100000, rowT x⟩ : (s : Shape) × (s.Idx → EReal)), ⟨S1x100000, rowP0 p⟩, ⟨S1x100000, rowP1 p⟩, ⟨S1x100000, rowP2 p⟩]
    concatenates_S1x100000_S1x100000_S1x100000_S1x100000_S4x100000_d0 (ix2 cc n)
    cc.val (by simpa using hc) S1x100000 v hv rfl cc.val ?_ (ix2 (0 : Fin 1) n) ?_ ?_
  · obtain ⟨k, hk⟩ := cc
    match k, hk with
    | 0, _ => rfl
    | 1, _ => rfl
    | 2, _ => rfl
    | 3, _ => rfl
  · intro b hb
    match b with
    | ⟨0, _⟩ => exact absurd rfl hb
    | ⟨1, _⟩ => rfl
  · show cc.val + 0 = cc.val
    omega

/-- The stacked rows at a feature and a node. -/
theorem rows4_apply (x : S100000x9.Idx → EReal) (p : S100000x3.Idx → EReal) :
    ∀ (cc : Fin 4) (n : Fin 100000), rows4 x p (ix2 cc n) = feat x p cc.val n.val
  | ⟨0, _⟩, n => by
    rw [rows4_piece x p ⟨0, by omega⟩ n (rowT x) rfl, rowT_apply]; unfold feat; rw [dif_pos n.isLt]; rfl
  | ⟨1, _⟩, n => by
    rw [rows4_piece x p ⟨1, by omega⟩ n (rowP0 p) rfl, rowP0_apply]; unfold feat; rw [dif_pos n.isLt]; rfl
  | ⟨2, _⟩, n => by
    rw [rows4_piece x p ⟨2, by omega⟩ n (rowP1 p) rfl, rowP1_apply]; unfold feat; rw [dif_pos n.isLt]; rfl
  | ⟨3, _⟩, n => by
    rw [rows4_piece x p ⟨3, by omega⟩ n (rowP2 p) rfl, rowP2_apply]; unfold feat; rw [dif_pos n.isLt]; rfl

/-- The padding value is zero. -/
theorem padZero_apply (i : S_.Idx) : padZero i = 0 := by
  show (((0#32 : BitVec 32).toInt : ℝ) : EReal) = 0
  rw [BitVec.toInt_zero, Int.cast_zero, EReal.coe_zero]

/-- The padded rows at a feature and a node slot: the feature, zero past the last node. -/
theorem padded4_apply (x : S100000x9.Idx → EReal) (p : S100000x3.Idx → EReal) (cc : Fin 4) (q : Fin 102400) :
    padded4 (rows4 x p) (ix2 cc q) = feat x p cc.val q.val := by
  unfold padded4
  by_cases hq : q.val < 100000
  · rw [pad_apply_of_inside ![0, 0] ![0, 2400] ![0, 0] (rows4 x p) padZero pads_S4x100000_S4x102400_000_024000 h_S_ (ix2 cc q)
      (ix2 cc (⟨q.val, hq⟩ : Fin 100000)) (fun a => match a with
        | ⟨0, _⟩ => by show cc.val = 0 + cc.val * (0 + 1); omega
        | ⟨1, _⟩ => by show q.val = 0 + q.val * (0 + 1); omega),
      rows4_apply]
  · rw [pad_apply_of_not_inside ![0, 0] ![0, 2400] ![0, 0] (rows4 x p) padZero pads_S4x100000_S4x102400_000_024000 h_S_ (ix2 cc q)
      (1 : Fin 2) (by
        show ¬(0 ≤ q.val ∧ (q.val - 0) % (0 + 1) = 0 ∧ (q.val - 0) / (0 + 1) < 100000)
        omega),
      padZero_apply]
    unfold feat
    rw [dif_neg hq]

/-- **The features, 800 × 512**: row `c · 200 + h`, lane `l` holds feature `c` of node `h · 512 + l`. -/
theorem hiArr_apply (x : S100000x9.Idx → EReal) (p : S100000x3.Idx → EReal) (cc : Fin 4) (h : Fin 200) (l : Fin 512) :
    hiArr (rows4 x p) (ix2 (⟨cc.val * 200 + h.val, by have := cc.isLt; have := h.isLt; omega⟩ : Fin 800) l)
      = feat x p cc.val (h.val * 512 + l.val) := by
  have hc := cc.isLt; have hh := h.isLt; have hl := l.isLt
  unfold hiArr
  rw [shapeCast_apply _ shapeCasts_S4x102400_S800x512 (ix2 (⟨cc.val * 200 + h.val, by omega⟩ : Fin 800) l)
      (ix2 cc (⟨h.val * 512 + l.val, by omega⟩ : Fin 102400))
      (by rw [Shape.rowMajor_val_two, Shape.rowMajor_val_two]
          show cc.val * 102400 + (h.val * 512 + l.val) = (cc.val * 200 + h.val) * 512 + l.val
          omega),
    truncf_apply, padded4_apply]

/-- Every feature is a real number when the two float arguments are. -/
theorem feat_isFin (x : SX.Idx → EReal) (p : SP.Idx → EReal) (hfin : AllFin x p) (c n : ℕ) : IsFin (feat x p c n) := by
  unfold feat
  split
  · split
    · exact hfin.1 _
    · exact hfin.2 _
    · exact hfin.2 _
    · exact hfin.2 _
  · exact IsFin.zero

/-- A real number less itself is zero. -/
theorem sub_self_of_isFin {a : EReal} (ha : IsFin a) : a - a = 0 := by
  obtain ⟨r, rfl⟩ := ha
  rw [← EReal.coe_sub, sub_self, EReal.coe_zero]

/-- **The rounding remainders, 800 × 512**: zero everywhere, the features being real numbers. -/
theorem loArr_apply (x : S100000x9.Idx → EReal) (p : S100000x3.Idx → EReal) (hfin : AllFin x p) (i : S800x512.Idx) :
    loArr (rows4 x p) i = 0 := by
  have hr : (i 0).val < 800 := (i 0).isLt
  have hl : (i 1).val < 512 := (i 1).isLt
  unfold loArr
  rw [shapeCast_apply _ shapeCasts_S4x102400_S800x512 i
      (ix2 (⟨(i 0).val / 200, by omega⟩ : Fin 4) (⟨(i 0).val % 200 * 512 + (i 1).val, by omega⟩ : Fin 102400))
      (by rw [Shape.rowMajor_val_two, Shape.rowMajor_val_two]
          show (i 0).val / 200 * 102400 + ((i 0).val % 200 * 512 + (i 1).val) = (i 0).val * 512 + (i 1).val
          omega),
    truncf_apply, subf_apply, extf_apply, truncf_apply, padded4_apply]
  exact sub_self_of_isFin (feat_isFin x p hfin _ _)

/-- **The padded potential column, 200 × 512**: slot `(h, l)` holds `x[h · 512 + l, 8]`, zero past the last node. -/
theorem phiArr_apply (x : S100000x9.Idx → EReal) (h : Fin 200) (l : Fin 512) :
    phiArr (col8 x) (ix2 h l)
      = if hn : h.val * 512 + l.val < 100000 then x (ix2 (⟨h.val * 512 + l.val, hn⟩ : Fin 100000) (8 : Fin 9)) else 0 := by
  have hh := h.isLt; have hl := l.isLt
  unfold phiArr
  rw [shapeCast_apply _ shapeCasts_S102400_S200x512 (ix2 h l) (ix1 (⟨h.val * 512 + l.val, by omega⟩ : Fin 102400))
      (by rw [Shape.rowMajor_val_one, Shape.rowMajor_val_two]
          show h.val * 512 + l.val = h.val * 512 + l.val
          rfl)]
  by_cases hn : h.val * 512 + l.val < 100000
  · rw [dif_pos hn,
      pad_apply_of_inside ![0] ![2400] ![0] (col8 x) padZero pads_S100000_S102400_024000 h_S_
        (ix1 (⟨h.val * 512 + l.val, by omega⟩ : Fin 102400)) (ix1 (⟨h.val * 512 + l.val, hn⟩ : Fin 100000))
        (fun a => match a with
          | ⟨0, _⟩ => by show h.val * 512 + l.val = 0 + (h.val * 512 + l.val) * (0 + 1); omega)]
    unfold col8
    rw [shapeCast_apply _ shapeCasts_S100000x1_S100000 (ix1 (⟨h.val * 512 + l.val, hn⟩ : Fin 100000))
        (ix2 (⟨h.val * 512 + l.val, hn⟩ : Fin 100000) (0 : Fin 1))
        (by rw [Shape.rowMajor_val_two, Shape.rowMajor_val_one]
            show (h.val * 512 + l.val) * 1 + 0 = h.val * 512 + l.val
            omega),
      extractStridedSlice_apply ![0, 8] x slices_S100000x9_S100000x1_0_8 (ix2 (⟨h.val * 512 + l.val, hn⟩ : Fin 100000) (0 : Fin 1))
        (ix2 (⟨h.val * 512 + l.val, hn⟩ : Fin 100000) (8 : Fin 9)) (fun a => match a with
          | ⟨0, _⟩ => by show h.val * 512 + l.val = 0 + (h.val * 512 + l.val); omega
          | ⟨1, _⟩ => by show 8 = 8 + 0; omega)]
  · rw [dif_neg hn,
      pad_apply_of_not_inside ![0] ![2400] ![0] (col8 x) padZero pads_S100000_S102400_024000 h_S_
        (ix1 (⟨h.val * 512 + l.val, by omega⟩ : Fin 102400)) (0 : Fin 1) (by
          show ¬(0 ≤ h.val * 512 + l.val ∧ (h.val * 512 + l.val - 0) % (0 + 1) = 0 ∧ (h.val * 512 + l.val - 0) / (0 + 1) < 100000)
          omega),
      padZero_apply]

/-- A row of the edge list through its two reshapes is the row. -/
theorem edge_row_apply (e : S2x3200000.Idx → BitVec 32) (b : Fin 2) (hs : S2x3200000.Slices ![b.val, 0] S1x3200000)
    (k : Fin 3200000) :
    shapeCast S1x3200000
      (shapeCast S3200000 (extractStridedSlice S1x3200000 ![b.val, 0] e hs) shapeCasts_S1x3200000_S3200000)
      shapeCasts_S3200000_S1x3200000 (ix2 (0 : Fin 1) k) = e (ix2 b k) := by
  refine (shapeCast_a_1a_apply _ shapeCasts_S3200000_S1x3200000 (0 : Fin 1) k).trans ?_
  refine (shapeCast_1a_a_apply _ shapeCasts_S1x3200000_S3200000 k).trans ?_
  exact extractStridedSlice_apply ![b.val, 0] e hs (ix2 (0 : Fin 1) k) (ix2 b k)
    (fun a => match a with
      | ⟨0, _⟩ => by show b.val = b.val + 0; omega
      | ⟨1, _⟩ => by show k.val = 0 + k.val; omega)

theorem edgeRow0_apply (e : S2x3200000.Idx → BitVec 32) (k : Fin 3200000) :
    edgeRow0 e (ix2 (0 : Fin 1) k) = e (ix2 (0 : Fin 2) k) :=
  edge_row_apply e (0 : Fin 2) slices_S2x3200000_S1x3200000_0_0 k
theorem edgeRow1_apply (e : S2x3200000.Idx → BitVec 32) (k : Fin 3200000) :
    edgeRow1 e (ix2 (0 : Fin 1) k) = e (ix2 (1 : Fin 2) k) :=
  edge_row_apply e (1 : Fin 2) slices_S2x3200000_S1x3200000_1_0 k

/-! ## What the prefix leaves in each array

The first stretch of host operations ends with the concatenate of the four rows; the later stretches read its result, column 8
and the edge list. The buffers after the whole prefix are the later stretches run from the buffers after the first. -/

/-- The device's buffers after the host operations before the region. -/
abbrev pre (m : (ℓ : Loc nD τ sig) → Buf (Elt Ideal) ℓ) (c : Dev nD) : Valuation τ sig (Elt Ideal) :=
  StableHlo.after (List.flatten [hostOps0, hostOps0_1, hostOps0_2, hostOps0_3, hostOps0_4]) (fun b => m (c, b))

/-- The stretches after the first. -/
abbrev laterOps : List (HloOp τ sig (Elt Ideal)) := List.flatten [hostOps0_1, hostOps0_2, hostOps0_3, hostOps0_4]

theorem pre_eq (m : (ℓ : Loc nD τ sig) → Buf (Elt Ideal) ℓ) (c : Dev nD) :
    pre m c = StableHlo.after laterOps (StableHlo.after (hostOps0 (F := Ideal)) (fun b => m (c, b))) :=
  StableHlo.after_append (hostOps0 (F := Ideal)) laterOps _

/-! ### The first stretch -/

set_option maxHeartbeats 1000000 in
/-- The stacked rows after the first stretch. -/
theorem first_v14 (V : Valuation τ sig (Elt Ideal)) :
    (StableHlo.after (hostOps0 (F := Ideal)) V (Proc.devRef .tc main_v14) : S4x100000.Idx → EReal)
      = rows4 (V (Proc.devRef .tc main_arg0)) (V (Proc.devRef .tc main_arg1)) := by
  simp only [hostOps0, StableHlo.after_cons, StableHlo.after_nil]
  rw [StableHlo.nullary_result_ne]; rotate_left; decide
  generalize hW : (StableHlo.unary main_v9 main_v13 _ _ _).result _ = W
  have h10 : (W (Proc.devRef .tc main_v10) : S1x100000.Idx → EReal) = rowT (V (Proc.devRef .tc main_arg0)) := by
    rw [← hW]; after_results_simp; rfl
  have h11 : (W (Proc.devRef .tc main_v11) : S1x100000.Idx → EReal) = rowP0 (V (Proc.devRef .tc main_arg1)) := by
    rw [← hW]; after_results_simp; rfl
  have h12 : (W (Proc.devRef .tc main_v12) : S1x100000.Idx → EReal) = rowP1 (V (Proc.devRef .tc main_arg1)) := by
    rw [← hW]; after_results_simp; rfl
  have h13 : (W (Proc.devRef .tc main_v13) : S1x100000.Idx → EReal) = rowP2 (V (Proc.devRef .tc main_arg1)) := by
    rw [← hW]; after_results_simp; rfl
  rw [StableHlo.nary_result]
  show concatenate S4x100000 0 [⟨S1x100000, W (Proc.devRef .tc main_v10)⟩, ⟨S1x100000, W (Proc.devRef .tc main_v11)⟩,
    ⟨S1x100000, W (Proc.devRef .tc main_v12)⟩, ⟨S1x100000, W (Proc.devRef .tc main_v13)⟩]
    concatenates_S1x100000_S1x100000_S1x100000_S1x100000_S4x100000_d0 = _
  rw [h10, h11, h12, h13]
  rfl

/-- Column 8 of `x` after the first stretch. -/
theorem first_v3 (V : Valuation τ sig (Elt Ideal)) :
    (StableHlo.after (hostOps0 (F := Ideal)) V (Proc.devRef .tc main_v3) : S100000.Idx → EReal)
      = col8 (V (Proc.devRef .tc main_arg0)) := by
  after_results_simp
  rfl

/-- The integer zero the first padding reads, after the first stretch. -/
theorem first_c (V : Valuation τ sig (Elt Ideal)) :
    (StableHlo.after (hostOps0 (F := Ideal)) V (Proc.devRef .tc main_c) : IVec S_ 32) = constantI S_ 32 0#32 := by
  after_results_simp

/-- The first stretch leaves the arguments as they were. -/
theorem first_arg0 (V : Valuation τ sig (Elt Ideal)) :
    StableHlo.after (hostOps0 (F := Ideal)) V (Proc.devRef .tc main_arg0) = V (Proc.devRef .tc main_arg0) := by
  after_results_simp
theorem first_arg1 (V : Valuation τ sig (Elt Ideal)) :
    StableHlo.after (hostOps0 (F := Ideal)) V (Proc.devRef .tc main_arg1) = V (Proc.devRef .tc main_arg1) := by
  after_results_simp
theorem first_arg2 (V : Valuation τ sig (Elt Ideal)) :
    StableHlo.after (hostOps0 (F := Ideal)) V (Proc.devRef .tc main_arg2) = V (Proc.devRef .tc main_arg2) := by
  after_results_simp

/-! ### The later stretches -/

/-- Opens the later stretches into one literal line of operations. -/
macro "open_later" : tactic =>
  `(tactic| simp only [laterOps, hostOps0_1, hostOps0_2, hostOps0_3, hostOps0_4, List.flatten_cons, List.flatten_nil, List.append_nil,
      List.cons_append, List.nil_append])

set_option maxHeartbeats 1000000 in
theorem later_v20 (V : Valuation τ sig (Elt Ideal)) (hc : (V (Proc.devRef .tc main_c) : IVec S_ 32) = constantI S_ 32 0#32) :
    (StableHlo.after laterOps V (Proc.devRef .tc main_v20) : S800x512.Idx → EReal) = hiArr (V (Proc.devRef .tc main_v14)) := by
  open_later
  after_results_simp
  rw [hc]
  rfl

set_option maxHeartbeats 1000000 in
theorem later_v21 (V : Valuation τ sig (Elt Ideal)) (hc : (V (Proc.devRef .tc main_c) : IVec S_ 32) = constantI S_ 32 0#32) :
    (StableHlo.after laterOps V (Proc.devRef .tc main_v21) : S800x512.Idx → EReal) = loArr (V (Proc.devRef .tc main_v14)) := by
  open_later
  after_results_simp
  rw [hc]
  rfl

set_option maxHeartbeats 1000000 in
theorem later_v23 (V : Valuation τ sig (Elt Ideal)) :
    (StableHlo.after laterOps V (Proc.devRef .tc main_v23) : S200x512.Idx → EReal) = phiArr (V (Proc.devRef .tc main_v3)) := by
  open_later
  after_results_simp
  rfl

set_option maxHeartbeats 1000000 in
theorem later_v26 (V : Valuation τ sig (Elt Ideal)) :
    (StableHlo.after laterOps V (Proc.devRef .tc main_v26) : S1x3200000.Idx → BitVec 32) = edgeRow0 (V (Proc.devRef .tc main_arg2)) := by
  open_later
  after_results_simp
  rfl

set_option maxHeartbeats 1000000 in
theorem later_v29 (V : Valuation τ sig (Elt Ideal)) :
    (StableHlo.after laterOps V (Proc.devRef .tc main_v29) : S1x3200000.Idx → BitVec 32) = edgeRow1 (V (Proc.devRef .tc main_arg2)) := by
  open_later
  after_results_simp
  rfl

set_option maxHeartbeats 1000000 in
theorem later_arg0 (V : Valuation τ sig (Elt Ideal)) :
    StableHlo.after laterOps V (Proc.devRef .tc main_arg0) = V (Proc.devRef .tc main_arg0) := by
  open_later
  after_results_simp
set_option maxHeartbeats 1000000 in
theorem later_arg1 (V : Valuation τ sig (Elt Ideal)) :
    StableHlo.after laterOps V (Proc.devRef .tc main_arg1) = V (Proc.devRef .tc main_arg1) := by
  open_later
  after_results_simp
set_option maxHeartbeats 1000000 in
theorem later_arg2 (V : Valuation τ sig (Elt Ideal)) :
    StableHlo.after laterOps V (Proc.devRef .tc main_arg2) = V (Proc.devRef .tc main_arg2) := by
  open_later
  after_results_simp

/-! ### The whole prefix -/

section Whole
variable (m : (ℓ : Loc nD τ sig) → Buf (Elt Ideal) ℓ) (c : Dev nD)

/-- The prefix leaves the three arguments as they were. -/
theorem pre_arg0 : pre m c (Proc.devRef .tc main_arg0) = m ((c : Thread nD τ).loc main_arg0) := by
  rw [pre_eq, later_arg0, first_arg0]
theorem pre_arg1 : pre m c (Proc.devRef .tc main_arg1) = m ((c : Thread nD τ).loc main_arg1) := by
  rw [pre_eq, later_arg1, first_arg1]
theorem pre_arg2 : pre m c (Proc.devRef .tc main_arg2) = m ((c : Thread nD τ).loc main_arg2) := by
  rw [pre_eq, later_arg2, first_arg2]

variable (x : SX.Idx → EReal) (p : SP.Idx → EReal) (e : SE.Idx → BitVec 32)
variable (hx : m ((c : Thread nD τ).loc main_arg0) = x) (hp : m ((c : Thread nD τ).loc main_arg1) = p)
  (he : m ((c : Thread nD τ).loc main_arg2) = e)

include hx hp in
theorem pre_v20 : (pre m c (Proc.devRef .tc main_v20) : S800x512.Idx → EReal) = hiArr (rows4 x p) := by
  rw [pre_eq, later_v20 _ (first_c _), first_v14]
  exact congrArg₂ (fun a b => hiArr (rows4 a b)) hx hp

include hx hp in
theorem pre_v21 : (pre m c (Proc.devRef .tc main_v21) : S800x512.Idx → EReal) = loArr (rows4 x p) := by
  rw [pre_eq, later_v21 _ (first_c _), first_v14]
  exact congrArg₂ (fun a b => loArr (rows4 a b)) hx hp

include hx in
theorem pre_v23 : (pre m c (Proc.devRef .tc main_v23) : S200x512.Idx → EReal) = phiArr (col8 x) := by
  rw [pre_eq, later_v23, first_v3]
  exact congrArg (fun a => phiArr (col8 a)) hx

include he in
theorem pre_v26 : (pre m c (Proc.devRef .tc main_v26) : S1x3200000.Idx → BitVec 32) = edgeRow0 e := by
  rw [pre_eq, later_v26, first_arg2]
  exact congrArg edgeRow0 he

include he in
theorem pre_v29 : (pre m c (Proc.devRef .tc main_v29) : S1x3200000.Idx → BitVec 32) = edgeRow1 e := by
  rw [pre_eq, later_v29, first_arg2]
  exact congrArg edgeRow1 he

/-! ### At an index -/

include he in
/-- The first window's array is row 0 of the edge list: the edges' sources. -/
theorem src_row (k : Fin 3200000) :
    (pre m c (Proc.devRef .tc main_v26) : S1x3200000.Idx → BitVec 32) (ix2 (0 : Fin 1) k) = e (ix2 (0 : Fin 2) k) := by
  rw [pre_v26 m c e he]; exact edgeRow0_apply e k

include he in
/-- The second window's array is row 1 of the edge list: the edges' targets. -/
theorem dst_row (k : Fin 3200000) :
    (pre m c (Proc.devRef .tc main_v29) : S1x3200000.Idx → BitVec 32) (ix2 (0 : Fin 1) k) = e (ix2 (1 : Fin 2) k) := by
  rw [pre_v29 m c e he]; exact edgeRow1_apply e k

include hx hp in
/-- The third window's array: row `c · 200 + h`, lane `l` holds feature `c` of node `h · 512 + l`. -/
theorem feat_hi (cc : Fin 4) (h : Fin 200) (l : Fin 512) :
    (pre m c (Proc.devRef .tc main_v20) : S800x512.Idx → EReal)
        (ix2 (⟨cc.val * 200 + h.val, by have := cc.isLt; have := h.isLt; omega⟩ : Fin 800) l)
      = feat x p cc.val (h.val * 512 + l.val) := by
  rw [pre_v20 m c x p hx hp]; exact hiArr_apply x p cc h l

include hx hp in
/-- The fourth window's array, the rounding remainders, is zero when every feature is a real number. -/
theorem feat_lo (hfin : AllFin x p) (i : S800x512.Idx) :
    (pre m c (Proc.devRef .tc main_v21) : S800x512.Idx → EReal) i = (0 : EReal) := by
  rw [pre_v21 m c x p hx hp]; exact loArr_apply x p hfin i

include hx in
/-- The padded potential column: slot `(h, l)` holds `x[h · 512 + l, 8]`, zero past the last node. -/
theorem phi_pad (h : Fin 200) (l : Fin 512) :
    (pre m c (Proc.devRef .tc main_v23) : S200x512.Idx → EReal) (ix2 h l)
      = if hn : h.val * 512 + l.val < 100000 then x (ix2 (⟨h.val * 512 + l.val, hn⟩ : Fin 100000) (8 : Fin 9)) else 0 := by
  rw [pre_v23 m c x hx]; exact phiArr_apply x h l

end Whole

end Cert.KernelIdeal.HostVal
-- ==== Proof.LibBlockSum.lean ====
/-
  A sum over n·b terms taken block by block, and an accumulator that adds one block's sum per step.

  Position t·b + r is the r-th term of block t. Over a commutative monoid the sum of all n·b terms is the sum over the
  blocks of each block's sum: this is only a re-indexing of the positions by (block, place in block). An accumulator
  that holds 0 + g 0 after step 0 and adds g (k+1) at step k+1 holds g 0 + … + g k after step k; with g t the sum of
  block t, after the last step it holds the sum of all terms.
-/
import Mathlib.Algebra.BigOperators.Fin
import Mathlib.Logic.Equiv.Fin.Basic

namespace Cert.BlockSum

open scoped BigOperators

variable {M : Type*} [AddCommMonoid M]

/-- Among `N = n * b` positions, the one of block `t` at place `r`: `t * b + r`. -/
def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

/-- The sum of all terms is the sum over the blocks of each block's sum. -/
theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

/-- An accumulator that holds `0 + g 0` after step 0 and adds `g (k + 1)` at step `k + 1` holds, after step `k`,
    the sum of `g 0, …, g k`. -/
theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

/-- After its last step the accumulator holds the sum of all the `g t`. -/
theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

/-- An accumulator that adds block `t`'s sum at step `t`, starting from `0`, holds after the last of the `n + 1`
    steps the sum of all `(n + 1) * b` terms. -/
theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.AccMath.lean ====
/-
  An accumulator over 2500 steps that restarts every 1250 steps.

  At a step that is 0 modulo 1250 it holds `0 + g` of that step; at every other step it holds what it held one step
  earlier plus `g` of the step. Then at the last step of each run of 1250 it holds the sum of `g` over that run.
-/
import proofs.«418611_j20246475833437_3_alg».proof.Proof.LibBlockSum

namespace Cert.EdgeForce

variable {M : Type*} [AddCommMonoid M]

/-- The restarting accumulator at the end of run `r` (step `r · 1250 + 1249`) holds the run's sum. -/
theorem restart_acc (a : (n : ℕ) → n < 2500 → M) (g : (n : ℕ) → n < 2500 → M)
    (h0 : ∀ n hn, n % 1250 = 0 → a n hn = 0 + g n hn)
    (hs : ∀ n (hn : n < 2500), n % 1250 ≠ 0 → a n hn = a (n - 1) (by omega) + g n hn)
    (r : ℕ) (hr : r < 2) :
    a (r * 1250 + 1249) (by omega) = ∑ s : Fin 1250, g (r * 1250 + s.val) (by have := s.isLt; omega) := by
  have key := Cert.BlockSum.chain_last 1249
    (fun k hk => a (r * 1250 + k) (by omega)) (fun k hk => g (r * 1250 + k) (by omega))
    (fun h => h0 _ _ (by omega))
    (fun k hk => by
      have e : r * 1250 + (k + 1) - 1 = r * 1250 + k := by omega
      have := hs (r * 1250 + (k + 1)) (by omega) (by omega)
      simp only [e] at this
      exact this)
  exact key

end Cert.EdgeForce
-- ==== Proof.KernelIdeal.Accumulate.lean ====
/-
  The accumulation over the grid. Each of the two cores walks 1250 grid points; at each point the body adds to the carried
  accumulator, per channel and node, the sum of the terms of the point's 1280 edges that arrive at the node. The accumulator
  is reset at the first point of a core's run, and at the last point the output block is a copy of it. So the output block
  written back for a core holds, per channel and node, the sum over the core's 1250 blocks of the specification's block sums.
-/
import proofs.«418611_j20246475833437_3_alg».proof.Proof.KernelIdeal.Frame
import proofs.«418611_j20246475833437_3_alg».proof.Proof.KernelIdeal.Blocks
import proofs.«418611_j20246475833437_3_alg».proof.Proof.KernelIdeal.Pieces
import proofs.«418611_j20246475833437_3_alg».proof.Proof.PointMath
import proofs.«418611_j20246475833437_3_alg».proof.Proof.HostPrefix
import proofs.«418611_j20246475833437_3_alg».proof.Proof.AccMath

set_option maxRecDepth 16384

noncomputable section

namespace Cert.KernelIdeal.Acc

open Cert.KernelIdeal Cert.KernelIdeal.Gen Cert.KernelIdeal.Fr Cert.EdgeForce Cert.KernelIdeal.PointMath
open Idealize.ShloMosaic Idealize.ShloMosaic.TcCoe Idealize.ShloMosaic.ValueIdx

variable (m : (ℓ : Loc nD τ sig) → Buf (Elt Ideal) ℓ) (c : Dev nD)

/-! ## The three argument arrays, and the four input blocks at a grid point -/

/-- The node array as launched. -/
abbrev argX : SX.Idx → EReal := m ((c : Thread nD τ).loc main_arg0)
/-- The position array as launched. -/
abbrev argP : SP.Idx → EReal := m ((c : Thread nD τ).loc main_arg1)
/-- The edge array as launched. -/
abbrev argE : SE.Idx → BitVec 32 := m ((c : Thread nD τ).loc main_arg2)

/-- The block of source node numbers at position `t`. -/
abbrev blk0 (t : Fin cfg0.N) : S1x1280.Idx → BitVec 32 := iblk m c 0 t
/-- The block of target node numbers at position `t`. -/
abbrev blk1 (t : Fin cfg0.N) : S1x1280.Idx → BitVec 32 := iblk m c 1 t
/-- The upper half of the feature table. -/
abbrev blk2 (t : Fin cfg0.N) : S800x512.Idx → EReal := iblk m c 2 t
/-- The lower half of the feature table. -/
abbrev blk3 (t : Fin cfg0.N) : S800x512.Idx → EReal := iblk m c 3 t

/-- Entry `q` of the source block is the source end of edge `1280 t + q`. -/
theorem blk0_apply (t : Fin cfg0.N) (q : Fin 1280) :
    blk0 m c t (ix2 (0 : Fin 1) q) = argE m c (ix2 (0 : Fin 2) (⟨t.val * 1280 + q.val, edge_lt t q⟩ : Fin 3200000)) :=
  (iblk0_apply m c t q).trans (HostVal.src_row m c (argE m c) rfl _)

/-- Entry `q` of the target block is the target end of edge `1280 t + q`. -/
theorem blk1_apply (t : Fin cfg0.N) (q : Fin 1280) :
    blk1 m c t (ix2 (0 : Fin 1) q) = argE m c (ix2 (1 : Fin 2) (⟨t.val * 1280 + q.val, edge_lt t q⟩ : Fin 3200000)) :=
  (iblk1_apply m c t q).trans (HostVal.dst_row m c (argE m c) rfl _)

section Points
variable (hfin : AllFin (argX m c) (argP m c)) (hin : InRange (argE m c))
include hfin hin

/-- What every grid point's gather reads. -/
theorem pointHyp (t : Fin cfg0.N) : PointHyp (argX m c) (argP m c) (blk0 m c t) (blk1 m c t) (blk2 m c t) (blk3 m c t) where
  tab := fun cc h l => by
    have e : blk2 m c t = V m c main_v20 := iblk2_eq m c t
    rw [e]
    exact HostVal.feat_hi m c (argX m c) (argP m c) rfl rfl cc h l
  lo := fun i => by
    have e : blk3 m c t = V m c main_v21 := iblk3_eq m c t
    rw [e]
    exact HostVal.feat_lo m c (argX m c) (argP m c) rfl rfl hfin i
  srcIn := fun i => by
    obtain ⟨u, q, rfl⟩ : ∃ (u : Fin 1) (q : Fin 1280), i = ix2 u q := ⟨i 0, i 1, eq_ix2 i⟩
    obtain rfl : u = 0 := Subsingleton.elim _ _
    rw [blk0_apply m c t q]
    exact hin _
  dstIn := fun i => by
    obtain ⟨u, q, rfl⟩ : ∃ (u : Fin 1) (q : Fin 1280), i = ix2 u q := ⟨i 0, i 1, eq_ix2 i⟩
    obtain rfl : u = 0 := Subsingleton.elim _ _
    rw [blk1_apply m c t q]
    exact hin _

omit hfin hin in
/-- The sum a grid point adds at a node is the specification's sum over that point's block of edges. -/
theorem point_sum (t : Fin cfg0.N) (j : Fin 4) (h : Fin 200) (l : Fin 512) :
    (∑ q : Fin 1280, if (blk1 m c t (ix2 (0 : Fin 1) q)).toNat = h.val * 512 + l.val
        then term (argX m c) (argP m c) j.val (blk0 m c t (ix2 (0 : Fin 1) q)).toNat (blk1 m c t (ix2 (0 : Fin 1) q)).toNat else 0)
      = blockSum (argX m c) (argP m c) (argE m c) j.val (h.val * 512 + l.val) ⟨t.val, pos_lt t⟩ := by
  unfold blockSum
  refine Finset.sum_congr rfl fun q _ => ?_
  rw [blk0_apply m c t q, blk1_apply m c t q]
  rfl

omit hfin hin in
/-- The accumulator after a point is the same whichever way the point's position is written. -/
theorem acc_congr {n n' : ℕ} (hn : n < cfg0.N) (hn' : n' < cfg0.N) (e : n = n') (y : S4x200x512.Idx) :
    ((outsAt0 m c n hn).2 : S4x200x512.Idx → EReal) y = ((outsAt0 m c n' hn').2 : S4x200x512.Idx → EReal) y := by
  subst e; rfl

/-- At the first point of a core's run the accumulator is reset, then gains the point's sums. -/
theorem scratch_first (t : Fin cfg0.N) (h0 : t.val % 1250 = 0) (j : Fin 4) (h : Fin 200) (l : Fin 512) :
    ((outsAt0 m c t.val t.isLt).2 : S4x200x512.Idx → EReal) (ix3 j h l)
      = 0 + blockSum (argX m c) (argP m c) (argE m c) j.val (h.val * 512 + l.val) ⟨t.val, pos_lt t⟩ := by
  have h1 : ¬t.val % 1250 = 1249 := by omega
  rw [outsAt0_A m c t h0 h1]
  dsimp only
  refine (sout_A_apply (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hh => h1 ((hcond0_1 t).mp hh))
    (blk0 m c t) (blk1 m c t) (blk2 m c t) (blk3 m c t) j h l).trans ?_
  refine (upd_apply (pointHyp m c hfin hin t) hfin j (rowOf j (k0_pay5 (F := Ideal))) h l).trans ?_
  refine congrArg₂ (· + ·) ?_ (point_sum m c t j h l)
  exact Ideal.ofBits_zero_f32

/-- At every other point it gains the point's sums over what the point before left. -/
theorem scratch_next (t : Fin cfg0.N) (h0 : t.val % 1250 ≠ 0) (j : Fin 4) (h : Fin 200) (l : Fin 512) :
    ((outsAt0 m c t.val t.isLt).2 : S4x200x512.Idx → EReal) (ix3 j h l)
      = ((outsAt0 m c (t.val - 1) (Nat.lt_of_le_of_lt (Nat.sub_le _ _) t.isLt)).2 : S4x200x512.Idx → EReal) (ix3 j h l)
        + blockSum (argX m c) (argP m c) (argE m c) j.val (h.val * 512 + l.val) ⟨t.val, pos_lt t⟩ := by
  by_cases h1 : t.val % 1250 = 1249
  · rw [outsAt0_C m c t h0 h1]
    dsimp only
    refine (sout_C_apply (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1)
      (blk0 m c t) (blk1 m c t) (blk2 m c t) (blk3 m c t)
      (outsAt0 m c (t.val - 1) (Nat.lt_of_le_of_lt (Nat.sub_le _ _) t.isLt)).2 j h l).trans ?_
    refine (upd_apply (pointHyp m c hfin hin t) hfin j
      (rowOf j ((outsAt0 m c (t.val - 1) (Nat.lt_of_le_of_lt (Nat.sub_le _ _) t.isLt)).2 : S4x200x512.Idx → EReal)) h l).trans ?_
    exact congrArg₂ (· + ·) rfl (point_sum m c t j h l)
  · rw [outsAt0_B m c t h0 h1]
    dsimp only
    refine (sout_B_apply (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh))
      (blk0 m c t) (blk1 m c t) (blk2 m c t) (blk3 m c t)
      (outsAt0 m c (t.val - 1) (Nat.lt_of_le_of_lt (Nat.sub_le _ _) t.isLt)).2 j h l).trans ?_
    refine (upd_apply (pointHyp m c hfin hin t) hfin j
      (rowOf j ((outsAt0 m c (t.val - 1) (Nat.lt_of_le_of_lt (Nat.sub_le _ _) t.isLt)).2 : S4x200x512.Idx → EReal)) h l).trans ?_
    exact congrArg₂ (· + ·) rfl (point_sum m c t j h l)

omit hfin hin in
/-- At the last point of a core's run the output block is the accumulator. -/
theorem out_last (t : Fin cfg0.N) (h1 : t.val % 1250 = 1249) (j : Fin 4) (h : Fin 200) (l : Fin 512) :
    ((outsAt0 m c t.val t.isLt).1 : S1x4x200x512.Idx → EReal) (ix4 (0 : Fin 1) j h l)
      = ((outsAt0 m c t.val t.isLt).2 : S4x200x512.Idx → EReal) (ix3 j h l) := by
  have h0 : ¬t.val % 1250 = 0 := by omega
  rw [outsAt0_C m c t h0 h1]
  dsimp only
  exact out_C_apply (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1)
    (blk0 m c t) (blk1 m c t) (blk2 m c t) (blk3 m c t)
    (outsAt0 m c (t.val - 1) (Nat.lt_of_le_of_lt (Nat.sub_le _ _) t.isLt)).2 j h l

/-- So at the last point of a core's run the output block holds, per channel and node, the sum of the run's 1250 block sums. -/
theorem out_closed (t : Fin cfg0.N) (h1 : t.val % 1250 = 1249) (j : Fin 4) (h : Fin 200) (l : Fin 512) :
    ((outsAt0 m c t.val t.isLt).1 : S1x4x200x512.Idx → EReal) (ix4 (0 : Fin 1) j h l)
      = ∑ s : Fin 1250, blockSum (argX m c) (argP m c) (argE m c) j.val (h.val * 512 + l.val)
          ⟨(t.val / 1250) * 1250 + s.val, by have := pos_lt t; have := s.isLt; omega⟩ := by
  have ht := pos_lt t
  have key := restart_acc (M := EReal)
    (fun n hn => ((outsAt0 m c n (lt_of_lt_of_eq hn N_0.symm)).2 : S4x200x512.Idx → EReal) (ix3 j h l))
    (fun n hn => blockSum (argX m c) (argP m c) (argE m c) j.val (h.val * 512 + l.val) ⟨n, hn⟩)
    (fun n hn hz => scratch_first m c hfin hin ⟨n, lt_of_lt_of_eq hn N_0.symm⟩ hz j h l)
    (fun n hn hnz => scratch_next m c hfin hin ⟨n, lt_of_lt_of_eq hn N_0.symm⟩ hnz j h l)
    (t.val / 1250) (by omega)
  refine (out_last m c t h1 j h l).trans ?_
  refine (acc_congr m c t.isLt (lt_of_lt_of_eq (by omega) N_0.symm) (show t.val = t.val / 1250 * 1250 + 1249 by omega) _).trans ?_
  exact key

end Points

end Cert.KernelIdeal.Acc

end
-- ==== Proof.KernelIdeal.Final.lean ====
/- The output array after the run, from what the body leaves in the output block at the two write-back points.
   The output window's block at grid point t = core * 1250 + step is the slab (core, all, all, all) of the
   [2, 4, 200, 512] array; it is written back only at step 1249, so two write-backs, one per core, tile the array.
   If at each of the two points the staged block equals slab (t / 1250) of one whole-array function G, the array
   ends holding G. -/
import proofs.«418611_j20246475833437_3_alg».proof.Proof.KernelIdeal.FrameKit
import Idealize.ShloMosaic.Lib.Pipeline.Value
import Idealize.ShloMosaic.Lib.ValueIdx

noncomputable section

namespace Cert.KernelIdeal.Acc

open Cert.KernelIdeal Cert.KernelIdeal.Gen Cert.KernelIdeal.Fr
open Idealize.ShloMosaic Idealize.ShloMosaic.TcCoe Idealize.ShloMosaic.ValueIdx
open Idealize.ShloMosaic.Pipeline (Dat)

/-- The core a grid point belongs to: its position divided by the 1250 inner steps. -/
abbrev coreOf (t : Fin cfg0.N) : Fin 2 := ⟨t.val / 1250, by have := pos_lt t; omega⟩

/-- The output window's block index at a point is (core, 0, 0, 0): decided over the 2500 points. -/
theorem out_index : ∀ t : Fin cfg0.N, win0_4.index t (0 : Fin 4) = t.val / 1250 ∧ win0_4.index t (1 : Fin 4) = 0
    ∧ win0_4.index t (2 : Fin 4) = 0 ∧ win0_4.index t (3 : Fin 4) = 0 :=
  (by decide +kernel : ∀ t : Fin grid0.N, win0_4.index t (0 : Fin 4) = t.val / 1250 ∧ win0_4.index t (1 : Fin 4) = 0
    ∧ win0_4.index t (2 : Fin 4) = 0 ∧ win0_4.index t (3 : Fin 4) = 0)

/-- An index of the array lies in the block at point t iff, axis by axis, it lies in the block's range. -/
theorem mem_out_blk (t : Fin cfg0.N) (i : S2x4x200x512.Idx) :
    i ∈ ((cfg0.win 4).blk t).view.set ↔ ∀ a : Fin 4, win0_4.index t a * S1x4x200x512.size a ≤ (i a).val
      ∧ (i a).val < win0_4.index t a * S1x4x200x512.size a + S1x4x200x512.size a := by
  show i ∈ ((View.whole main_v30).slice (win0_4.rect t)).set ↔ _
  rw [View.set_slice_whole, Rect.mem_set_unit]
  exact Iff.rfl

/-- What a write-back point writes is slab (t / 1250) of G, read through the block's view. -/
theorem flushed_eq {c : Dev nD} (dat : Dat τ (Elt Ideal) Unit ℕ (UR sig nD τ) ℕ cfg0 c) (G : S2x4x200x512.Idx → EReal)
    (hafter : ∀ (t : Fin cfg0.N) (ht : t.val % 1250 = 1249) (j : Fin 4) (h : Fin 200) (l : Fin 512),
        (dat.after 4 t : S1x4x200x512.Idx → EReal) (ix4 (0 : Fin 1) j h l) = G (ix4 (coreOf t) j h l))
    (t : Fin cfg0.N) (hf : (cfg0.win 4).flush t = true) :
    dat.flushed 4 t = ((cfg0.win 4).blk t).view.read (Elt Ideal) G := by
  have ht : t.val % 1250 = 1249 := (flush0_4 t).mp hf
  obtain ⟨e0, e1, e2, e3⟩ := out_index t
  funext y
  have hy0 : (y 0).val < 1 := (y 0).isLt
  have hy : (y : S1x4x200x512.Idx) = ix4 (0 : Fin 1) (y 1) (y 2) (y 3) := by
    refine (eq_ix4 (y : S1x4x200x512.Idx)).trans ?_
    congr 1
    exact Fin.ext (by show (y 0).val = 0; omega)
  show (dat.after 4 t : S1x4x200x512.Idx → EReal) y = G (((cfg0.win 4).blk t).view.emb y)
  refine (congrArg (dat.after 4 t : S1x4x200x512.Idx → EReal) hy).trans ((hafter t ht (y 1) (y 2) (y 3)).trans ?_)
  congr 1
  funext a
  apply Fin.ext
  match a with
  | ⟨0, _⟩ => show t.val / 1250 = win0_4.index t (0 : Fin 4) * 1 + 1 * (y 0).val; omega
  | ⟨1, _⟩ => show (y 1).val = win0_4.index t (1 : Fin 4) * 4 + 1 * (y 1).val; omega
  | ⟨2, _⟩ => show (y 2).val = win0_4.index t (2 : Fin 4) * 200 + 1 * (y 2).val; omega
  | ⟨3, _⟩ => show (y 3).val = win0_4.index t (3 : Fin 4) * 512 + 1 * (y 3).val; omega

/-- Every index of the array lies in the block of the write-back point of its own core. -/
theorem covered (i : S2x4x200x512.Idx) :
    ∃ t : Fin cfg0.N, (cfg0.win 4).flush t = true ∧ i ∈ ((cfg0.win 4).blk t).view.set := by
  have hi0 : (i 0).val < 2 := (i 0).isLt
  have hi1 : (i 1).val < 4 := (i 1).isLt
  have hi2 : (i 2).val < 200 := (i 2).isLt
  have hi3 : (i 3).val < 512 := (i 3).isLt
  obtain ⟨t, htv⟩ : ∃ t : Fin cfg0.N, t.val = (i 0).val * 1250 + 1249 :=
    ⟨⟨(i 0).val * 1250 + 1249, by rw [show cfg0.N = 2500 from N_0]; omega⟩, rfl⟩
  obtain ⟨e0, e1, e2, e3⟩ := out_index t
  refine ⟨t, (flush0_4 t).mpr (by omega), ?_⟩
  rw [mem_out_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 4 ≤ (i 1).val ∧ (i 1).val < win0_4.index t (1 : Fin 4) * 4 + 4; omega
  | ⟨2, _⟩ => show win0_4.index t (2 : Fin 4) * 200 ≤ (i 2).val ∧ (i 2).val < win0_4.index t (2 : Fin 4) * 200 + 200; omega
  | ⟨3, _⟩ => show win0_4.index t (3 : Fin 4) * 512 ≤ (i 3).val ∧ (i 3).val < win0_4.index t (3 : Fin 4) * 512 + 512; omega

/-- THE OUTPUT ARRAY AFTER THE RUN: if at each of the two write-back points the staged block is slab (t / 1250) of G,
    the array ends holding G (the two slabs tile it, and each is written once). -/
theorem final_of_after {c : Dev nD} (dat : Dat τ (Elt Ideal) Unit ℕ (UR sig nD τ) ℕ cfg0 c) (G : S2x4x200x512.Idx → EReal)
    (hafter : ∀ (t : Fin cfg0.N) (ht : t.val % 1250 = 1249) (j : Fin 4) (h : Fin 200) (l : Fin 512),
        (dat.after 4 t : S1x4x200x512.Idx → EReal) (ix4 (0 : Fin 1) j h l) = G (ix4 (coreOf t) j h l)) :
    dat.arrAt 4 cfg0.N = G :=
  dat.arrAt_eq_of_cover 4 G (flushed_eq dat G hafter) covered

end Cert.KernelIdeal.Acc

end
-- ==== Proof.HostTail.lean ====
/-
  The host operations after the kernel region, read at an index of the result.

  The region leaves a raw array of two halves (one per outer grid step), each of four channels over 200 × 512 node
  slots. The host adds the halves, clips the count channel below by one and takes its reciprocal, builds the interface
  mask from the padded potential column, multiplies the three gradient channels by the scale, the reciprocal and the
  mask, flattens the node slots (node n sits in slot (n / 512, n % 512)), drops the padding and transposes.
-/
import proofs.«418611_j20246475833437_3_alg».proof.Proof.Spec
import proofs.«418611_j20246475833437_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVal

open Idealize.ShloMosaic Idealize.ShloMosaic.ValueIdx Idealize.ShloMosaic.TcCoe
open Cert.KernelIdeal Cert.KernelIdeal.Gen Cert.EdgeForce

/-! ## The tail's arrays as functions of the raw output and the padded potential column -/

/-- The two halves of the raw output added: four channels over the node slots. -/
def halves (raw : FVec Ideal S2x4x200x512 .f32) : FVec Ideal S4x200x512 .f32 :=
  addf
    (shapeCast S4x200x512 (extractStridedSlice S1x4x200x512 ![0, 0, 0, 0] raw slices_S2x4x200x512_S1x4x200x512_0_0_0_0)
      shapeCasts_S1x4x200x512_S4x200x512)
    (shapeCast S4x200x512 (extractStridedSlice S1x4x200x512 ![1, 0, 0, 0] raw slices_S2x4x200x512_S1x4x200x512_1_0_0_0)
      shapeCasts_S1x4x200x512_S4x200x512)

/-- One over the count channel clipped below by one. -/
def recip (raw : FVec Ideal S2x4x200x512 .f32) : FVec Ideal S200x512 .f32 :=
  Host.divf (broadcastInDim S200x512 ![] bcast_S_S200x512 (constant (F := Ideal) S_ .f32 0x3F800000#32))
    (maximumf
      (shapeCast S200x512 (extractStridedSlice S1x200x512 ![3, 0, 0] (halves raw) slices_S4x200x512_S1x200x512_3_0_0)
        shapeCasts_S1x200x512_S200x512)
      (broadcastInDim S200x512 ![] bcast_S_S200x512 (constant (F := Ideal) S_ .f32 0x3F800000#32)))

/-- The interface mask over the node slots: one where the potential's magnitude is below the threshold. -/
def maskArr (phi : FVec Ideal S200x512 .f32) : FVec Ideal S200x512 .f32 :=
  uitofp .f32
    (cmpf .olt (Host.absf phi) (broadcastInDim S200x512 ![] bcast_S_S200x512 (constant (F := Ideal) S_ .f32 0x3E99999A#32)))

/-- The three gradient channels, scaled, times the reciprocal count, times the mask. -/
def scaled (raw : FVec Ideal S2x4x200x512 .f32) (phi : FVec Ideal S200x512 .f32) : FVec Ideal S3x200x512 .f32 :=
  mulf
    (mulf
      (mulf (broadcastInDim S3x200x512 ![] bcast_S_S3x200x512 (constant (F := Ideal) S_ .f32 0xB8D1B717#32))
        (extractStridedSlice S3x200x512 ![0, 0, 0] (halves raw) slices_S4x200x512_S3x200x512_0_0_0))
      (broadcastInDim S3x200x512 ![0, 1, 2] bcast_S1x200x512_S3x200x512_0_1_2
        (broadcastInDim S1x200x512 ![1, 2] bcast_S200x512_S1x200x512_1_2 (recip raw))))
    (broadcastInDim S3x200x512 ![0, 1, 2] bcast_S1x200x512_S3x200x512_0_1_2
      (broadcastInDim S1x200x512 ![1, 2] bcast_S200x512_S1x200x512_1_2 (maskArr phi)))

/-- The result array: the slots flattened, the padding dropped, nodes first. -/
def tailArr (raw : FVec Ideal S2x4x200x512 .f32) (phi : FVec Ideal S200x512 .f32) : FVec Ideal S100000x3 .f32 :=
  transpose S100000x3 [1, 0]
    (extractStridedSlice S3x100000 ![0, 0]
      (shapeCast S3x102400 (scaled raw phi) shapeCasts_S3x200x512_S3x102400) slices_S3x102400_S3x100000_0_0)
    transposes_S3x100000_S100000x3_1_0

/-- What the tail leaves in its last array, as that function of the two arrays it reads. -/
theorem tail_term (W : Valuation τ sig (Elt Ideal)) :
    (StableHlo.after (hostOps1 (F := Ideal)) W (Proc.devRef .tc main_v57) : S100000x3.Idx → EReal)
      = tailArr (W (Proc.devRef .tc main_v30)) (W (Proc.devRef .tc main_v23)) := by
  after_results_simp
  rfl

/-! ## The arrays at an index -/

/-- Half `b` of the raw output, its unit axis dropped, at a channel and a slot. -/
theorem half_apply (raw : S2x4x200x512.Idx → EReal) (b : Fin 2) (hs : S2x4x200x512.Slices ![b.val, 0, 0, 0] S1x4x200x512)
    (ch : Fin 4) (h : Fin 200) (l : Fin 512) :
    shapeCast S4x200x512 (extractStridedSlice S1x4x200x512 ![b.val, 0, 0, 0] raw hs) shapeCasts_S1x4x200x512_S4x200x512
      (ix3 ch h l) = raw (ix4 b ch h l) := by
  refine (shapeCast_apply _ shapeCasts_S1x4x200x512_S4x200x512 (ix3 ch h l) (ix4 (0 : Fin 1) ch h l)
      (by rw [Shape.rowMajor_val_four, Shape.rowMajor_val_three]
          show ((0 * 4 + ch.val) * 200 + h.val) * 512 + l.val = (ch.val * 200 + h.val) * 512 + l.val
          omega)).trans ?_
  exact extractStridedSlice_apply ![b.val, 0, 0, 0] raw hs (ix4 (0 : Fin 1) ch h l) (ix4 b ch h l)
    (fun a => match a with
      | ⟨0, _⟩ => by show b.val = b.val + 0; omega
      | ⟨1, _⟩ => by show ch.val = 0 + ch.val; omega
      | ⟨2, _⟩ => by show h.val = 0 + h.val; omega
      | ⟨3, _⟩ => by show l.val = 0 + l.val; omega)

/-- The added halves at a channel and a slot. -/
theorem halves_apply (raw : S2x4x200x512.Idx → EReal) (ch : Fin 4) (h : Fin 200) (l : Fin 512) :
    halves raw (ix3 ch h l) = raw (ix4 (0 : Fin 2) ch h l) + raw (ix4 (1 : Fin 2) ch h l) := by
  unfold halves
  rw [addf_apply]
  exact congrArg₂ (· + ·) (half_apply raw (0 : Fin 2) slices_S2x4x200x512_S1x4x200x512_0_0_0_0 ch h l)
    (half_apply raw (1 : Fin 2) slices_S2x4x200x512_S1x4x200x512_1_0_0_0 ch h l)

/-- The reciprocal of the clipped count at a slot. -/
theorem recip_apply (raw : S2x4x200x512.Idx → EReal) (h : Fin 200) (l : Fin 512) :
    recip raw (ix2 h l)
      = Ideal.div one (max (raw (ix4 (0 : Fin 2) (3 : Fin 4) h l) + raw (ix4 (1 : Fin 2) (3 : Fin 4) h l)) one) := by
  unfold recip
  show Ideal.div one (max (shapeCast S200x512 (extractStridedSlice S1x200x512 ![3, 0, 0] (halves raw)
    slices_S4x200x512_S1x200x512_3_0_0) shapeCasts_S1x200x512_S200x512 (ix2 h l)) one) = _
  rw [shapeCast_apply _ shapeCasts_S1x200x512_S200x512 (ix2 h l) (ix3 (0 : Fin 1) h l)
      (by rw [Shape.rowMajor_val_three, Shape.rowMajor_val_two]
          show (0 * 200 + h.val) * 512 + l.val = h.val * 512 + l.val
          omega),
    extractStridedSlice_apply ![3, 0, 0] (halves raw) slices_S4x200x512_S1x200x512_3_0_0 (ix3 (0 : Fin 1) h l)
      (ix3 (3 : Fin 4) h l) (fun a => match a with
        | ⟨0, _⟩ => by show 3 = 3 + 0; omega
        | ⟨1, _⟩ => by show h.val = 0 + h.val; omega
        | ⟨2, _⟩ => by show l.val = 0 + l.val; omega),
    halves_apply]

/-- The mask at a slot. -/
theorem maskArr_apply (phi : S200x512.Idx → EReal) (h : Fin 200) (l : Fin 512) :
    maskArr phi (ix2 h l)
      = FloatOps.uitofp (F := Ideal) .f32
          (FloatOps.cmpf (F := Ideal) (φ := .f32) .olt (FloatOps.absf (F := Ideal) (φ := .f32) (phi (ix2 h l))) thresh) := rfl

/-- A slot array broadcast over a new leading axis and then over the three channels, at a channel and a slot. -/
theorem bcast_slot (v : S200x512.Idx → EReal) (j : Fin 3) (h : Fin 200) (l : Fin 512) :
    broadcastInDim S3x200x512 ![0, 1, 2] bcast_S1x200x512_S3x200x512_0_1_2
      (broadcastInDim S1x200x512 ![1, 2] bcast_S200x512_S1x200x512_1_2 v) (ix3 j h l) = v (ix2 h l) := by
  refine (broadcastInDim_apply ![0, 1, 2] bcast_S1x200x512_S3x200x512_0_1_2 _ (ix3 j h l) (ix3 (0 : Fin 1) h l)
    (fun a => match a with | ⟨0, _⟩ => rfl | ⟨1, _⟩ => rfl | ⟨2, _⟩ => rfl)).trans ?_
  exact broadcastInDim_apply ![1, 2] bcast_S200x512_S1x200x512_1_2 v (ix3 (0 : Fin 1) h l) (ix2 h l)
    (fun a => match a with | ⟨0, _⟩ => rfl | ⟨1, _⟩ => rfl)

/-- The scale's word broadcast over the channels and slots is the scale everywhere. -/
theorem bcast_scale (i : S3x200x512.Idx) :
    broadcastInDim S3x200x512 ![] bcast_S_S3x200x512 (constant (F := Ideal) S_ .f32 0xB8D1B717#32) i = scale := rfl

/-- The scaled, normalised, masked channels at a channel and a slot. -/
theorem scaled_apply (raw : S2x4x200x512.Idx → EReal) (phi : S200x512.Idx → EReal) (j : Fin 3) (h : Fin 200) (l : Fin 512) :
    scaled raw phi (ix3 j h l)
      = ((scale * (raw (ix4 (0 : Fin 2) ⟨j.val, by omega⟩ h l) + raw (ix4 (1 : Fin 2) ⟨j.val, by omega⟩ h l)))
          * recip raw (ix2 h l)) * maskArr phi (ix2 h l) := by
  unfold scaled
  rw [mulf_apply, mulf_apply, mulf_apply, bcast_slot, bcast_slot, bcast_scale,
    extractStridedSlice_apply ![0, 0, 0] (halves raw) slices_S4x200x512_S3x200x512_0_0_0 (ix3 j h l)
      (ix3 (⟨j.val, by omega⟩ : Fin 4) h l) (fun a => match a with
        | ⟨0, _⟩ => by show j.val = 0 + j.val; omega
        | ⟨1, _⟩ => by show h.val = 0 + h.val; omega
        | ⟨2, _⟩ => by show l.val = 0 + l.val; omega),
    halves_apply]

/-- **The tail at an index**: node `n`, coordinate `j` of the result is the scaled sum of the two halves of channel `j` at the
    node's slot `(n / 512, n % 512)`, times the reciprocal of the clipped count there, times the mask of the padded potential
    there. `raw` and `phi` are the two arrays the tail reads, named at their literal types. -/
theorem tail_value (W : Valuation τ sig (Elt Ideal)) (raw : S2x4x200x512.Idx → EReal) (phi : S200x512.Idx → EReal)
    (hraw : W (Proc.devRef .tc main_v30) = raw) (hphi : W (Proc.devRef .tc main_v23) = phi) (n : Fin 100000) (j : Fin 3) :
    (StableHlo.after (hostOps1 (F := Ideal)) W (Proc.devRef .tc main_v57) : S100000x3.Idx → EReal) (ix2 n j)
      = ((scale * (raw (ix4 (0 : Fin 2) (⟨j.val, by omega⟩ : Fin 4) (⟨n.val / 512, by omega⟩ : Fin 200) (⟨n.val % 512, Nat.mod_lt _ (by omega)⟩ : Fin 512))
            + raw (ix4 (1 : Fin 2) (⟨j.val, by omega⟩ : Fin 4) (⟨n.val / 512, by omega⟩ : Fin 200) (⟨n.val % 512, Nat.mod_lt _ (by omega)⟩ : Fin 512))))
          * Ideal.div one (max (raw (ix4 (0 : Fin 2) (3 : Fin 4) (⟨n.val / 512, by omega⟩ : Fin 200) (⟨n.val % 512, Nat.mod_lt _ (by omega)⟩ : Fin 512))
              + raw (ix4 (1 : Fin 2) (3 : Fin 4) (⟨n.val / 512, by omega⟩ : Fin 200) (⟨n.val % 512, Nat.mod_lt _ (by omega)⟩ : Fin 512))) one))
        * FloatOps.uitofp (F := Ideal) .f32 (FloatOps.cmpf (F := Ideal) (φ := .f32) .olt
            (FloatOps.absf (F := Ideal) (φ := .f32) (phi (ix2 (⟨n.val / 512, by omega⟩ : Fin 200) (⟨n.val % 512, Nat.mod_lt _ (by omega)⟩ : Fin 512)))) thresh) := by
  have hn := n.isLt
  rw [tail_term W, hraw, hphi]
  unfold tailArr
  rw [transpose_apply [1, 0] _ transposes_S3x100000_S100000x3_1_0 (ix2 n j) (ix2 j n)
      (fun b => match b with | ⟨0, _⟩ => rfl | ⟨1, _⟩ => rfl),
    extractStridedSlice_apply ![0, 0] _ slices_S3x102400_S3x100000_0_0 (ix2 j n)
      (ix2 j (⟨n.val, by omega⟩ : Fin 102400)) (fun a => match a with
        | ⟨0, _⟩ => by show j.val = 0 + j.val; omega
        | ⟨1, _⟩ => by show n.val = 0 + n.val; omega),
    shapeCast_apply (scaled raw phi) shapeCasts_S3x200x512_S3x102400 (ix2 j (⟨n.val, by omega⟩ : Fin 102400))
      (ix3 j (⟨n.val / 512, by omega⟩ : Fin 200) (⟨n.val % 512, Nat.mod_lt _ (by omega)⟩ : Fin 512))
      (by rw [Shape.rowMajor_val_three, Shape.rowMajor_val_two]
          show (j.val * 200 + n.val / 512) * 512 + n.val % 512 = j.val * 102400 + n.val
          omega),
    scaled_apply, recip_apply, maskArr_apply]

/-! ## What the tail keeps -/

/-- The references the tail's operations write. -/
def tailWrites : List (Ref sig .tc) :=
  [main_v31, main_v32, main_v33, main_v34, main_v35, main_v36, main_v37, main_cst, main_v38, main_v39, main_cst_1, main_v40,
   main_v41, main_v42, main_cst_2, main_v43, main_v44, main_v45, main_v46, main_cst_3, main_v47, main_v48, main_v49, main_v50,
   main_v51, main_v52, main_v53, main_v54, main_v55, main_v56, main_v57]

theorem tail_writes_sub :
    (hostOps1 (F := Ideal)).Forall fun op => op.writes ⊆ (tailWrites.map (Proc.devRef (τ := τ) .tc)).toFinset := by
  simp only [hostOps1, List.Forall, StableHlo.nullary_writes, StableHlo.unary_writes, StableHlo.binary_writes,
    StableHlo.reshape_writes, tailWrites]
  decide

/-- The tail leaves the three arguments as they were. -/
theorem tail_arg0 (W : Valuation τ sig (Elt Ideal)) :
    StableHlo.after (hostOps1 (F := Ideal)) W (Proc.devRef .tc main_arg0) = W (Proc.devRef .tc main_arg0) :=
  StableHlo.after_of_writes_sub _ W tail_writes_sub (by decide)
theorem tail_arg1 (W : Valuation τ sig (Elt Ideal)) :
    StableHlo.after (hostOps1 (F := Ideal)) W (Proc.devRef .tc main_arg1) = W (Proc.devRef .tc main_arg1) :=
  StableHlo.after_of_writes_sub _ W tail_writes_sub (by decide)
theorem tail_arg2 (W : Valuation τ sig (Elt Ideal)) :
    StableHlo.after (hostOps1 (F := Ideal)) W (Proc.devRef .tc main_arg2) = W (Proc.devRef .tc main_arg2) :=
  StableHlo.after_of_writes_sub _ W tail_writes_sub (by decide)

end Cert.KernelIdeal.HostVal
-- ==== Proof.KernelIdeal.Result.lean ====
/-
  The kernel program's result array from the region's raw output.

  After the run every buffer that bypasses the region holds what the host lines after the region compute from the
  region's exit contents: the windows' arrays at what the write-backs left, every other buffer at its region-entry
  contents. The result `main_v57` at node `n`, coordinate `j` is therefore the tail's arithmetic of the raw output
  array (the two cores' slots added) and of the padded interface field as the region found it.
-/
import proofs.«418611_j20246475833437_3_alg».proof.Proof.HostTail
import proofs.«418611_j20246475833437_3_alg».proof.Proof.KernelIdeal.FrameKit

noncomputable section

namespace Cert.KernelIdeal.Acc

open Cert.KernelIdeal Cert.KernelIdeal.Gen Cert.KernelIdeal.Fr Cert.EdgeForce
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result at `(n, j)` from the raw output array `raw` (what the write-backs left in `main_v30`) and the padded
    interface field as the region found it. -/
theorem result_apply (dats : (q : Fin 1) → (c : Dev nD) → Dat τ (Elt Ideal) Unit ℕ (UR sig nD τ) ℕ (cfgs q) c) (c : Dev nD)
    (raw : S2x4x200x512.Idx → EReal) (hraw : (dats 0 c).arrAt 4 cfg0.N = raw) (n : Fin 100000) (j : Fin 3) :
    (Pipeline.afterTail₀ cfgs dats 0 (V0 m) [hostOps1] c main_v57 : S100000x3.Idx → EReal) (ix2 n j)
      = ((scale * (raw (ix4 (0 : Fin 2) (⟨j.val, by have := j.isLt; omega⟩ : Fin 4) (⟨n.val / 512, by have := n.isLt; omega⟩ : Fin 200) (⟨n.val % 512, Nat.mod_lt _ (by norm_num)⟩ : Fin 512))
            + raw (ix4 (1 : Fin 2) (⟨j.val, by have := j.isLt; omega⟩ : Fin 4) (⟨n.val / 512, by have := n.isLt; omega⟩ : Fin 200) (⟨n.val % 512, Nat.mod_lt _ (by norm_num)⟩ : Fin 512))))
          * Ideal.div one (max (raw (ix4 (0 : Fin 2) (3 : Fin 4) (⟨n.val / 512, by have := n.isLt; omega⟩ : Fin 200) (⟨n.val % 512, Nat.mod_lt _ (by norm_num)⟩ : Fin 512))
            + raw (ix4 (1 : Fin 2) (3 : Fin 4) (⟨n.val / 512, by have := n.isLt; omega⟩ : Fin 200) (⟨n.val % 512, Nat.mod_lt _ (by norm_num)⟩ : Fin 512))) one))
        * FloatOps.uitofp (F := Ideal) .f32 (FloatOps.cmpf (F := Ideal) (φ := .f32) .olt
            (FloatOps.absf (F := Ideal) (φ := .f32) ((V m c main_v23 : S200x512.Idx → EReal) (ix2 (⟨n.val / 512, by have := n.isLt; omega⟩ : Fin 200) (⟨n.val % 512, Nat.mod_lt _ (by norm_num)⟩ : Fin 512)))) thresh) := by
  unfold Pipeline.afterTail₀
  rw [List.flatten_cons, List.flatten_nil, List.append_nil]
  exact Cert.KernelIdeal.HostVal.tail_value _ raw _
    ((Pipeline.withArrays_arr spec0 launch0.win.arr_inj c _ _ 4).trans hraw)
    (Pipeline.withArrays_of_ne spec0 c (V0 m c) _ main_v23 (by decide)) n j

end Cert.KernelIdeal.Acc

end
-- ==== Proof.SpecLaws.lean ====
/-
  Two laws about the specification.

  The count of a node is a finite sum of ones and zeros, so it is a real number, and the larger of it and one is a
  nonzero real `r`. Dividing by `r` is multiplying by `1 / r`, and multiplication of extended reals is associative:
  `(a · S) · (1 · (1/r)) = a · (S · (1/r))`. Hence the kernel's arrangement of the result is the reference's.

  The sum over all 3200000 edges is the sum over the 2500 blocks of 1280 edges of each block's sum, and the blocks
  split into the first 1250 and the last 1250: a re-indexing of a finite sum in a commutative monoid.
-/
import proofs.«418611_j20246475833437_3_alg».proof.Proof.SpecConsts
import proofs.«418611_j20246475833437_3_alg».proof.Proof.LibBlockSum

noncomputable section

namespace Cert.EdgeForce

open Idealize.ShloMosaic Idealize.ShloMosaic.ValueIdx Cert.ExtReal

variable (x : SX.Idx → EReal) (p : SP.Idx → EReal) (e : SE.Idx → BitVec 32)

/-- The count channel adds one per edge. -/
theorem term_count (s d : ℕ) : term x p 3 s d = 1 := by
  show one = 1
  exact one_eq

/-- The count of a node is a real number. -/
theorem count_fin (n : ℕ) : IsFin (nodeSum x p e 3 n) := by
  unfold nodeSum
  refine IsFin.sum _ _ fun k _ => ?_
  split
  · rw [term_count]; exact IsFin.one
  · exact IsFin.zero

/-- The kernel's arrangement of the result is the reference's. -/
theorem kernelForm_eq_refForm : kernelForm x p e = refForm x p e := by
  funext i
  unfold kernelForm refForm
  rw [one_eq]
  obtain ⟨r, hr⟩ : IsFin (max (nodeSum x p e 3 (i 0).val) 1) := (count_fin x p e _).max IsFin.one
  have hr0 : r ≠ 0 := fun h => max_one_ne_zero (nodeSum x p e 3 (i 0).val) (by rw [hr, h]; rfl)
  rw [hr, Ideal.div_coe hr0, Ideal.div_coe hr0, one_mul, mul_assoc scale]

/-- A sum over the 2500 blocks is the sum over the first 1250 plus the sum over the last 1250. -/
theorem sum_two_cores {M : Type*} [AddCommMonoid M] (f : Fin 2500 → M) :
    ∑ b : Fin 2500, f b
      = (∑ t : Fin 1250, f ⟨t.val, by have := t.isLt; omega⟩) + ∑ t : Fin 1250, f ⟨1250 + t.val, by have := t.isLt; omega⟩ := by
  rw [Cert.BlockSum.sum_blocks 2 1250 (by norm_num) f, Fin.sum_univ_two]
  congr 1 <;> refine Finset.sum_congr rfl fun r _ => congrArg f (Fin.ext ?_) <;> simp [Cert.BlockSum.pos]

/-- The sum over the edges arriving at a node, taken block by block. -/
theorem nodeSum_blocks (j n : ℕ) : nodeSum x p e j n = ∑ b : Fin 2500, blockSum x p e j n b := by
  unfold nodeSum blockSum
  rw [Cert.BlockSum.sum_blocks 2500 1280 (by norm_num)]
  rfl

/-- The sum over the edges arriving at a node: the first core's 1250 blocks, then the second's. -/
theorem nodeSum_cores (j n : ℕ) :
    nodeSum x p e j n
      = (∑ t : Fin 1250, blockSum x p e j n ⟨t.val, by have := t.isLt; omega⟩)
        + ∑ t : Fin 1250, blockSum x p e j n ⟨1250 + t.val, by have := t.isLt; omega⟩ := by
  rw [nodeSum_blocks, sum_two_cores]

end Cert.EdgeForce

end
-- ==== Proof.KernelIdeal.KernelValue.lean ====
/-
  The idealized kernel program's result is the specification's `kernelForm`.

  After the run the raw output array holds, in core `r`'s slot at (channel, h, l), the sum over that core's 1250
  blocks of the block sums for node `h · 512 + l` (the accumulator's closed form at the two write-back points, which
  tile the array). The host lines after the region add the two cores' slots — the sum over all 2500 blocks, that is over
  all edges arriving at the node —, scale it, multiply by the reciprocal of the clipped count and by the mask of the
  padded interface field, which at a node number below 100000 is the field itself.
-/
import proofs.«418611_j20246475833437_3_alg».proof.Proof.KernelIdeal.Accumulate
import proofs.«418611_j20246475833437_3_alg».proof.Proof.KernelIdeal.Final
import proofs.«418611_j20246475833437_3_alg».proof.Proof.KernelIdeal.Result
import proofs.«418611_j20246475833437_3_alg».proof.Proof.HostPrefix
import proofs.«418611_j20246475833437_3_alg».proof.Proof.SpecLaws

noncomputable section

namespace Cert.KernelIdeal.Acc

open Cert.KernelIdeal Cert.KernelIdeal.Gen Cert.KernelIdeal.Fr Cert.EdgeForce
open Idealize.ShloMosaic Idealize.ShloMosaic.TcCoe Idealize.ShloMosaic.ValueIdx Idealize.SL.Sem

variable (m : (ℓ : Loc nD τ sig) → Buf (Elt Ideal) ℓ) (c : Dev nD)

/-- The raw output array: slot `r`, channel `j`, place `(h, l)` holds the sum over core `r`'s 1250 blocks of the
    block sums of channel `j` for node `h · 512 + l`. -/
def Raw : S2x4x200x512.Idx → EReal := fun i =>
  ∑ s : Fin 1250, blockSum (argX m c) (argP m c) (argE m c) (i 1).val ((i 2).val * 512 + (i 3).val)
    ⟨(i 0).val * 1250 + s.val, by have h0 : (i 0).val < 2 := (i 0).isLt; have := s.isLt; omega⟩

variable (hfin : AllFin (argX m c) (argP m c)) (hin : InRange (argE m c))
include hfin hin

/-- After the run the output array is `Raw`. -/
theorem final4 : (dats m 0 c).arrAt 4 cfg0.N = Raw m c :=
  final_of_after (dats m 0 c) (Raw m c) fun t ht j h l => by
    rw [after0_4]
    exact out_closed m c hfin hin t ht j h l

/-- The two cores' slots of a node add up to the sum over all edges arriving at it. -/
theorem raw_add (jj : ℕ) (hjj : jj < 4) (n : Fin 100000) :
    Raw m c (ix4 (0 : Fin 2) (⟨jj, hjj⟩ : Fin 4) (⟨n.val / 512, by have := n.isLt; omega⟩ : Fin 200) (⟨n.val % 512, Nat.mod_lt _ (by norm_num)⟩ : Fin 512))
      + Raw m c (ix4 (1 : Fin 2) (⟨jj, hjj⟩ : Fin 4) (⟨n.val / 512, by have := n.isLt; omega⟩ : Fin 200) (⟨n.val % 512, Nat.mod_lt _ (by norm_num)⟩ : Fin 512))
      = nodeSum (argX m c) (argP m c) (argE m c) jj n.val := by
  have hn : n.val / 512 * 512 + n.val % 512 = n.val := Nat.div_add_mod' _ _
  rw [nodeSum_cores]
  unfold Raw
  congr 1 <;> refine Finset.sum_congr rfl fun s _ => ?_
  · show blockSum _ _ _ jj (n.val / 512 * 512 + n.val % 512) ⟨0 * 1250 + s.val, _⟩ = _
    simp only [hn, Nat.zero_mul, Nat.zero_add]
  · show blockSum _ _ _ jj (n.val / 512 * 512 + n.val % 512) ⟨1 * 1250 + s.val, _⟩ = _
    simp only [hn, Nat.one_mul]

/-- The result at node `n`, coordinate `j`, is the specification's kernel form. -/
theorem kernel_value (n : Fin 100000) (j : Fin 3) :
    (Pipeline.afterTail₀ cfgs (dats m) 0 (V0 m) [hostOps1] c main_v57 : S100000x3.Idx → EReal) (ix2 n j)
      = kernelForm (argX m c) (argP m c) (argE m c) (ix2 n j) := by
  have hn : n.val / 512 * 512 + n.val % 512 = n.val := Nat.div_add_mod' _ _
  have hlt : n.val / 512 * 512 + n.val % 512 < 100000 := by rw [hn]; exact n.isLt
  rw [result_apply m (dats m) c (Raw m c) (final4 m c hfin hin) n j,
    raw_add m c hfin hin j.val (by have := j.isLt; omega) n]
  have h3 : Raw m c (ix4 (0 : Fin 2) (3 : Fin 4) (⟨n.val / 512, by have := n.isLt; omega⟩ : Fin 200) (⟨n.val % 512, Nat.mod_lt _ (by norm_num)⟩ : Fin 512))
      + Raw m c (ix4 (1 : Fin 2) (3 : Fin 4) (⟨n.val / 512, by have := n.isLt; omega⟩ : Fin 200) (⟨n.val % 512, Nat.mod_lt _ (by norm_num)⟩ : Fin 512))
      = nodeSum (argX m c) (argP m c) (argE m c) 3 n.val := raw_add m c hfin hin 3 (by norm_num) n
  rw [h3]
  have hphi := Cert.KernelIdeal.HostVal.phi_pad m c (argX m c) rfl (⟨n.val / 512, by have := n.isLt; omega⟩ : Fin 200) (⟨n.val % 512, Nat.mod_lt _ (by norm_num)⟩ : Fin 512)
  rw [show (V m c main_v23 : S200x512.Idx → EReal) = Cert.KernelIdeal.HostVal.pre m c (Proc.devRef .tc main_v23) from rfl, hphi, dif_pos hlt]
  unfold kernelForm mask
  congr 4
  exact congrArg (fun k : Fin 100000 => argX m c (ix2 k (8 : Fin 9))) (Fin.ext hn)

/-- The result array is the reference form of the specification. -/
theorem kernel_result :
    (Pipeline.afterTail₀ cfgs (dats m) 0 (V0 m) [hostOps1] c main_v57 : S100000x3.Idx → EReal)
      = refForm (argX m c) (argP m c) (argE m c) := by
  rw [← kernelForm_eq_refForm]
  funext i
  obtain ⟨n, j, rfl⟩ : ∃ (n : Fin 100000) (j : Fin 3), i = ix2 n j := ⟨i 0, i 1, eq_ix2 i⟩
  exact kernel_value m c hfin hin n j

end Cert.KernelIdeal.Acc

end
-- ==== Proof.RefGather.lean ====
/-
  A gather of whole rows by one column of start indices, read at an index.

  For an operand [M] (or [M, C]), start indices [N, 1] and a result [N] (or [N, C]) with the operand's first axis
  collapsed and named by the start index map, result element k (or (k, c)) is the operand at row
  min (signed value of idx[k, 0]) (M - 1), the clamped start (column c unchanged). When the index word is below M as a
  natural number the signed value is that number and the clamp is the identity; the wrap of a negative index
  (index + M where index < 0) is then the identity too.
-/
import Idealize.ShloMosaic.PureOps.ShapeOps
import Idealize.ShloMosaic.Lib.ValueIdx

noncomputable section

namespace Cert.EdgeForce.Ref

open Idealize.ShloMosaic Idealize.ShloMosaic.ValueIdx

/-! ## Index words below the row count -/

/-- A 32-bit word below 2 ^ 31 as a natural number has that number as its signed value. -/
theorem toInt_of_lt {w : BitVec 32} {M : Nat} (hM : M ≤ 2 ^ 31) (h : w.toNat < M) : w.toInt = (w.toNat : ℤ) := by
  rw [BitVec.toInt_eq_toNat_cond, if_pos (by omega)]

/-- Such a word is not negative, so the wrap "index + M where index < 0" leaves it as it is. -/
theorem wrap_of_lt {w m : BitVec 32} {M : Nat} (hM : M ≤ 2 ^ 31) (h : w.toNat < M) :
    Scalar.select (IntOp.cmpi .slt w 0#32) (IntOp.addi w m) w = w := by
  have hs : IntOp.cmpi .slt w 0#32 = 0#1 := by
    show BitVec.ofBool (w.slt 0#32) = 0#1
    have : w.slt 0#32 = false := by
      rw [BitVec.slt, toInt_of_lt hM h]
      simp
    rw [this]; rfl
  rw [hs, select_zero]

/-- The clamp into [0, M - 1] of the signed value of such a word is the word's number. -/
theorem clamp_of_lt {w : BitVec 32} {M : Nat} (hM : M ≤ 2 ^ 31) (h : w.toNat < M) :
    min w.toInt.toNat (M - 1) = w.toNat := by
  rw [toInt_of_lt hM h, Int.toNat_natCast]
  omega

/-! ## Operand [M], start indices [N, 1], result [N] -/

section Rank1
variable {α : Type} {M N : Nat} (d : GatherDims ⟨1, ![M]⟩ ⟨2, ![N, 1]⟩ ⟨1, ![N]⟩)

/-- Result element k is the operand at the clamped signed value of idx[k, 0]. -/
theorem gather_rows1_apply (h1 : d.offsetDims = []) (h2 : d.collapsedSliceDims = [0]) (h3 : d.operandBatchingDims = [])
    (h4 : d.startIndexMap = [0]) (h5 : d.indexVectorDim = 1) (h6 : d.sliceSizes = ![1]) (hM : 0 < M)
    {w : Nat} (x : (⟨1, ![M]⟩ : Shape).Idx → α) (idx : IVec ⟨2, ![N, 1]⟩ w) (k : Fin N) :
    Host.gather d x idx (ix1 k) = x (ix1 ⟨min (idx (ix2 k 0)).toInt.toNat (M - 1), by omega⟩) := by
  obtain ⟨od, cd, ob, sb, sm, iv, ss, wf⟩ := d
  simp only at h1 h2 h3 h4 h5 h6
  subst h1 h2 h3 h4 h5 h6
  unfold Host.gather
  congr 1
  funext a
  obtain rfl : a = 0 := Subsingleton.elim _ _
  refine Fin.ext ?_
  show GatherDims.start _ (ix1 k) idx 0 + GatherDims.batchCoord _ (ix1 k) 0 + GatherDims.offCoord _ (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg₂ min (congrArg (fun z => (idx z).toInt.toNat) ?_) rfl
  funext b
  refine Fin.ext ?_
  match b with
  | ⟨0, _⟩ => rfl
  | ⟨1, _⟩ => rfl

end Rank1

/-! ## Operand [M, C], start indices [N, 1], result [N, C]: whole rows -/

section Rank2
variable {α : Type} {M C N : Nat} (d : GatherDims ⟨2, ![M, C]⟩ ⟨2, ![N, 1]⟩ ⟨2, ![N, C]⟩)

/-- On the row axis the operand index is the clamped signed value of idx[k, 0]. -/
theorem gather_rows2_axis0 (h1 : d.offsetDims = [1]) (h2 : d.collapsedSliceDims = [0]) (h3 : d.operandBatchingDims = [])
    (h4 : d.startIndexMap = [0]) (h5 : d.indexVectorDim = 1) (h6 : d.sliceSizes = ![1, C])
    {w : Nat} (idx : IVec ⟨2, ![N, 1]⟩ w) (k : Fin N) (c : Fin C) :
    (d.operandIdx (ix2 k c) idx 0).val = min (idx (ix2 k 0)).toInt.toNat (M - 1) := by
  obtain ⟨od, cd, ob, sb, sm, iv, ss, wf⟩ := d
  simp only at h1 h2 h3 h4 h5 h6
  subst h1 h2 h3 h4 h5 h6
  show GatherDims.start _ (ix2 k c) idx 0 + GatherDims.batchCoord _ (ix2 k c) 0 + GatherDims.offCoord _ (ix2 k c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg₂ min (congrArg (fun z => (idx z).toInt.toNat) ?_) rfl
  funext b
  refine Fin.ext ?_
  match b with
  | ⟨0, _⟩ => rfl
  | ⟨1, _⟩ => rfl

/-- On the column axis the operand index is the result's column. -/
theorem gather_rows2_axis1 (h1 : d.offsetDims = [1]) (h2 : d.collapsedSliceDims = [0]) (h3 : d.operandBatchingDims = [])
    (h4 : d.startIndexMap = [0]) (h5 : d.indexVectorDim = 1) (h6 : d.sliceSizes = ![1, C])
    {w : Nat} (idx : IVec ⟨2, ![N, 1]⟩ w) (k : Fin N) (c : Fin C) :
    (d.operandIdx (ix2 k c) idx 1).val = c.val := by
  obtain ⟨od, cd, ob, sb, sm, iv, ss, wf⟩ := d
  simp only at h1 h2 h3 h4 h5 h6
  subst h1 h2 h3 h4 h5 h6
  show GatherDims.start _ (ix2 k c) idx 1 + GatherDims.batchCoord _ (ix2 k c) 1 + GatherDims.offCoord _ (ix2 k c) 1 = _
  rw [GatherDims.batchCoord_eq_zero _ _ _ List.not_mem_nil]
  unfold GatherDims.start
  rw [dif_neg (fun h => absurd (List.mem_singleton.mp h) (show ¬((1 : Fin 2) = 0) by decide))]
  unfold GatherDims.offCoord
  rw [dif_pos ((GatherDims.mem_sKept _ _).2
    ⟨fun h => absurd (List.mem_singleton.mp h) (show ¬((1 : Fin 2) = 0) by decide), List.not_mem_nil⟩)]
  simp only [Nat.zero_add]
  rfl

/-- Result element (k, c) is the operand at row (clamped signed value of idx[k, 0]), column c. -/
theorem gather_rows2_apply (h1 : d.offsetDims = [1]) (h2 : d.collapsedSliceDims = [0]) (h3 : d.operandBatchingDims = [])
    (h4 : d.startIndexMap = [0]) (h5 : d.indexVectorDim = 1) (h6 : d.sliceSizes = ![1, C]) (hM : 0 < M)
    {w : Nat} (x : (⟨2, ![M, C]⟩ : Shape).Idx → α) (idx : IVec ⟨2, ![N, 1]⟩ w) (k : Fin N) (c : Fin C) :
    Host.gather d x idx (ix2 k c) = x (ix2 ⟨min (idx (ix2 k 0)).toInt.toNat (M - 1), by omega⟩ c) := by
  unfold Host.gather
  congr 1
  funext a
  refine Fin.ext ?_
  match a with
  | ⟨0, _⟩ => exact gather_rows2_axis0 d h1 h2 h3 h4 h5 h6 idx k c
  | ⟨1, _⟩ => exact gather_rows2_axis1 d h1 h2 h3 h4 h5 h6 idx k c

end Rank2

end Cert.EdgeForce.Ref

end
-- ==== Proof.LibScatterCount.lean ====
/-
  An integer scatter-add of scalar updates into a rank-1 array, read at one index as a sum over natural numbers.

  The scatter is a left fold over the update positions: each update is added to the result element its start index
  names, and dropped when that index lies outside the array. Reading the fold at ONE index k, only the updates whose
  start index is k matter, so the element is the operand's element plus the word sum of those updates
  (scatter_apply_fold, for any dimension numbers and any body). For an operand [M], scatter indices [N, 1] and
  updates [N] with the one operand axis inserted, update n lands at the signed value of idx[n, 0] when that lies in
  [0, M) (resultIdx?_eq_some_iff). When the operand's element and all updates together stay below 2 ^ w, no word
  addition wraps, and the word sum is the sum of the natural numbers (scatter_add_toNat).
-/
import Idealize.ShloMosaic.PureOps.ShapeOps
import Idealize.ShloMosaic.Lib.ValueIdx
import Mathlib.Algebra.BigOperators.Fin

noncomputable section

open scoped BigOperators

namespace Cert.LibScatterCount

open Idealize.ShloMosaic Idealize.ShloMosaic.ValueIdx

/-! ## The fold read at one index -/

/-- A scatter read at the index k: the fold, over the update positions in row-major order, that applies the body
    to the running element and the update exactly when the update lands at k. -/
theorem scatter_apply_fold {α : Type} {s si u : Shape} {w : Nat} (d : ScatterDims s si u) (f : α → α → α)
    (x : s.Idx → α) (idx : IVec si w) (upd : u.Idx → α) (k : s.Idx) :
    Host.scatter d f x idx upd k
      = (List.finRange u.numel).foldl (fun a n =>
          if d.resultIdx? (u.rowMajor.symm n) idx = some k then f a (upd (u.rowMajor.symm n)) else a) (x k) := by
  unfold Host.scatter
  generalize List.finRange u.numel = l
  induction l generalizing x with
  | nil => rfl
  | cons n l ih =>
    rw [List.foldl_cons, List.foldl_cons, ih]
    congr 1
    cases hg : d.resultIdx? (u.rowMajor.symm n) idx with
    | none => simp
    | some i =>
      by_cases hki : k = i
      · subst hki; simp
      · have hne : ¬ (some i = some k) := fun h => hki (Option.some.inj h).symm
        simp [hki, hne]

/-! ## Conditional word additions along a list, as natural numbers -/

/-- Adding to a word, along a list, the words v n of the positions that satisfy c: when the word and ALL the v n
    together stay below 2 ^ w nothing wraps, and the result is the word plus the sum of the selected v n. -/
theorem foldl_cond_addi_toNat {ι : Type} {w : Nat} (c : ι → Prop) [DecidablePred c] (v : ι → BitVec w) (l : List ι)
    (a : BitVec w) (hb : a.toNat + (l.map fun n => (v n).toNat).sum < 2 ^ w) :
    (l.foldl (fun a n => if c n then IntOp.addi a (v n) else a) a).toNat
      = a.toNat + (l.map fun n => if c n then (v n).toNat else 0).sum := by
  induction l generalizing a with
  | nil => simp
  | cons n l ih =>
    simp only [List.foldl_cons, List.map_cons, List.sum_cons] at hb ⊢
    by_cases hc : c n
    · have hadd : (IntOp.addi a (v n)).toNat = a.toNat + (v n).toNat := by
        show (a + v n).toNat = _
        rw [BitVec.toNat_add]; exact Nat.mod_eq_of_lt (by omega)
      rw [if_pos hc, if_pos hc, ih _ (by rw [hadd]; omega), hadd]; omega
    · rw [if_neg hc, if_neg hc, ih _ (by omega)]; omega

/-! ## A rank-1 index set, by its coordinate -/

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum along the row-major positions of a rank-1 shape is the sum over the coordinate. -/
theorem sum_finRange_rowMajor {N : Nat} (F : (⟨1, ![N]⟩ : Shape).Idx → ℕ) :
    ((List.finRange (⟨1, ![N]⟩ : Shape).numel).map fun n => F ((⟨1, ![N]⟩ : Shape).rowMajor.symm n)).sum
      = ∑ n : Fin N, F (ix1 n) := by
  rw [← Fin.sum_univ_def, Equiv.sum_comp (⟨1, ![N]⟩ : Shape).rowMajor.symm F,
    ← Equiv.sum_comp (idxEquiv1 (n := N)).symm F]
  rfl

/-! ## Where an update lands: operand [M], scatter indices [N, 1], updates [N], the operand's axis inserted -/

section Landing
variable {M N : Nat} (d : ScatterDims ⟨1, ![M]⟩ ⟨2, ![N, 1]⟩ ⟨1, ![N]⟩)

/-- The operand's one axis is inserted, so no update has a window coordinate on it. -/
theorem window_eq (h2 : d.insertedWindowDims = [0]) (j : (⟨1, ![N]⟩ : Shape).Idx) (a : Fin 1) : d.window j a = 0 := by
  obtain rfl : a = 0 := Subsingleton.elim _ _
  unfold ScatterDims.window
  rw [dif_neg]
  intro ha
  have hm := (List.mem_filter.1 ha).2
  rw [h2] at hm
  simp at hm

/-- The start of update j on the operand's axis is the scatter index idx[j, 0], read signed. -/
theorem start_eq (h1 : d.updateWindowDims = []) (h3 : d.scatterDimsToOperandDims = [0]) (h4 : d.indexVectorDim = 1)
    {w : Nat} (idx : IVec ⟨2, ![N, 1]⟩ w) (j : (⟨1, ![N]⟩ : Shape).Idx) (a : Fin 1) :
    d.start j idx a = (idx (ix2 (j 0) 0)).toInt := by
  obtain rfl : a = 0 := Subsingleton.elim _ _
  obtain ⟨uw, iw, sd, iv, wf⟩ := d
  simp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

/-- Update j lands at k exactly when its scatter index, read signed, is k (an index outside [0, M) lands nowhere). -/
theorem resultIdx?_eq_some_iff (h1 : d.updateWindowDims = []) (h2 : d.insertedWindowDims = [0])
    (h3 : d.scatterDimsToOperandDims = [0]) (h4 : d.indexVectorDim = 1)
    {w : Nat} (idx : IVec ⟨2, ![N, 1]⟩ w) (j : (⟨1, ![N]⟩ : Shape).Idx) (k : Fin M) :
    d.resultIdx? j idx = some (ix1 k) ↔ (idx (ix2 (j 0) 0)).toInt = (k.val : ℤ) := by
  have hs := start_eq d h1 h3 h4 idx j
  have hw := window_eq d h2 j
  unfold ScatterDims.resultIdx?
  split_ifs with h
  · rw [Option.some.injEq]
    constructor
    · intro he
      have h0 := h 0
      have hv : (d.start j idx 0 + (d.window j 0 : ℤ)).toNat = k.val := congrArg Fin.val (congrFun he 0)
      rw [hs 0, hw 0] at hv h0
      omega
    · intro he
      funext a
      obtain rfl : a = 0 := Subsingleton.elim _ _
      refine Fin.ext ?_
      show (d.start j idx 0 + (d.window j 0 : ℤ)).toNat = k.val
      rw [hs 0, hw 0, he]
      simp
  · constructor
    · intro he; cases he
    · intro he
      exfalso
      apply h
      intro a
      obtain rfl : a = 0 := Subsingleton.elim _ _
      rw [hs 0, hw 0, he]
      have hk : ((k.val : ℕ) : ℤ) < ((M : ℕ) : ℤ) := by exact_mod_cast k.isLt
      exact ⟨by simp, by simpa using hk⟩

end Landing

/-! ## The scatter-add read at an index, as natural numbers -/

/-- THE SCATTER-ADD AT k, any word widths: when the operand's element at k and all N updates together stay below
    2 ^ w, the result's element at k is the operand's plus the sum of the updates whose scatter index, read signed,
    is k. -/
theorem scatter_add_toNat_gen {M N w wi : Nat} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec w) (idx : (⟨2, ![N, 1]⟩ : Shape).Idx → BitVec wi)
    (upd : (⟨1, ![N]⟩ : Shape).Idx → BitVec w) (k : Fin M)
    (hb : (x (ix1 k)).toNat + (∑ n : Fin N, (upd (ix1 n)).toNat) < 2 ^ w) :
    (Host.scatter d IntOp.addi x idx upd (ix1 k)).toNat
      = (x (ix1 k)).toNat + ∑ n : Fin N, if (idx (ix2 n 0)).toInt = (k.val : ℤ) then (upd (ix1 n)).toNat else 0 := by
  rw [scatter_apply_fold]
  have hb' : (x (ix1 k)).toNat
      + ((List.finRange (⟨1, ![N]⟩ : Shape).numel).map fun n =>
          (upd ((⟨1, ![N]⟩ : Shape).rowMajor.symm n)).toNat).sum < 2 ^ w := by
    rw [sum_finRange_rowMajor (fun j => (upd j).toNat)]; exact hb
  rw [foldl_cond_addi_toNat
    (fun n => d.resultIdx? ((⟨1, ![N]⟩ : Shape).rowMajor.symm n) idx = some (ix1 k))
    (fun n => upd ((⟨1, ![N]⟩ : Shape).rowMajor.symm n)) _ _ hb']
  congr 1
  rw [sum_finRange_rowMajor (fun j => if d.resultIdx? j idx = some (ix1 k) then (upd j).toNat else 0)]
  refine Finset.sum_congr rfl fun n _ => ?_
  exact if_congr (resultIdx?_eq_some_iff d h1 h2 h3 h4 idx (ix1 n) k) rfl rfl

/-- THE SCATTER-ADD AT k, 32-bit words. -/
theorem scatter_add_toNat {M N : ℕ} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : (⟨2, ![N, 1]⟩ : Shape).Idx → BitVec 32)
    (upd : (⟨1, ![N]⟩ : Shape).Idx → BitVec 32) (k : Fin M)
    (hb : (x (ix1 k)).toNat + (∑ n : Fin N, (upd (ix1 n)).toNat) < 2 ^ 32) :
    (Host.scatter d IntOp.addi x idx upd (ix1 k)).toNat
      = (x (ix1 k)).toNat + ∑ n : Fin N, if (idx (ix2 n 0)).toInt = (k.val : ℤ) then (upd (ix1 n)).toNat else 0 :=
  scatter_add_toNat_gen d h1 h2 h3 h4 x idx upd k hb

end Cert.LibScatterCount

end
-- ==== Proof.RefScatter.lean ====
/-
  A float scatter-add of whole rows by one column of scatter indices, read at an index as a sum over the update rows.

  For an operand [M] (or [M, C]), scatter indices [N, 1] and updates [N] (or [N, C]) with the operand's first axis
  inserted and named by the scatter map, update row k lands at the row whose number is the signed value of idx[k, 0]
  (column unchanged), and nowhere when that value is outside [0, M). The exact sum at row n (column c) is therefore the
  operand's element plus the sum over k of update (k, c) where idx[k, 0] reads n.
-/
import Idealize.ShloMosaic.PureOps.Ideal
import Idealize.ShloMosaic.Lib.ValueIdx
import proofs.«418611_j20246475833437_3_alg».proof.Proof.LibScatterCount

noncomputable section

open scoped BigOperators

namespace Cert.EdgeForce.Ref

open Idealize.ShloMosaic Idealize.ShloMosaic.ValueIdx Cert.LibScatterCount

/-! ## Operand [M], updates [N] -/

section Rank1
variable {M N : Nat} (d : ScatterDims ⟨1, ![M]⟩ ⟨2, ![N, 1]⟩ ⟨1, ![N]⟩)

/-- The sum at n: the operand's element plus the updates whose scatter index reads n. -/
theorem scatterAdd_rows1_apply (h1 : d.updateWindowDims = []) (h2 : d.insertedWindowDims = [0])
    (h3 : d.scatterDimsToOperandDims = [0]) (h4 : d.indexVectorDim = 1)
    {w : Nat} (x : (⟨1, ![M]⟩ : Shape).Idx → EReal) (idx : IVec ⟨2, ![N, 1]⟩ w)
    (upd : (⟨1, ![N]⟩ : Shape).Idx → EReal) (n : Fin M) :
    Ideal.hostScatterAdd d x idx upd (ix1 n)
      = x (ix1 n) + ∑ k : Fin N, if (idx (ix2 k 0)).toInt = (n.val : ℤ) then upd (ix1 k) else 0 := by
  unfold Ideal.hostScatterAdd
  congr 1
  rw [Finset.sum_filter,
    ← Equiv.sum_comp (idxEquiv1 (n := N)).symm (fun j => if d.resultIdx? j idx = some (ix1 n) then upd j else 0)]
  refine Finset.sum_congr rfl fun k _ => ?_
  show (if d.resultIdx? (ix1 k) idx = some (ix1 n) then upd (ix1 k) else 0) = _
  exact if_congr (resultIdx?_eq_some_iff d h1 h2 h3 h4 idx (ix1 k) n) rfl rfl

end Rank1

/-! ## Operand [M, C], updates [N, C]: whole rows -/

section Rank2
variable {M C N : Nat} (d : ScatterDims ⟨2, ![M, C]⟩ ⟨2, ![N, 1]⟩ ⟨2, ![N, C]⟩)

/-- On the row axis the window starts at the scatter index idx[j₀, 0], read signed. -/
theorem start_rows2_axis0 (h1 : d.updateWindowDims = [1]) (h3 : d.scatterDimsToOperandDims = [0])
    (h4 : d.indexVectorDim = 1) {w : Nat} (idx : IVec ⟨2, ![N, 1]⟩ w) (j : (⟨2, ![N, C]⟩ : Shape).Idx) :
    d.start j idx 0 = (idx (ix2 (j 0) 0)).toInt := by
  obtain ⟨uw, iw, sd, iv, wf⟩ := d
  simp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

/-- On the column axis the window starts at 0. -/
theorem start_rows2_axis1 (h3 : d.scatterDimsToOperandDims = [0])
    {w : Nat} (idx : IVec ⟨2, ![N, 1]⟩ w) (j : (⟨2, ![N, C]⟩ : Shape).Idx) :
    d.start j idx 1 = 0 := by
  unfold ScatterDims.start
  rw [dif_neg]
  rw [h3]
  exact fun h => absurd (List.mem_singleton.mp h) (show ¬((1 : Fin 2) = 0) by decide)

/-- The row axis is inserted: no window coordinate on it. -/
theorem window_rows2_axis0 (h2 : d.insertedWindowDims = [0]) (j : (⟨2, ![N, C]⟩ : Shape).Idx) : d.window j 0 = 0 := by
  unfold ScatterDims.window
  rw [dif_neg]
  intro ha
  have hm := (List.mem_filter.1 ha).2
  rw [h2] at hm
  simp at hm

/-- The column axis carries the update's column. -/
theorem window_rows2_axis1 (h1 : d.updateWindowDims = [1]) (h2 : d.insertedWindowDims = [0])
    (j : (⟨2, ![N, C]⟩ : Shape).Idx) : d.window j 1 = (j 1).val := by
  obtain ⟨uw, iw, sd, iv, wf⟩ := d
  simp only at h1 h2
  subst h1 h2
  have hmem : (1 : Fin (Shape.rank ⟨2, ![M, C]⟩)) ∈ Shape.kept ⟨2, ![M, C]⟩ [0] := by
    unfold Shape.kept
    refine List.mem_filter.2 ⟨List.mem_finRange _, ?_⟩
    show decide ((1 : Fin 2) ∉ [(0 : Fin 2)]) = true
    decide
  unfold ScatterDims.window
  split_ifs with ha
  · rfl
  · exact absurd hmem ha

/-- Update (j₀, j₁) lands at (n, c) exactly when its scatter index, read signed, is n and its column is c. -/
theorem resultIdx?_rows2_eq_some_iff (h1 : d.updateWindowDims = [1]) (h2 : d.insertedWindowDims = [0])
    (h3 : d.scatterDimsToOperandDims = [0]) (h4 : d.indexVectorDim = 1)
    {w : Nat} (idx : IVec ⟨2, ![N, 1]⟩ w) (j : (⟨2, ![N, C]⟩ : Shape).Idx) (n : Fin M) (c : Fin C) :
    d.resultIdx? j idx = some (ix2 n c) ↔ (idx (ix2 (j 0) 0)).toInt = (n.val : ℤ) ∧ j 1 = c := by
  have hs0 := start_rows2_axis0 d h1 h3 h4 idx j
  have hs1 := start_rows2_axis1 d h3 idx j
  have hw0 := window_rows2_axis0 d h2 j
  have hw1 := window_rows2_axis1 d h1 h2 j
  have hn : ((n.val : ℕ) : ℤ) < ((M : ℕ) : ℤ) := by exact_mod_cast n.isLt
  have hj : (((j 1).val : ℕ) : ℤ) < ((C : ℕ) : ℤ) := by exact_mod_cast idx2_lt1 j
  unfold ScatterDims.resultIdx?
  split_ifs with h
  · rw [Option.some.injEq]
    constructor
    · intro he
      have h0 := h 0
      have v0 : (d.start j idx 0 + (d.window j 0 : ℤ)).toNat = n.val := congrArg Fin.val (congrFun he 0)
      have v1 : (d.start j idx 1 + (d.window j 1 : ℤ)).toNat = c.val := congrArg Fin.val (congrFun he 1)
      rw [hs0, hw0] at v0 h0
      rw [hs1, hw1] at v1
      exact ⟨by omega, Fin.ext (by omega)⟩
    · rintro ⟨he, hc⟩
      funext a
      refine Fin.ext ?_
      match a with
      | ⟨0, _⟩ =>
        show (d.start j idx 0 + (d.window j 0 : ℤ)).toNat = n.val
        rw [hs0, hw0, he]; simp
      | ⟨1, _⟩ =>
        show (d.start j idx 1 + (d.window j 1 : ℤ)).toNat = c.val
        rw [hs1, hw1, ← hc]; simp
  · constructor
    · intro he; cases he
    · rintro ⟨he, hc⟩
      exfalso
      apply h
      intro a
      match a with
      | ⟨0, _⟩ =>
        show 0 ≤ d.start j idx 0 + (d.window j 0 : ℤ) ∧ d.start j idx 0 + (d.window j 0 : ℤ) < ((M : ℕ) : ℤ)
        rw [hs0, hw0, he]
        exact ⟨by simp, by simpa using hn⟩
      | ⟨1, _⟩ =>
        show 0 ≤ d.start j idx 1 + (d.window j 1 : ℤ) ∧ d.start j idx 1 + (d.window j 1 : ℤ) < ((C : ℕ) : ℤ)
        rw [hs1, hw1]
        exact ⟨by simp, by simpa using hj⟩

/-- The sum at (n, c): the operand's element plus the updates (k, c) whose scatter index reads n. -/
theorem scatterAdd_rows2_apply (h1 : d.updateWindowDims = [1]) (h2 : d.insertedWindowDims = [0])
    (h3 : d.scatterDimsToOperandDims = [0]) (h4 : d.indexVectorDim = 1)
    {w : Nat} (x : (⟨2, ![M, C]⟩ : Shape).Idx → EReal) (idx : IVec ⟨2, ![N, 1]⟩ w)
    (upd : (⟨2, ![N, C]⟩ : Shape).Idx → EReal) (n : Fin M) (c : Fin C) :
    Ideal.hostScatterAdd d x idx upd (ix2 n c)
      = x (ix2 n c) + ∑ k : Fin N, if (idx (ix2 k 0)).toInt = (n.val : ℤ) then upd (ix2 k c) else 0 := by
  unfold Ideal.hostScatterAdd
  congr 1
  rw [Finset.sum_filter, sum_idx2]
  refine Finset.sum_congr rfl fun k _ => ?_
  have hiff : ∀ b : Fin C, (d.resultIdx? (ix2 k b) idx = some (ix2 n c))
      ↔ ((idx (ix2 k 0)).toInt = (n.val : ℤ) ∧ b = c) :=
    fun b => resultIdx?_rows2_eq_some_iff d h1 h2 h3 h4 idx (ix2 k b) n c
  simp only [hiff]
  by_cases hk : (idx (ix2 k 0)).toInt = (n.val : ℤ)
  · simp [hk]
  · simp [hk]

end Rank2

/-! ## The same two facts for the host's accumulating float scatter at the exact-arithmetic instance -/

section HostRank1
variable {M N : Nat} (d : ScatterDims ⟨1, ![M]⟩ ⟨2, ![N, 1]⟩ ⟨1, ![N]⟩)

/-- The host's accumulating float scatter at the exact instance is that sum. -/
theorem host_scatterAdd_rows1_apply {φ : FTy} (h1 : d.updateWindowDims = []) (h2 : d.insertedWindowDims = [0])
    (h3 : d.scatterDimsToOperandDims = [0]) (h4 : d.indexVectorDim = 1)
    {w : Nat} (x : FVec Ideal ⟨1, ![M]⟩ φ) (idx : IVec ⟨2, ![N, 1]⟩ w) (upd : FVec Ideal ⟨1, ![N]⟩ φ) (n : Fin M) :
    Host.scatterAdd (F := Ideal) d x idx upd (ix1 n)
      = x (ix1 n) + ∑ k : Fin N, if (idx (ix2 k 0)).toInt = (n.val : ℤ) then upd (ix1 k) else 0 :=
  scatterAdd_rows1_apply d h1 h2 h3 h4 x idx upd n

end HostRank1

section HostRank2
variable {M C N : Nat} (d : ScatterDims ⟨2, ![M, C]⟩ ⟨2, ![N, 1]⟩ ⟨2, ![N, C]⟩)

/-- The host's accumulating float scatter of rows at the exact instance is that sum. -/
theorem host_scatterAdd_rows2_apply {φ : FTy} (h1 : d.updateWindowDims = [1]) (h2 : d.insertedWindowDims = [0])
    (h3 : d.scatterDimsToOperandDims = [0]) (h4 : d.indexVectorDim = 1)
    {w : Nat} (x : FVec Ideal ⟨2, ![M, C]⟩ φ) (idx : IVec ⟨2, ![N, 1]⟩ w) (upd : FVec Ideal ⟨2, ![N, C]⟩ φ)
    (n : Fin M) (c : Fin C) :
    Host.scatterAdd (F := Ideal) d x idx upd (ix2 n c)
      = x (ix2 n c) + ∑ k : Fin N, if (idx (ix2 k 0)).toInt = (n.val : ℤ) then upd (ix2 k c) else 0 :=
  scatterAdd_rows2_apply d h1 h2 h3 h4 x idx upd n c

end HostRank2

end Cert.EdgeForce.Ref

end
-- ==== Proof.RefValue.lean ====
/-
  The reference program's result, index by index, is the specification's `refForm`.

  The reference reads the two rows of the edge array (a slice and a reshape each), wraps a negative node number by
  adding 100000 (the identity on node numbers in range), and gathers: the temperature column of x at the source and at
  the target node, and whole rows of the positions at both. Per edge it forms the temperature difference over the
  squared distance plus ε, times the coordinate differences. Two accumulating scatters by the target row then add,
  per node, the three coordinates' contributions and the number of arriving edges; each is the specification's sum
  over the edges that arrive at the node. The sum is divided by the count clipped below at one, scaled, and multiplied
  by the mask of column 8 of x.
-/
import proofs.«418611_j20246475833437_3_alg».proof.Proof.Spec
import proofs.«418611_j20246475833437_3_alg».proof.Proof.Gen.ReferenceIdeal.Read
import proofs.«418611_j20246475833437_3_alg».proof.Proof.RefGather
import proofs.«418611_j20246475833437_3_alg».proof.Proof.RefScatter
import Idealize.ShloMosaic.PureOps.Ideal.Laws

noncomputable section

open scoped BigOperators

namespace Cert.EdgeForce.Ref

open Idealize.ShloMosaic Idealize.ShloMosaic.ValueIdx Cert.ReferenceIdeal Cert.ReferenceIdeal.Gen Cert.ReferenceIdeal.Read

variable (x : SX.Idx → EReal) (p : SP.Idx → EReal) (e : SE.Idx → BitVec 32)

/-! ## The two rows of the edge array -/

/-- The first row at edge k. -/
theorem row0_apply (k : Fin 3200000) : val_main_v5 (F := Ideal) e (ix1 k) = e (ix2 (0 : Fin 2) k) := by
  rw [val_main_v5_apply, val_main_v4_apply]
  congr 1
  funext a
  refine Fin.ext ?_
  match a with
  | ⟨0, _⟩ => rfl
  | ⟨1, _⟩ => exact Nat.mod_eq_of_lt k.isLt

/-- The second row at edge k. -/
theorem row1_apply (k : Fin 3200000) : val_main_v7 (F := Ideal) e (ix1 k) = e (ix2 (1 : Fin 2) k) := by
  rw [val_main_v7_apply, val_main_v6_apply]
  congr 1
  funext a
  refine Fin.ext ?_
  match a with
  | ⟨0, _⟩ => rfl
  | ⟨1, _⟩ => exact Nat.mod_eq_of_lt k.isLt

/-- A column [N, 1] read at (k, 0) reads the vector at k. -/
theorem col_idx (k : Fin 3200000) : idx_main_v13 (ix2 k (0 : Fin 1)) = ix1 k := by
  funext a; refine Fin.ext ?_; match a with | ⟨0, _⟩ => rfl

/-! ## The four index columns: a node number below 100000 is not wrapped -/

theorem srcCol_T (k : Fin 3200000) (h : (e (ix2 (0 : Fin 2) k)).toNat < 100000) :
    val_main_v13 (F := Ideal) e (ix2 k (0 : Fin 1)) = e (ix2 (0 : Fin 2) k) := by
  rw [val_main_v13_apply, col_idx, val_main_v12_apply, val_main_v9_apply, val_main_v11_apply, val_main_v8_apply,
    val_main_c_apply, val_main_v10_apply, val_main_c_0_apply, row0_apply]
  exact wrap_of_lt (M := 100000) (by norm_num) h

theorem dstCol_T (k : Fin 3200000) (h : (e (ix2 (1 : Fin 2) k)).toNat < 100000) :
    val_main_v20 (F := Ideal) e (ix2 k (0 : Fin 1)) = e (ix2 (1 : Fin 2) k) := by
  rw [val_main_v20_apply, show idx_main_v20 (ix2 k (0 : Fin 1)) = ix1 k from col_idx k, val_main_v19_apply,
    val_main_v16_apply, val_main_v18_apply, val_main_v15_apply,
    val_main_c_1_apply, val_main_v17_apply, val_main_c_2_apply, row1_apply]
  exact wrap_of_lt (M := 100000) (by norm_num) h

theorem srcCol_P (k : Fin 3200000) (h : (e (ix2 (0 : Fin 2) k)).toNat < 100000) :
    val_main_v28 (F := Ideal) e (ix2 k (0 : Fin 1)) = e (ix2 (0 : Fin 2) k) := by
  rw [val_main_v28_apply, show idx_main_v28 (ix2 k (0 : Fin 1)) = ix1 k from col_idx k, val_main_v27_apply,
    val_main_v24_apply, val_main_v26_apply, val_main_v23_apply,
    val_main_c_3_apply, val_main_v25_apply, val_main_c_4_apply, row0_apply]
  exact wrap_of_lt (M := 100000) (by norm_num) h

theorem dstCol_P (k : Fin 3200000) (h : (e (ix2 (1 : Fin 2) k)).toNat < 100000) :
    val_main_v35 (F := Ideal) e (ix2 k (0 : Fin 1)) = e (ix2 (1 : Fin 2) k) := by
  rw [val_main_v35_apply, show idx_main_v35 (ix2 k (0 : Fin 1)) = ix1 k from col_idx k, val_main_v34_apply,
    val_main_v31_apply, val_main_v33_apply, val_main_v30_apply,
    val_main_c_5_apply, val_main_v32_apply, val_main_c_6_apply, row1_apply]
  exact wrap_of_lt (M := 100000) (by norm_num) h

/-- The scatter's index column is the second row, unwrapped. -/
theorem scatCol3 (k : Fin 3200000) : val_main_v47 (F := Ideal) e (ix2 k (0 : Fin 1)) = e (ix2 (1 : Fin 2) k) := by
  rw [val_main_v47_apply, show idx_main_v47 (ix2 k (0 : Fin 1)) = ix1 k from col_idx k, row1_apply]

theorem scatCol1 (k : Fin 3200000) : val_main_v51 (F := Ideal) e (ix2 k (0 : Fin 1)) = e (ix2 (1 : Fin 2) k) := by
  rw [val_main_v51_apply, show idx_main_v51 (ix2 k (0 : Fin 1)) = ix1 k from col_idx k, row1_apply]

/-! ## The features of a node, by cases -/

theorem feat_zero (n : ℕ) (h : n < 100000) : feat x p 0 n = x (ix2 (⟨n, h⟩ : Fin 100000) (3 : Fin 9)) := by
  unfold feat; rw [dif_pos h]; rfl

theorem feat_succ (c : Fin 3) (n : ℕ) (h : n < 100000) :
    feat x p (c.val + 1) n = p (ix2 (⟨n, h⟩ : Fin 100000) c) := by
  unfold feat; rw [dif_pos h]
  match c with
  | ⟨0, _⟩ => rfl
  | ⟨1, _⟩ => rfl
  | ⟨2, _⟩ => rfl

/-- The temperature column of x as a vector. -/
theorem temp_apply (n : Fin 100000) : val_main_v1 (F := Ideal) x (ix1 n) = x (ix2 n (3 : Fin 9)) := by
  rw [val_main_v1_apply, val_main_v0_apply]
  congr 1
  funext a
  refine Fin.ext ?_
  match a with
  | ⟨0, _⟩ => exact Nat.div_one _
  | ⟨1, _⟩ => rfl

/-! ## The gathers -/

theorem gatherT_src (hr : InRange e) (k : Fin 3200000) :
    val_main_v14 (F := Ideal) x e (ix1 k) = feat x p 0 (src e k) := by
  have hs : (e (ix2 (0 : Fin 2) k)).toNat < 100000 := hr _
  unfold val_main_v14
  rw [gather_rows1_apply _ rfl rfl rfl rfl rfl rfl (by norm_num), temp_apply, feat_zero x p (src e k) hs]
  refine congrArg (fun n => x (ix2 n (3 : Fin 9))) (Fin.ext ?_)
  show min (val_main_v13 (F := Ideal) e (ix2 k (0 : Fin 1))).toInt.toNat (100000 - 1) = (e (ix2 (0 : Fin 2) k)).toNat
  rw [srcCol_T e k hs, clamp_of_lt (by norm_num) hs]

theorem gatherT_dst (hr : InRange e) (k : Fin 3200000) :
    val_main_v21 (F := Ideal) x e (ix1 k) = feat x p 0 (dst e k) := by
  have hs : (e (ix2 (1 : Fin 2) k)).toNat < 100000 := hr _
  unfold val_main_v21
  rw [gather_rows1_apply _ rfl rfl rfl rfl rfl rfl (by norm_num), temp_apply, feat_zero x p (dst e k) hs]
  refine congrArg (fun n => x (ix2 n (3 : Fin 9))) (Fin.ext ?_)
  show min (val_main_v20 (F := Ideal) e (ix2 k (0 : Fin 1))).toInt.toNat (100000 - 1) = (e (ix2 (1 : Fin 2) k)).toNat
  rw [dstCol_T e k hs, clamp_of_lt (by norm_num) hs]

theorem gatherP_src (hr : InRange e) (k : Fin 3200000) (c : Fin 3) :
    val_main_v29 (F := Ideal) p e (ix2 k c) = feat x p (c.val + 1) (src e k) := by
  have hs : (e (ix2 (0 : Fin 2) k)).toNat < 100000 := hr _
  unfold val_main_v29
  rw [gather_rows2_apply _ rfl rfl rfl rfl rfl rfl (by norm_num), feat_succ x p c (src e k) hs]
  refine congrArg (fun n => p (ix2 n c)) (Fin.ext ?_)
  show min (val_main_v28 (F := Ideal) e (ix2 k (0 : Fin 1))).toInt.toNat (100000 - 1) = (e (ix2 (0 : Fin 2) k)).toNat
  rw [srcCol_P e k hs, clamp_of_lt (by norm_num) hs]

theorem gatherP_dst (hr : InRange e) (k : Fin 3200000) (c : Fin 3) :
    val_main_v36 (F := Ideal) p e (ix2 k c) = feat x p (c.val + 1) (dst e k) := by
  have hs : (e (ix2 (1 : Fin 2) k)).toNat < 100000 := hr _
  unfold val_main_v36
  rw [gather_rows2_apply _ rfl rfl rfl rfl rfl rfl (by norm_num), feat_succ x p c (dst e k) hs]
  refine congrArg (fun n => p (ix2 n c)) (Fin.ext ?_)
  show min (val_main_v35 (F := Ideal) e (ix2 k (0 : Fin 1))).toInt.toNat (100000 - 1) = (e (ix2 (1 : Fin 2) k)).toNat
  rw [dstCol_P e k hs, clamp_of_lt (by norm_num) hs]

/-! ## One edge's contribution -/

theorem dT_apply (hr : InRange e) (k : Fin 3200000) :
    val_main_v22 (F := Ideal) x e (ix1 k) = diff x p 0 (src e k) (dst e k) := by
  rw [val_main_v22_apply, gatherT_src x p e hr, gatherT_dst x p e hr]
  rfl

theorem dpos_apply (hr : InRange e) (k : Fin 3200000) (c : Fin 3) :
    val_main_v37 (F := Ideal) p e (ix2 k c) = diff x p (c.val + 1) (src e k) (dst e k) := by
  rw [val_main_v37_apply, gatherP_src x p e hr, gatherP_dst x p e hr]
  rfl

/-- The row sum's index (k, c). -/
theorem sumIdx (k : Fin 3200000) (c : Fin 3) : idx_main_v39 (ix1 k) c = ix2 k c := by
  funext a; refine Fin.ext ?_; match a with | ⟨0, _⟩ => rfl | ⟨1, _⟩ => rfl

theorem dist2_apply (hr : InRange e) (k : Fin 3200000) :
    val_main_v41 (F := Ideal) p e (ix1 k) = dist2 x p (src e k) (dst e k) := by
  rw [val_main_v41_apply, val_main_v39_apply, val_main_cst_apply, val_main_v40_apply, val_main_cst_7_apply,
    Fin.sum_univ_three, sumIdx, sumIdx, sumIdx, val_main_v38_apply, val_main_v38_apply, val_main_v38_apply,
    dpos_apply x p e hr, dpos_apply x p e hr, dpos_apply x p e hr]
  simp only [Ideal.ofBits_def, Ideal.ofBits_zero_f32, Ideal.addf_def, Ideal.mulf_def, zero_add]
  rfl

theorem coeff_apply (hr : InRange e) (k : Fin 3200000) :
    val_main_v42 (F := Ideal) x p e (ix1 k) = coeff x p (src e k) (dst e k) := by
  rw [val_main_v42_apply, dT_apply x p e hr, dist2_apply x p e hr]
  rfl

/-- The coefficient's broadcast along the row reads edge k. -/
theorem coeffIdx (k : Fin 3200000) (c : Fin 3) : idx_main_v43 (idx_main_v44 (ix2 k c)) = ix1 k := by
  funext a; refine Fin.ext ?_; match a with | ⟨0, _⟩ => rfl

theorem contrib_apply (hr : InRange e) (k : Fin 3200000) (c : Fin 3) :
    val_main_v45 (F := Ideal) x p e (ix2 k c) = term x p c.val (src e k) (dst e k) := by
  rw [val_main_v45_apply, val_main_v44_apply, val_main_v43_apply, coeffIdx, coeff_apply x p e hr, dpos_apply x p e hr]
  match c with
  | ⟨0, _⟩ => rfl
  | ⟨1, _⟩ => rfl
  | ⟨2, _⟩ => rfl

/-! ## The two scatters, as the sums over the edges that arrive at a node -/

theorem num_apply (hr : InRange e) (n : Fin 100000) (c : Fin 3) :
    val_main_v48 (F := Ideal) x p e (ix2 n c) = nodeSum x p e c.val n.val := by
  unfold val_main_v48
  rw [host_scatterAdd_rows2_apply _ rfl rfl rfl rfl, val_main_v46_apply, val_main_cst_8_apply]
  simp only [Ideal.ofBits_def, Ideal.ofBits_zero_f32, zero_add]
  unfold nodeSum
  refine Finset.sum_congr rfl fun k _ => ?_
  have hd : (e (ix2 (1 : Fin 2) k)).toNat < 100000 := hr _
  rw [scatCol3, contrib_apply x p e hr]
  refine if_congr ?_ rfl rfl
  rw [toInt_of_lt (M := 100000) (by norm_num) hd]
  exact Nat.cast_inj

theorem cnt_apply (hr : InRange e) (n : Fin 100000) :
    val_main_v52 (F := Ideal) e (ix1 n) = nodeSum x p e 3 n.val := by
  unfold val_main_v52
  rw [host_scatterAdd_rows1_apply _ rfl rfl rfl rfl, val_main_v50_apply, val_main_cst_10_apply]
  simp only [Ideal.ofBits_def, Ideal.ofBits_zero_f32, zero_add]
  unfold nodeSum
  refine Finset.sum_congr rfl fun k _ => ?_
  have hd : (e (ix2 (1 : Fin 2) k)).toNat < 100000 := hr _
  rw [scatCol1, val_main_v49_apply, val_main_cst_9_apply]
  refine if_congr ?_ rfl rfl
  rw [toInt_of_lt (M := 100000) (by norm_num) hd]
  exact Nat.cast_inj

/-! ## The result -/

/-- The clipped count's broadcast along a row reads node n. -/
theorem cntIdx (n : Fin 100000) (c : Fin 3) : idx_main_v55 (idx_main_v56 (ix2 n c)) = ix1 n := by
  funext a; refine Fin.ext ?_; match a with | ⟨0, _⟩ => rfl

/-- The mask's broadcast along a row reads node n. -/
theorem maskIdx (n : Fin 100000) (c : Fin 3) : idx_main_v64 (idx_main_v65 (ix2 n c)) = ix1 n := by
  funext a; refine Fin.ext ?_; match a with | ⟨0, _⟩ => rfl

/-- Column 8 of x as a vector. -/
theorem phi_apply (n : Fin 100000) : val_main_v3 (F := Ideal) x (ix1 n) = x (ix2 n (8 : Fin 9)) := by
  rw [val_main_v3_apply, val_main_v2_apply]
  congr 1
  funext a
  refine Fin.ext ?_
  match a with
  | ⟨0, _⟩ => exact Nat.div_one _
  | ⟨1, _⟩ => rfl

/-- THE REFERENCE'S RESULT is the sum over the clipped count, scaled, times the mask. -/
theorem ref_value (hr : InRange e) : val_main_v66 (F := Ideal) x p e = refForm x p e := by
  funext i
  obtain ⟨n, c, rfl⟩ : ∃ (n : Fin 100000) (c : Fin 3), i = ix2 n c := ⟨i 0, i 1, eq_ix2 i⟩
  rw [val_main_v66_apply, val_main_v59_apply, val_main_v58_apply, val_main_cst_12_apply, val_main_v57_apply,
    num_apply x p e hr, val_main_v56_apply, val_main_v55_apply, cntIdx, val_main_v54_apply, cnt_apply x p e hr,
    val_main_v53_apply, val_main_cst_11_apply, val_main_v65_apply, val_main_v64_apply, maskIdx, val_main_v63_apply,
    val_main_v62_apply, val_main_v60_apply, phi_apply, val_main_v61_apply, val_main_cst_13_apply]
  rfl

end Cert.EdgeForce.Ref

end
-- ==== Proof.PreDecode.lean ====
/-
  The printed precondition, read back. It is the conjunction of three statements, each an "all entries" reduction by
  "and" from the constant one: every entry of the first array has absolute value below +∞, every entry of the second
  likewise, and every entry of the integer array lies, read as a signed word, in [0, 100000). An extended real whose
  absolute value max(a, -a) is below +∞ is neither infinity, hence a real number; a 32-bit word whose signed value is
  in [0, 100000) has its unsigned value below 100000 as well.
-/
import proofs.«418611_j20246475833437_3_alg».proof.Proof.Spec
import proofs.«418611_j20246475833437_3_alg».proof.Pre_finite_inputs
import proofs.«418611_j20246475833437_3_alg».proof.Proof.Gen.Pre_finite_inputs
import Idealize.ShloMosaic.Lib.ReduceAll

namespace Cert.EdgeForce

open Idealize.ShloMosaic Idealize.ShloMosaic.ValueIdx Cert.ExtReal

/-- The word 0x7F800000 denotes +∞. -/
theorem inf_word : Ideal.ofBits .f32 0x7F800000#32 = (⊤ : EReal) := by
  simp [Ideal.ofBits, Ideal.ieee]

/-- An extended real whose absolute value compares below +∞ is a real number. -/
theorem isFin_of_abs_lt_inf (a : EReal)
    (h : Ideal.cmp .olt (max a (-a)) (Ideal.ofBits .f32 0x7F800000#32) = 1#1) : IsFin a := by
  rw [inf_word] at h
  have hlt : max a (-a) < (⊤ : EReal) := by
    by_contra hn
    have : Ideal.cmp .olt (max a (-a)) (⊤ : EReal) = 0#1 := by
      unfold Ideal.cmp
      simp only [decide_eq_false hn]
      rfl
    rw [this] at h
    exact absurd h (by decide)
  induction a using EReal.rec with
  | bot => exact absurd hlt (by simp)
  | coe r => exact ⟨r, rfl⟩
  | top => exact absurd hlt (by simp)

/-- A 32-bit word that is at least 0 and below 100000 as a signed number is below 100000 as an unsigned one. -/
theorem toNat_lt_of_signed_range (a : BitVec 32)
    (h : IntOp.andi (IntOp.cmpi .sge a 0#32) (IntOp.cmpi .slt a 100000#32) = 1#1) : a.toNat < 100000 := by
  obtain ⟨h0, h1⟩ := IntOp.andi_eq_one.1 h
  have g0 : (0#32 : BitVec 32).toInt ≤ a.toInt := by
    by_contra hn
    have : IntOp.cmpi .sge a 0#32 = 0#1 := by
      unfold IntOp.cmpi
      simp only [BitVec.sle, decide_eq_false hn]
      rfl
    rw [this] at h0
    exact absurd h0 (by decide)
  have g1 : a.toInt < (100000#32 : BitVec 32).toInt := by
    by_contra hn
    have : IntOp.cmpi .slt a 100000#32 = 0#1 := by
      unfold IntOp.cmpi
      simp only [BitVec.slt, decide_eq_false hn]
      rfl
    rw [this] at h1
    exact absurd h1 (by decide)
  have e0 : (0#32 : BitVec 32).toInt = 0 := by decide
  have e1 : (100000#32 : BitVec 32).toInt = 100000 := by decide
  rw [e0] at g0
  rw [e1] at g1
  rw [BitVec.toInt_eq_toNat_cond] at g0 g1
  have := a.isLt
  split at g0 <;> omega

instance : Subsingleton Cert.Pre_finite_inputs.S_.Idx := ⟨fun a b => funext fun d => d.elim0⟩

/-- The printed precondition holding says: both float arrays hold real numbers only, and every edge end is a node number. -/
theorem decode_pre [Cert.Pre_finite_inputs.Facts] (x : SX.Idx → EReal) (p : SP.Idx → EReal) (e : SE.Idx → BitVec 32)
    (h : Cert.Pre_finite_inputs.fn (F := Ideal) x p e = fun _ => 1#1) : AllFin x p ∧ InRange e := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨⟨fun i => ?_, fun i => ?_⟩, fun i => ?_⟩
  · exact isFin_of_abs_lt_inf (x i) (Host.reduce_andi_all _ _ _ _ _ h1 i)
  · exact isFin_of_abs_lt_inf (p i) (Host.reduce_andi_all _ _ _ _ _ h2 i)
  · exact toNat_lt_of_signed_range (e i) (Host.reduce_andi_all _ _ _ _ _ h3 i)

end Cert.EdgeForce
-- ==== Proof.lean ====
/-
  The certificate: a fused gather / scatter kernel against its gather + segment-sum reference.

  Every edge k goes from node src k to node dst k. It adds (T[src] − T[dst]) / (|pos[src] − pos[dst]|² + ε) ·
  (pos[src] − pos[dst]) to the gradient sum of its target and one to its count; the result at a node is the scaled
  sum over its count clipped below at one, masked by the interface field. The reference gathers by index and
  scatter-adds; the kernel factors a node number as hi · 512 + lo, gathers by products with the one-hot matrices of hi
  and lo, and scatters by the product of the two one-hots with the per-edge value, accumulating over 1250 blocks of
  1280 edges on each of two cores, whose two partial sums the host adds. At the ideal instance a change of float
  format is the identity, so the "low part" of every hi/lo split is x − x = 0 for real x: this is where the
  precondition's finiteness is used; the node numbers must lie in [0, 100000), where both gathers read the same
  entries. The two results agree index by index as extended reals: the sum over all edges arriving at a node is the
  sum over the blocks of the blocks' sums, and dividing by a nonzero real is multiplying by its reciprocal.

  The frames: each kernel program runs the host lines, the one pipelined region (the accumulator reset at the first
  inner step of a core, added to at every step, copied out at the last), and the host lines after it, and leaves its
  three arguments as they were; the reference is a host program whose run is read back operation by operation.
-/
import proofs.«418611_j20246475833437_3_alg».proof.Defs
import proofs.«418611_j20246475833437_3_alg».proof.Proof.Gen.Kernel
import proofs.«418611_j20246475833437_3_alg».proof.Proof.Gen.KernelIdeal
import proofs.«418611_j20246475833437_3_alg».proof.Proof.Gen.ReferenceIdeal
import proofs.«418611_j20246475833437_3_alg».proof.Proof.Gen.Pre_finite_inputs
import proofs.«418611_j20246475833437_3_alg».proof.Proof.Gen.ReferenceIdeal.Read
import proofs.«418611_j20246475833437_3_alg».proof.Proof.Kernel.Frame
import proofs.«418611_j20246475833437_3_alg».proof.Proof.KernelIdeal.KernelValue
import proofs.«418611_j20246475833437_3_alg».proof.Proof.RefValue
import proofs.«418611_j20246475833437_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Fr.frame m ρ

/-- So does the idealized one. -/
theorem frame_kernelIdeal : Cert.frame_KernelIdeal := fun m ρ _ => Cert.KernelIdeal.Fr.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The five places where the ideal program drops a narrowing to bf16 followed by a widening back: at the ideal
    instance that pair is the identity. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16⟩

/-- Both programs end with the specification's result of the arguments. -/
theorem algebraic : Cert.algebraic_KernelIdeal_ReferenceIdeal := by
  intro m ρ m' ρ' hpre hagree
  refine ⟨fun c => Cert.EdgeForce.refForm (Cert.KernelIdeal.Acc.argX m c) (Cert.KernelIdeal.Acc.argP m c) (Cert.KernelIdeal.Acc.argE m c), ?_, ?_⟩
  · refine (θ_run (Cert.KernelIdeal.defs (F := Ideal)) _ _).mono (fun r h c => ?_) (Cert.KernelIdeal.Fr.run_main (F := Ideal) m ρ)
    obtain ⟨hfin, hin⟩ := Cert.EdgeForce.decode_pre _ _ _ (hpre c)
    refine ⟨?_, ?_, ?_, ?_⟩
    · exact ((h c).2 Cert.KernelIdeal.main_v57 (Pipeline.mem_restRefs_of _ (by decide) (by decide))).trans
        (Cert.KernelIdeal.Acc.kernel_result m c hfin hin)
    · exact ((h c).2 Cert.KernelIdeal.main_arg0 (Pipeline.mem_restRefs_of _ (by decide) (by decide))).trans
        (Cert.KernelIdeal.Fr.tail_keeps m (Cert.KernelIdeal.Fr.dats m) c _ (by decide) (by decide) (by decide))
    · exact ((h c).2 Cert.KernelIdeal.main_arg1 (Pipeline.mem_restRefs_of _ (by decide) (by decide))).trans
        (Cert.KernelIdeal.Fr.tail_keeps m (Cert.KernelIdeal.Fr.dats m) c _ (by decide) (by decide) (by decide))
    · exact ((h c).2 Cert.KernelIdeal.main_arg2 (Pipeline.mem_restRefs_of _ (by decide) (by decide))).trans
        (Cert.KernelIdeal.Fr.tail_keeps m (Cert.KernelIdeal.Fr.dats m) c _ (by decide) (by decide) (by decide))
  · refine (θ_run (Cert.ReferenceIdeal.defs (F := Ideal)) _ _).mono (fun r h c => ⟨?_, (h c).2.1, (h c).2.2.1, (h c).2.2.2⟩)
      (Cert.ReferenceIdeal.Value.run (F := Ideal) m' ρ')
    obtain ⟨hfin, hin⟩ := Cert.EdgeForce.decode_pre _ _ _ (hpre c)
    rw [(h c).1, Cert.ReferenceIdeal.Read.val_main_v66_eq, (hagree c).1, (hagree c).2.1, (hagree c).2.2]
    exact Cert.EdgeForce.Ref.ref_value _ _ _ hin

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
